-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  reducesTo_S_S_d : S_.ReducesTo [] S_

variable [Facts]

def fn_part4 {F : FTy → Type} [FloatOps F] (main_arg14 : FVec F S_ .f32) (main_v63 : IVec S_ 1) (main_v67 : IVec S_ 1) : IVec S_ 1 :=
  let main_v68 : IVec S_ 1 := andi main_v63 main_v67
  let main_v69 : FVec F S_ .f32 := Host.absf main_arg14
  let main_cst_26 : FVec F S_ .f32 := constant S_ .f32 0x7F800000#32
  let main_v70 : IVec S_ 1 := cmpf .olt main_v69 main_cst_26
  let main_c_27 : IVec S_ 1 := constantI S_ 1 1#1
  let main_v71 : IVec S_ 1 := (fun x v => Host.reduce IntOp.andi x v reducesTo_S_S_d h_S_) main_v70 main_c_27
  let main_v72 : IVec S_ 1 := andi main_v68 main_v71
  main_v72

def fn_part3 {F : FTy → Type} [FloatOps F] (main_arg11 : FVec F S256 .f32) (main_arg12 : FVec F S512x256 .f32) (main_arg13 : FVec F S512 .f32) (main_arg14 : FVec F S_ .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S512x256 .f32 := Host.absf main_arg12
  let main_cst_22 : FVec F S_ .f32 := constant S_ .f32 0x7F800000#32
  let main_v60 : FVec F S512x256 .f32 := broadcastInDim S512x256 ![] bcast_S_S512x256 main_cst_22
  let main_v61 : IVec S512x256 1 := cmpf .olt main_v59 main_v60
  let main_c_23 : IVec S_ 1 := constantI S_ 1 1#1
  let main_v62 : IVec S_ 1 := (fun x v => Host.reduce IntOp.andi x v reducesTo_S512x256_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_v63 main_v67

def fn_part2 {F : FTy → Type} [FloatOps F] (main_arg7 : FVec F S256 .f32) (main_arg8 : FVec F S256x512 .f32) (main_arg9 : FVec F S256 .f32) (main_arg10 : FVec F S256x512 .f32) (main_arg11 : FVec F S256 .f32) (main_arg12 : FVec F S512x256 .f32) (main_arg13 : FVec F S512 .f32) (main_arg14 : FVec F S_ .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x512 .f32 := Host.absf main_arg10
  let main_cst_18 : FVec F S_ .f32 := constant S_ .f32 0x7F800000#32
  let main_v50 : FVec F S256x512 .f32 := broadcastInDim S256x512 ![] bcast_S_S256x512 main_cst_18
  fn_part3 (F := F) main_arg11 main_arg12 main_arg13 main_arg14 main_v48 main_v49 main_v50

def fn_part1 {F : FTy → Type} [FloatOps F] (main_arg4 : FVec F S256x512 .f32) (main_arg5 : FVec F S256 .f32) (main_arg6 : FVec F S256x512 .f32) (main_arg7 : FVec F S256 .f32) (main_arg8 : FVec F S256x512 .f32) (main_arg9 : FVec F S256 .f32) (main_arg10 : FVec F S256x512 .f32) (main_arg11 : FVec F S256 .f32) (main_arg12 : FVec F S512x256 .f32) (main_arg13 : FVec F S512 .f32) (main_arg14 : FVec F S_ .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x512 .f32) (main_arg1 : FVec F S8192x512 .f32) (main_arg2 : FVec F S256x512 .f32) (main_arg3 : FVec F S256 .f32) (main_arg4 : FVec F S256x512 .f32) (main_arg5 : FVec F S256 .f32) (main_arg6 : FVec F S256x512 .f32) (main_arg7 : FVec F S256 .f32) (main_arg8 : FVec F S256x512 .f32) (main_arg9 : FVec F S256 .f32) (main_arg10 : FVec F S256x512 .f32) (main_arg11 : FVec F S256 .f32) (main_arg12 : FVec F S512x256 .f32) (main_arg13 : FVec F S512 .f32) (main_arg14 : FVec F S_ .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x512 : Shape := ⟨2, ![8192, 512]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩
abbrev S768x512 : Shape := ⟨2, ![768, 512]⟩
abbrev S768 : Shape := ⟨1, ![768]⟩
abbrev S512x768 : Shape := ⟨2, ![512, 768]⟩
abbrev S8192x768 : Shape := ⟨2, ![8192, 768]⟩
abbrev S1x768 : Shape := ⟨2, ![1, 768]⟩
abbrev S8192x256 : Shape := ⟨2, ![8192, 256]⟩
abbrev S1x512 : Shape := ⟨2, ![1, 512]⟩
abbrev S1024x256 : Shape := ⟨2, ![1024, 256]⟩
abbrev S2048x256 : Shape := ⟨2, ![2048, 256]⟩
abbrev S1024x512 : Shape := ⟨2, ![1024, 512]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 59
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S256x512, .f32⟩
  | .hbm, ⟨3, _⟩ => ⟨S256, .f32⟩
  | .hbm, ⟨4, _⟩ => ⟨S256x512, .f32⟩
  | .hbm, ⟨5, _⟩ => ⟨S256, .f32⟩
  | .hbm, ⟨6, _⟩ => ⟨S256x512, .f32⟩
  | .hbm, ⟨7, _⟩ => ⟨S256, .f32⟩
  | .hbm, ⟨8, _⟩ => ⟨S256x512, .f32⟩
  | .hbm, ⟨9, _⟩ => ⟨S256, .f32⟩
  | .hbm, ⟨10, _⟩ => ⟨S256x512, .f32⟩
  | .hbm, ⟨11, _⟩ => ⟨S256, .f32⟩
  | .hbm, ⟨12, _⟩ => ⟨S512x256, .f32⟩
  | .hbm, ⟨13, _⟩ => ⟨S512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S768x512, .f32⟩
  | .hbm, ⟨25, _⟩ => ⟨S768, .f32⟩
  | .hbm, ⟨26, _⟩ => ⟨S512x768, .f32⟩
  | .hbm, ⟨27, _⟩ => ⟨S8192x768, .f32⟩
  | .hbm, ⟨28, _⟩ => ⟨S1x768, .f32⟩
  | .hbm, ⟨29, _⟩ => ⟨S8192x768, .f32⟩
  | .hbm, ⟨30, _⟩ => ⟨S8192x768, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .bf16⟩
  | .hbm, ⟨35, _⟩ => ⟨S8192x256, .f32⟩
  | .hbm, ⟨36, _⟩ => ⟨S8192x256, .bf16⟩
  | .hbm, ⟨37, _⟩ => ⟨S8192x256, .f32⟩
  | .hbm, ⟨38, _⟩ => ⟨S8192x256, .bf16⟩
  | .hbm, ⟨39, _⟩ => ⟨S768x512, .f32⟩
  | .hbm, ⟨40, _⟩ => ⟨S768, .f32⟩
  | .hbm, ⟨41, _⟩ => ⟨S512x768, .f32⟩
  | .hbm, ⟨42, _⟩ => ⟨S8192x768, .f32⟩
  | .hbm, ⟨43, _⟩ => ⟨S1x768, .f32⟩
  | .hbm, ⟨44, _⟩ => ⟨S8192x768, .f32⟩
  | .hbm, ⟨45, _⟩ => ⟨S8192x768, .f32⟩
  | .hbm, ⟨46, _⟩ => ⟨S8192x256, .f32⟩
  | .hbm, ⟨47, _⟩ => ⟨S8192x256, .f32⟩
  | .hbm, ⟨48, _⟩ => ⟨S8192x256, .f32⟩
  | .hbm, ⟨49, _⟩ => ⟨S8192x256, .bf16⟩
  | .hbm, ⟨50, _⟩ => ⟨S8192x256, .f32⟩
  | .hbm, ⟨51, _⟩ => ⟨S8192x256, .bf16⟩
  | .hbm, ⟨52, _⟩ => ⟨S8192x256, .f32⟩
  | .hbm, ⟨53, _⟩ => ⟨S8192x256, .bf16⟩
  | .hbm, ⟨54, _⟩ => ⟨S256x512, .f32⟩
  | .hbm, ⟨55, _⟩ => ⟨S256x512, .bf16⟩
  | .hbm, ⟨56, _⟩ => ⟨S1x512, .f32⟩
  | .hbm, ⟨57, _⟩ => ⟨S8192x512, .f32⟩
  | .hbm, ⟨58, _⟩ => ⟨S8192x512, .f32⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S256x512, .bf16⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x1, .f32⟩
  | .local _ .vmem, ⟨11, _⟩ => ⟨S1024x1, .f32⟩
  | .local _ .vmem, ⟨12, _⟩ => ⟨S1024x256, .f32⟩
  | .local _ .vmem, ⟨13, _⟩ => ⟨S1024x256, .bf16⟩
  | .local _ .vmem, ⟨14, _⟩ => ⟨S1024x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S256x512, .bf16⟩
  | .local _ .vmem, ⟨20, _⟩ => ⟨S1x512, .f32⟩
  | .local _ .vmem, ⟨21, _⟩ => ⟨S1024x512, .f32⟩
  | .local _ .vmem, ⟨22, _⟩ => ⟨S1024x512, .f32⟩
  | .local _ .vmem, ⟨23, _⟩ => ⟨S1024x1, .f32⟩
  | .local _ .vmem, ⟨24, _⟩ => ⟨S1024x1, .f32⟩
  | .local _ .vmem, ⟨25, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v0 : Ref sig .tc := ⟨.hbm, 20, rfl⟩
abbrev main_v1 : Ref sig .tc := ⟨.hbm, 21, rfl⟩
abbrev main_cst_1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_21 : BitVec 32 := 0#32
  let v41 : BitVec 1 := Scalar.cmpi .ne v40 c0_i32_21
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S256x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  concatenates_S256x512_S256x512_S256x512_S768x512_d0 : Shape.Concatenates [S256x512, S256x512, S256x512] S768x512 0
  concatenates_S256_S256_S256_S768_d0 : Shape.Concatenates [S256, S256, S256] S768 0
  transposes_S768x512_S512x768_1_0 : S768x512.Transposes [1, 0] S512x768
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  slices_S8192x768_S8192x256_0_0 : S8192x768.Slices ![0, 0] S8192x256
  bcast_S_S8192x256 : S_.BroadcastsInDim S8192x256 (![] : Fin 0 → Fin S8192x256.rank)
  bitsLt_bf16_f32 : FTy.bits .bf16 < FTy.bits .f32
  slices_S8192x768_S8192x256_0_256 : S8192x768.Slices ![0, 256] S8192x256
  slices_S8192x768_S8192x256_0_512 : S8192x768.Slices ![0, 512] S8192x256
  transposes_S512x256_S256x512_1_0 : S512x256.Transposes [1, 0] S256x512
  shapeCasts_S512_S1x512 : S512.ShapeCasts S1x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x256 : S1024x1.Broadcasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S8192x512_S512x768_S8192x768_1_0_0_1_n_n_wf : DotDims.WF S8192x512 S512x768 S8192x768 [1] [0] [0] [1] [] []
  dot_S1024x256_S2048x256_S1024x2048_1_1_0_0_n_n_wf : DotDims.WF S1024x256 S2048x256 S1024x2048 [1] [1] [0] [0] [] []
  dot_S1024x2048_S2048x256_S1024x256_1_0_0_1_n_n_wf : DotDims.WF S1024x2048 S2048x256 S1024x256 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .bf16 = 32 ∨ (Rect.block (s := S8192x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .bf16 = 32 ∨ (Rect.block (s := S8192x256) S2048x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .f32 = 32 ∨ (Rect.block (s := S8192x512) S1024x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .bf16 = 32 ∨ (Rect.block (s := S8192x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S8192x256.size a
  hwx1_2 : ∀ i : grid1.Coords, EltTy.bits .bf16 = 32 ∨ (Rect.block (s := S8192x256) S2048x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .bf16 = 32 ∨ (Rect.block (s := S256x512) S256x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S8192x512.size a
  hwx1_5 : ∀ i : grid1.Coords, EltTy.bits .f32 = 32 ∨ (Rect.block (s := S8192x512) S1024x512.size (cc1_transform_5 i) (hinb1_5 i)).WholeWords (EltTy.packing .f32)

variable [Facts₀]

def dot_S8192x512_S512x768_S8192x768_1_0_0_1_n_n : DotDims S8192x512 S512x768 S8192x768 where
  lhsContracting := [1]
  rhsContracting := [0]
  lhsNonContracting := [0]
  rhsNonContracting := [1]
  lhsBatch := []
  rhsBatch := []
  wf := dot_S8192x512_S512x768_S8192x768_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v13) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v28) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩
abbrev S8192x256 : Shape := ⟨2, ![8192, 256]⟩
abbrev S1x256 : Shape := ⟨2, ![1, 256]⟩
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩
abbrev S1x512 : Shape := ⟨2, ![1, 512]⟩

abbrev nBuf : Space → Nat
  | .hbm => 101
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S256x512, .f32⟩
  | .hbm, ⟨3, _⟩ => ⟨S256, .f32⟩
  | .hbm, ⟨4, _⟩ => ⟨S256x512, .f32⟩
  | .hbm, ⟨5, _⟩ => ⟨S256, .f32⟩
  | .hbm, ⟨6, _⟩ => ⟨S256x512, .f32⟩
  | .hbm, ⟨7, _⟩ => ⟨S256, .f32⟩
  | .hbm, ⟨8, _⟩ => ⟨S256x512, .f32⟩
  | .hbm, ⟨9, _⟩ => ⟨S256, .f32⟩
  | .hbm, ⟨10, _⟩ => ⟨S256x512, .f32⟩
  | .hbm, ⟨11, _⟩ => ⟨S256, .f32⟩
  | .hbm, ⟨12, _⟩ => ⟨S512x256, .f32⟩
  | .hbm, ⟨13, _⟩ => ⟨S512, .f32⟩
  | .hbm, ⟨14, _⟩ => ⟨S_, .f32⟩
  | .hbm, ⟨15, _⟩ => ⟨S512x256, .f32⟩
  | .hbm, ⟨16, _⟩ => ⟨S8192x256, .f32⟩
  | .hbm, ⟨17, _⟩ => ⟨S1x256, .f32⟩
  | .hbm, ⟨18, _⟩ => ⟨S8192x256, .f32⟩
  | .hbm, ⟨19, _⟩ => ⟨S8192x256, .f32⟩
  | .hbm, ⟨20, _⟩ => ⟨S512x256, .f32⟩
  | .hbm, ⟨21, _⟩ => ⟨S8192x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S512x256, .f32⟩
  | .hbm, ⟨26, _⟩ => ⟨S8192x256, .f32⟩
  | .hbm, ⟨27, _⟩ => ⟨S1x256, .f32⟩
  | .hbm, ⟨28, _⟩ => ⟨S8192x256, .f32⟩
  | .hbm, ⟨29, _⟩ => ⟨S8192x256, .f32⟩
  | .hbm, ⟨30, _⟩ => ⟨S512x256, .f32⟩
  | .hbm, ⟨31, _⟩ => ⟨S8192x256, .f32⟩
  | .hbm, ⟨32, _⟩ => ⟨S1x256, .f32⟩
  | .hbm, ⟨33, _⟩ => ⟨S8192x256, .f32⟩
  | .hbm, ⟨34, _⟩ => ⟨S8192x256, .f32⟩
  | .hbm, ⟨35, _⟩ => ⟨S512x256, .f32⟩
  | .hbm, ⟨36, _⟩ => ⟨S8192x256, .f32⟩
  | .hbm, ⟨37, _⟩ => ⟨S1x256, .f32⟩
  | .hbm, ⟨38, _⟩ => ⟨S8192x256, .f32⟩
  | .hbm, ⟨39, _⟩ => ⟨S8192x256, .f32⟩
  | .hbm, ⟨40, _⟩ => ⟨S512x256, .f32⟩
  | .hbm, ⟨41, _⟩ => ⟨S8192x256, .f32⟩
  | .hbm, ⟨42, _⟩ => ⟨S1x256, .f32⟩
  | .hbm, ⟨43, _⟩ => ⟨S8192x256, .f32⟩
  | .hbm, ⟨44, _⟩ => ⟨S8192x256, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S256x8192, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192x1, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x8192, .f32⟩
  | .hbm, ⟨70, _⟩ => ⟨S8192x8192, .f32⟩
  | .hbm, ⟨71, _⟩ => ⟨S8192x256, .f32⟩
  | .hbm, ⟨72, _⟩ => ⟨S256x8192, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192x1, .f32⟩
  | .hbm, ⟨82, _⟩ => ⟨S8192x8192, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x8192, .f32⟩
  | .hbm, ⟨89, _⟩ => ⟨S8192x8192, .f32⟩
  | .hbm, ⟨90, _⟩ => ⟨S8192x256, .f32⟩
  | .hbm, ⟨91, _⟩ => ⟨S256x512, .f32⟩
  | .hbm, ⟨92, _⟩ => ⟨S8192x512, .f32⟩
  | .hbm, ⟨93, _⟩ => ⟨S1x512, .f32⟩
  | .hbm, ⟨94, _⟩ => ⟨S8192x512, .f32⟩
  | .hbm, ⟨95, _⟩ => ⟨S8192x512, .f32⟩
  | .hbm, ⟨96, _⟩ => ⟨S256x512, .f32⟩
  | .hbm, ⟨97, _⟩ => ⟨S8192x512, .f32⟩
  | .hbm, ⟨98, _⟩ => ⟨S1x512, .f32⟩
  | .hbm, ⟨99, _⟩ => ⟨S8192x512, .f32⟩
  | .hbm, ⟨100, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_cst_0 : Ref sig .tc := ⟨.hbm, 46, rfl⟩
abbrev main_call0_v0 : Ref sig .tc := ⟨.hbm, 47, rfl⟩
abbrev main_call0_v1 : Ref sig .tc := ⟨.hbm, 48, rfl⟩
abbrev main_v30 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_2 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_5 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_7 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  transposes_S512x256_S256x512_1_0 : S512x256.Transposes [1, 0] S256x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x256_S8192x256_1_0_0_1_n_n_wf : DotDims.WF S8192x512 S512x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x256_S256x512_S8192x512_1_0_0_1_n_n_wf : DotDims.WF S8192x256 S256x512 S8192x512 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf

class Facts : Prop extends Facts₀ where

variable [Facts]
-- ==== Proof.KBase0.lean ====
/-
  Region 0 (one of the two attention branches): what every later module about it is stated over.

  The region is entered with the TensorCore's buffers at contents `V`. A grid point `t` of the 8 × 4 grid is a
  pair (query tile, key tile); the key-tile coordinate is `t mod 4`. Window 0 is the query tile's rows of Q,
  windows 1 and 2 the key tile's rows of K and of V, windows 3 and 4 the output projection and its bias (one
  block, never moving), window 5 the query tile's rows of the result. The three scratch buffers carry the
  running row maximum, the running row sum and the running weighted sum from one key tile to the next.
  The body has two branches: the reset of the scratch at the first key tile (`t mod 4 = 0`) and the epilogue at
  the last (`t mod 4 = 3`), the only points at which the result window is stored into and written back.
-/
import proofs.«412178_j26319559590733_3_alg».proof.Proof.Gen.Kernel.Launch
import proofs.«412178_j26319559590733_3_alg».proof.Proof.Gen.Kernel.Skeleton
import proofs.«412178_j26319559590733_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block of the entry array at every point, whether the
    point fetches it or not: between two fetches the block index does not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block of the entry array at every point, whether the
    point fetches it or not: between two fetches the block index does not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block of the entry array at every point, whether the
    point fetches it or not: between two fetches the block index does not move. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds the window's block of the entry array at every point, whether the
    point fetches it or not: between two fetches the block index does not move. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds the window's block of the entry array at every point, whether the
    point fetches it or not: between two fetches the block index does not move. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions, decided over the grid -/

/-- The reset branch is taken: the key-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The epilogue branch is taken: the key-tile coordinate is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last key tile the result window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last key tile it is live. -/
theorem liveAt0_5 : ∀ t : Fin cfg0.N, cond0_1 (grid0.coords t) → cfg0.idle 5 (grid0.coords t) = false := by decide +kernel

/-! ## The memrefs the body is called with -/

abbrev VO0_5 : View sig .tc .vmem S1024x512 .f32 := (Memref.whole cc0_stg5_0 : Memref sig .tc .vmem S1024x512 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
/-- The scratch operands: the running maximum, the running sum, the running weighted sum. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x256 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x256 .f32 := scM0_2.view

/-- The scoped buffers of the core that are no staging buffer of this region and no scratch of it, each at some contents:
    what the region's invariant carries along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The launch's invariant for this region, with the three scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ others0 c) ∗ (∃ r, prngReg c r)) := by
  unfold Pipeline.ΦA others0
  rw [Pipeline.scopedRest_eq_of_list spec0 c [cc0_scratch0, cc0_scratch1, cc0_scratch2, cc1_stg0_0, cc1_stg0_1, cc1_stg1_0, cc1_stg1_1, cc1_stg2_0, cc1_stg2_1, cc1_stg3_0, cc1_stg4_0, cc1_stg5_0, cc1_stg5_1, cc1_scratch0, cc1_scratch1, cc1_scratch2] (by decide) (by decide)]
  simp only [scM0_0, scM0_1, scM0_2, owns_whole]; try rfl

end Cert.Kernel.Attn

end
-- ==== Proof.KRun0A.lean ====
/-
  Region 0, the body at a FIRST key tile (the reset branch taken, the epilogue not): the scratch buffers are reset to
  (−∞, 0, 0) and then updated by this tile's scores; the result window is not touched. The triple below says so
  over whole staging memrefs, the stores each scratch buffer ends with recorded as pieces (last first).
-/
import proofs.«412178_j26319559590733_3_alg».proof.Proof.KBase0

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : cond0_0 i) (hc1 : ¬cond0_1 i)
    (x0 : Vec F S1024x256 .bf16) (x1 : Vec F S2048x256 .bf16) (x2 : Vec F S2048x256 .bf16) (x3 : Vec F S256x512 .bf16) (x4 : Vec F S1x512 .f32) :
    Σ' (L5 : List (View.Piece (Elt F) S1024x512 .f32)) (LS0 : List (View.Piece (Elt F) S1024x1 .f32)) (LS1 : List (View.Piece (Elt F) S1024x1 .f32)), { LS2 : List (View.Piece (Elt F) S1024x256 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__cross_attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc0__cross_attn_kernel_eq_skeleton]; unfold cc0__cross_attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Attn

end
-- ==== Proof.KRun0B.lean ====
/-
  Region 0, the body at a MIDDLE key tile (neither branch taken): the scratch buffers, entered at what the tile
  before left, are updated by this tile's scores; the result window is not touched.
-/
import proofs.«412178_j26319559590733_3_alg».proof.Proof.KRun0A

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond0_0 i) (hc1 : ¬cond0_1 i)
    (x0 : Vec F S1024x256 .bf16) (x1 : Vec F S2048x256 .bf16) (x2 : Vec F S2048x256 .bf16) (x3 : Vec F S256x512 .bf16) (x4 : Vec F S1x512 .f32) (xs0 : Vec F S1024x1 .f32) (xs1 : Vec F S1024x1 .f32) (xs2 : Vec F S1024x256 .f32) :
    Σ' (L5 : List (View.Piece (Elt F) S1024x512 .f32)) (LS0 : List (View.Piece (Elt F) S1024x1 .f32)) (LS1 : List (View.Piece (Elt F) S1024x1 .f32)), { LS2 : List (View.Piece (Elt F) S1024x256 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__cross_attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc0__cross_attn_kernel_eq_skeleton]; unfold cc0__cross_attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Attn

end
-- ==== Proof.KRun0C.lean ====
/-
  Region 0, the body at the LAST key tile (the epilogue branch taken, the reset not): the scratch buffers are updated
  by this tile's scores, and the result window is stored whole: the weighted sums divided by the row sums,
  projected and shifted by the bias.
-/
import proofs.«412178_j26319559590733_3_alg».proof.Proof.KRun0B

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond0_0 i) (hc1 : cond0_1 i)
    (x0 : Vec F S1024x256 .bf16) (x1 : Vec F S2048x256 .bf16) (x2 : Vec F S2048x256 .bf16) (x3 : Vec F S256x512 .bf16) (x4 : Vec F S1x512 .f32) (xs0 : Vec F S1024x1 .f32) (xs1 : Vec F S1024x1 .f32) (xs2 : Vec F S1024x256 .f32) :
    Σ' (L5 : List (View.Piece (Elt F) S1024x512 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__cross_attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__cross_attn_kernel_eq_skeleton]; unfold cc0__cross_attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Attn

end
-- ==== Proof.KFrame0.lean ====
/-
  Region 0 as the pipeline runs it: what the result window's staging buffer and the three scratch buffers hold after
  each grid point, by recursion on the point — a first key tile starts from the reset, a later one from what the tile
  before left —, the region's invariant carrying the scratch from point to point, and the body's obligation at every
  point from the three cases' triples.
-/
import proofs.«412178_j26319559590733_3_alg».proof.Proof.KRun0C

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three scratch buffers' contents: running maximum, running sum, running weighted sums. -/
abbrev Sc0 (F : FTy → Type) [FloatOps F] : Type := Vec F S1024x1 .f32 × Vec F S1024x1 .f32 × Vec F S1024x256 .f32

/-! ## The three cases at a grid point -/

/-- The triple of a first key tile, at point `t`'s memrefs and blocks. -/
abbrev runA0 (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t)
/-- The triple of a middle key tile, the scratch entered at `s`. -/
abbrev runB0 (c : Dev nD) (t : Fin cfg0.N) (h0 : ¬t.val % 4 = 0) (h1 : ¬t.val % 4 = 3) (s : Sc0 F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) s.1 s.2.1 s.2.2
/-- The triple of the last key tile, the scratch entered at `s`. -/
abbrev runC0 (c : Dev nD) (t : Fin cfg0.N) (h0 : ¬t.val % 4 = 0) (h1 : t.val % 4 = 3) (s : Sc0 F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2

/-- What a case's recorded stores leave in the scratch buffers: the pieces read back (they cover each buffer). -/
abbrev scOf0 (L0 L1 : List (View.Piece (Elt F) S1024x1 .f32)) (L2 : List (View.Piece (Elt F) S1024x256 .f32)) : Sc0 F :=
  (VS0_0.read (Elt F) (VS0_0.writes (Elt F) VS0_0.junk L0), VS0_1.read (Elt F) (VS0_1.writes (Elt F) VS0_1.junk L1),
    VS0_2.read (Elt F) (VS0_2.writes (Elt F) VS0_2.junk L2))

def tupA0 (c : Dev nD) (t : Fin cfg0.N) (h0 : t.val % 4 = 0) (h1 : ¬t.val % 4 = 3) : Vec F S1024x512 .f32 × Sc0 F :=
  (VO0_5.read (Elt F) (VO0_5.writes (Elt F) VO0_5.junk (runA0 V c t h0 h1).1),
    scOf0 (runA0 V c t h0 h1).2.1 (runA0 V c t h0 h1).2.2.1 (runA0 V c t h0 h1).2.2.2.1)
def tupB0 (c : Dev nD) (t : Fin cfg0.N) (h0 : ¬t.val % 4 = 0) (h1 : ¬t.val % 4 = 3) (s : Sc0 F) : Vec F S1024x512 .f32 × Sc0 F :=
  (VO0_5.read (Elt F) (VO0_5.writes (Elt F) VO0_5.junk (runB0 V c t h0 h1 s).1),
    scOf0 (runB0 V c t h0 h1 s).2.1 (runB0 V c t h0 h1 s).2.2.1 (runB0 V c t h0 h1 s).2.2.2.1)
def tupC0 (c : Dev nD) (t : Fin cfg0.N) (h0 : ¬t.val % 4 = 0) (h1 : t.val % 4 = 3) (s : Sc0 F) : Vec F S1024x512 .f32 × Sc0 F :=
  (VO0_5.read (Elt F) (VO0_5.writes (Elt F) VO0_5.junk (runC0 V c t h0 h1 s).1),
    scOf0 (runC0 V c t h0 h1 s).2.1 (runC0 V c t h0 h1 s).2.2.1 (runC0 V c t h0 h1 s).2.2.2.1)

/-! ## The stores of each case cover what they are read back from -/

section Covers
variable (c : Dev nD) (t : Fin cfg0.N)
theorem scoverA0_0 (h0 : t.val % 4 = 0) (h1 : ¬t.val % 4 = 3) (y : S1024x1.Idx) : ∃ pc ∈ (runA0 V c t h0 h1).2.1, y ∈ pc.1.set :=
  View.cover_of_tiledL _ S1024x1.size (by sl_kernel_rfl) y
theorem scoverA0_1 (h0 : t.val % 4 = 0) (h1 : ¬t.val % 4 = 3) (y : S1024x1.Idx) : ∃ pc ∈ (runA0 V c t h0 h1).2.2.1, y ∈ pc.1.set :=
  View.cover_of_tiledL _ S1024x1.size (by sl_kernel_rfl) y
theorem scoverA0_2 (h0 : t.val % 4 = 0) (h1 : ¬t.val % 4 = 3) (y : S1024x256.Idx) : ∃ pc ∈ (runA0 V c t h0 h1).2.2.2.1, y ∈ pc.1.set :=
  View.cover_of_tiledL _ S1024x256.size (by sl_kernel_rfl) y
theorem scoverB0_0 (h0 : ¬t.val % 4 = 0) (h1 : ¬t.val % 4 = 3) (s : Sc0 F) (y : S1024x1.Idx) : ∃ pc ∈ (runB0 V c t h0 h1 s).2.1, y ∈ pc.1.set :=
  View.cover_of_tiledL _ S1024x1.size (by sl_kernel_rfl) y
theorem scoverB0_1 (h0 : ¬t.val % 4 = 0) (h1 : ¬t.val % 4 = 3) (s : Sc0 F) (y : S1024x1.Idx) : ∃ pc ∈ (runB0 V c t h0 h1 s).2.2.1, y ∈ pc.1.set :=
  View.cover_of_tiledL _ S1024x1.size (by sl_kernel_rfl) y
theorem scoverB0_2 (h0 : ¬t.val % 4 = 0) (h1 : ¬t.val % 4 = 3) (s : Sc0 F) (y : S1024x256.Idx) : ∃ pc ∈ (runB0 V c t h0 h1 s).2.2.2.1, y ∈ pc.1.set :=
  View.cover_of_tiledL _ S1024x256.size (by sl_kernel_rfl) y
theorem coverC0_5 (h0 : ¬t.val % 4 = 0) (h1 : t.val % 4 = 3) (s : Sc0 F) (y : S1024x512.Idx) : ∃ pc ∈ (runC0 V c t h0 h1 s).1, y ∈ pc.1.set :=
  View.cover_of_tiledL _ S1024x512.size (by sl_kernel_rfl) y
theorem scoverC0_0 (h0 : ¬t.val % 4 = 0) (h1 : t.val % 4 = 3) (s : Sc0 F) (y : S1024x1.Idx) : ∃ pc ∈ (runC0 V c t h0 h1 s).2.1, y ∈ pc.1.set :=
  View.cover_of_tiledL _ S1024x1.size (by sl_kernel_rfl) y
theorem scoverC0_1 (h0 : ¬t.val % 4 = 0) (h1 : t.val % 4 = 3) (s : Sc0 F) (y : S1024x1.Idx) : ∃ pc ∈ (runC0 V c t h0 h1 s).2.2.1, y ∈ pc.1.set :=
  View.cover_of_tiledL _ S1024x1.size (by sl_kernel_rfl) y
theorem scoverC0_2 (h0 : ¬t.val % 4 = 0) (h1 : t.val % 4 = 3) (s : Sc0 F) (y : S1024x256.Idx) : ∃ pc ∈ (runC0 V c t h0 h1 s).2.2.2.1, y ∈ pc.1.set :=
  View.cover_of_tiledL _ S1024x256.size (by sl_kernel_rfl) y
end Covers

/-! ## What the buffers hold after each point -/

/-- After grid point `n`: the result window's staging buffer and the scratch. A first key tile does not look at what came
    before; the others start from the scratch the point before left. -/
def outsAt0 (c : Dev nD) : (n : ℕ) → n < cfg0.N → Vec F S1024x512 .f32 × Sc0 F
  | 0, hn => tupA0 V c ⟨0, hn⟩ (Nat.zero_mod _) (show ¬(0 : ℕ) % 4 = 3 by decide)
  | n + 1, hn =>
    if h0 : (n + 1) % 4 = 0 then tupA0 V c ⟨n + 1, hn⟩ h0 (show ¬(n + 1) % 4 = 3 by omega)
    else if h1 : (n + 1) % 4 = 3 then tupC0 V c ⟨n + 1, hn⟩ h0 h1 (outsAt0 c n (Nat.lt_of_succ_lt hn)).2
    else tupB0 V c ⟨n + 1, hn⟩ h0 h1 (outsAt0 c n (Nat.lt_of_succ_lt hn)).2

theorem outsAt0_A (c : Dev nD) (t : Fin cfg0.N) (h0 : t.val % 4 = 0) (h1 : ¬t.val % 4 = 3) :
    outsAt0 V c t.val t.isLt = tupA0 V c t h0 h1 := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) :
    outsAt0 V c t.val t.isLt = tupB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = tupC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The three scratch buffers owned at given contents, beside the scoped buffers the region never touches. -/
def scHeld0 (c : Dev nD) (s : Sc0 F) : sProp 𝕄 :=
  iprop(owns (c : Thread nD τ) scM0_0 fullShare s.1 ∗ owns (c : Thread nD τ) scM0_1 fullShare s.2.1 ∗ owns (c : Thread nD τ) scM0_2 fullShare s.2.2 ∗ others0 c)

/-- The region's invariant before point `n`: at the start what the launch hands over (the scratch at anything); afterwards
    the scratch at what the point before left. -/
def PhiS0 (c : Dev nD) : (n : ℕ) → n ≤ cfg0.N → sProp 𝕄
  | 0, _ => Pipeline.ΦA spec0 c
  | n + 1, hn => iprop(scHeld0 c (outsAt0 V c n hn).2 ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(scHeld0 c (outsAt0 V c n hn).2 ∗ (∃ r, prngReg c r)) := rfl
theorem PhiS0_pos (c : Dev nD) (n : ℕ) (h : n ≤ cfg0.N) (hz : n ≠ 0) :
    PhiS0 V c n h = iprop(scHeld0 c (outsAt0 V c (n - 1) (by omega)).2 ∗ (∃ r, prngReg c r)) := by
  cases n with
  | zero => exact absurd rfl hz
  | succ n => rfl

/-! ## The proof data -/

/-- The arrays as the region finds them; each input's staging buffer at its block, the result window's at `outsAt0`; the
    invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare (iblk0 V c 4 t) := by
  unfold Dat.leavesExact; rw [liveAt0_4 t, after0_4]

/-- Handing the scratch back at a case's contents: each buffer's recorded stores cover it. -/
theorem scBack0 (c : Dev nD) (L0 L1 : List (View.Piece (Elt F) S1024x1 .f32)) (L2 : List (View.Piece (Elt F) S1024x256 .f32))
    (hc0 : ∀ y, ∃ pc ∈ L0, y ∈ pc.1.set) (hc1 : ∀ y, ∃ pc ∈ L1, y ∈ pc.1.set) (hc2 : ∀ y, ∃ pc ∈ L2, y ∈ pc.1.set) :
    iprop((∃ f, scM0_0.view.loc (c : Thread nD τ) ↦[scM0_0.view.set]{fullShare} scM0_0.view.writes (Elt F) f L0)
        ∗ (∃ f, scM0_1.view.loc (c : Thread nD τ) ↦[scM0_1.view.set]{fullShare} scM0_1.view.writes (Elt F) f L1)
        ∗ (∃ f, scM0_2.view.loc (c : Thread nD τ) ↦[scM0_2.view.set]{fullShare} scM0_2.view.writes (Elt F) f L2)
        ∗ others0 c)
      ⊢ (iprop(owns (c : Thread nD τ) scM0_0 fullShare (VS0_0.read (Elt F) (VS0_0.writes (Elt F) VS0_0.junk L0))
          ∗ owns (c : Thread nD τ) scM0_1 fullShare (VS0_1.read (Elt F) (VS0_1.writes (Elt F) VS0_1.junk L1))
          ∗ owns (c : Thread nD τ) scM0_2 fullShare (VS0_2.read (Elt F) (VS0_2.writes (Elt F) VS0_2.junk L2))
          ∗ others0 c) : sProp 𝕄) := by
  iintro ⟨⟨%e0, HS0⟩, ⟨%e1, HS1⟩, ⟨%e2, HS2⟩, Ho⟩
  isplitl [HS0]
  · unfold owns; iexists _; isplitr
    swap; · iexact HS0
    ipureintro; exact View.read_writes_of_cover _ _ _ _ _ hc0
  isplitl [HS1]
  · unfold owns; iexists _; isplitr
    swap; · iexact HS1
    ipureintro; exact View.read_writes_of_cover _ _ _ _ _ hc1
  isplitl [HS2]
  · unfold owns; iexists _; isplitr
    swap; · iexact HS2
    ipureintro; exact View.read_writes_of_cover _ _ _ _ _ hc2
  iexact Ho

set_option maxHeartbeats 4800000 in
/-- The body at any point: the closed forms of the two conditions say which case the point is in; the invariant hands the
    case the scratch (at anything at the very first point, else at what the point before left) and takes it back at the
    case's contents; away from the last key tile the result window is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4]
  have hN : t.val < 32 := lt_of_lt_of_eq t.isLt (show cfg0.N = 32 from N_0)
  by_cases h0 : t.val % 4 = 0
  · have h1 : ¬t.val % 4 = 3 := by omega
    rw [Dat.leavesExact_idle (dat0 V c) 5 t (idleAt0_5 t (fun h => h1 ((hcond0_1 t).mp h))) (noFlush0_5 t (fun h => h1 ((hcond0_1 t).mp h)))]
    rw [outsAt0_A V c t h0 h1]
    unfold tupA0 scHeld0; dsimp only
    by_cases hz : t.val = 0
    · rw [PhiS0_castSucc V c t, PhiS0_zero V c _ _ hz, PhiA0_eq]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runA0 V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hoth Hg]
      · isplitl [HS0 HS1 HS2 Hoth]
        · iapply (scBack0 c (runA0 V c t h0 h1).2.1 (runA0 V c t h0 h1).2.2.1 (runA0 V c t h0 h1).2.2.2.1 (scoverA0_0 V c t h0 h1) (scoverA0_1 V c t h0 h1) (scoverA0_2 V c t h0 h1))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      unfold scHeld0
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runA0 V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, HS0, HS1, HS2⟩
      isplitl [HS0 HS1 HS2 Hoth Hg]
      · isplitl [HS0 HS1 HS2 Hoth]
        · iapply (scBack0 c (runA0 V c t h0 h1).2.1 (runA0 V c t h0 h1).2.2.1 (runA0 V c t h0 h1).2.2.2.1 (scoverA0_0 V c t h0 h1) (scoverA0_1 V c t h0 h1) (scoverA0_2 V c t h0 h1))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      rw [PhiS0_castSucc V c t, PhiS0_pos V c _ _ hz]
      obtain ⟨s, hs⟩ : ∃ s, s = (outsAt0 V c (t.val - 1) (Nat.lt_of_le_of_lt (Nat.sub_le _ _) t.isLt)).2 := ⟨_, rfl⟩
      rw [← hs]
      unfold tupC0 scHeld0; dsimp only
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runC0 V c t h0 h1 s).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, HS0, HS1, HS2⟩
      isplitl [HS0 HS1 HS2 Hoth Hg]
      · isplitl [HS0 HS1 HS2 Hoth]
        · iapply (scBack0 c (runC0 V c t h0 h1 s).2.1 (runC0 V c t h0 h1 s).2.2.1 (runC0 V c t h0 h1 s).2.2.2.1 (scoverC0_0 V c t h0 h1 s) (scoverC0_1 V c t h0 h1 s) (scoverC0_2 V c t h0 h1 s))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC0_5 V c t h0 h1 s)
    · rw [Dat.leavesExact_idle (dat0 V c) 5 t (idleAt0_5 t (fun h => h1 ((hcond0_1 t).mp h))) (noFlush0_5 t (fun h => h1 ((hcond0_1 t).mp h)))]
      rw [outsAt0_B V c t h0 h1]
      rw [PhiS0_castSucc V c t, PhiS0_pos V c _ _ hz]
      obtain ⟨s, hs⟩ : ∃ s, s = (outsAt0 V c (t.val - 1) (Nat.lt_of_le_of_lt (Nat.sub_le _ _) t.isLt)).2 := ⟨_, rfl⟩
      rw [← hs]
      unfold tupB0 scHeld0; dsimp only
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runB0 V c t h0 h1 s).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hoth Hg]
      · isplitl [HS0 HS1 HS2 Hoth]
        · iapply (scBack0 c (runB0 V c t h0 h1 s).2.1 (runB0 V c t h0 h1 s).2.2.1 (runB0 V c t h0 h1 s).2.2.2.1 (scoverB0_0 V c t h0 h1 s) (scoverB0_1 V c t h0 h1 s) (scoverB0_2 V c t h0 h1 s))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: what the scratch holds is forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  unfold scHeld0
  iintro ⟨⟨HS0, HS1, HS2, Hoth⟩, Hg⟩
  isplitl [HS0 HS1 HS2 Hoth]
  · isplitl [HS0]; · iexists _; iexact HS0
    isplitl [HS1]; · iexists _; iexact HS1
    isplitl [HS2]; · iexists _; iexact HS2
    iexact Hoth
  iexact Hg

end Cert.Kernel.Attn

end
-- ==== Proof.KBase1.lean ====
/-
  Region 1 (one of the two attention branches): what every later module about it is stated over.

  The region is entered with the TensorCore's buffers at contents `V`. A grid point `t` of the 8 × 4 grid is a
  pair (query tile, key tile); the key-tile coordinate is `t mod 4`. Window 0 is the query tile's rows of Q,
  windows 1 and 2 the key tile's rows of K and of V, windows 3 and 4 the output projection and its bias (one
  block, never moving), window 5 the query tile's rows of the result. The three scratch buffers carry the
  running row maximum, the running row sum and the running weighted sum from one key tile to the next.
  The body has two branches: the reset of the scratch at the first key tile (`t mod 4 = 0`) and the epilogue at
  the last (`t mod 4 = 3`), the only points at which the result window is stored into and written back.
-/
import proofs.«412178_j26319559590733_3_alg».proof.Proof.KFrame0
import proofs.«412178_j26319559590733_3_alg».proof.Proof.Gen.Kernel.Launch
import proofs.«412178_j26319559590733_3_alg».proof.Proof.Gen.Kernel.Skeleton
import proofs.«412178_j26319559590733_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block of the entry array at every point, whether the
    point fetches it or not: between two fetches the block index does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block of the entry array at every point, whether the
    point fetches it or not: between two fetches the block index does not move. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block of the entry array at every point, whether the
    point fetches it or not: between two fetches the block index does not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block of the entry array at every point, whether the
    point fetches it or not: between two fetches the block index does not move. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block of the entry array at every point, whether the
    point fetches it or not: between two fetches the block index does not move. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions, decided over the grid -/

/-- The reset branch is taken: the key-tile coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The epilogue branch is taken: the key-tile coordinate is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last key tile the result window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last key tile it is live. -/
theorem liveAt1_5 : ∀ t : Fin cfg1.N, cond1_1 (grid1.coords t) → cfg1.idle 5 (grid1.coords t) = false := by decide +kernel

/-! ## The memrefs the body is called with -/

abbrev VO1_5 : View sig .tc .vmem S1024x512 .f32 := (Memref.whole cc1_stg5_0 : Memref sig .tc .vmem S1024x512 .f32).view
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
/-- The scratch operands: the running maximum, the running sum, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

/-- The scoped buffers of the core that are no staging buffer of this region and no scratch of it, each at some contents:
    what the region's invariant carries along untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The launch's invariant for this region, with the three scratch operands as memrefs owned at some contents. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ others1 c) ∗ (∃ r, prngReg c r)) := by
  unfold Pipeline.ΦA others1
  rw [Pipeline.scopedRest_eq_of_list spec1 c [cc1_scratch0, cc1_scratch1, cc1_scratch2, cc0_stg0_0, cc0_stg0_1, cc0_stg1_0, cc0_stg1_1, cc0_stg2_0, cc0_stg2_1, cc0_stg3_0, cc0_stg4_0, cc0_stg5_0, cc0_stg5_1, cc0_scratch0, cc0_scratch1, cc0_scratch2] (by decide) (by decide)]
  simp only [scM1_0, scM1_1, scM1_2, owns_whole]; try rfl

end Cert.Kernel.Attn

end
-- ==== Proof.KRun1A.lean ====
/-
  Region 1, the body at a FIRST key tile (the reset branch taken, the epilogue not): the scratch buffers are reset to
  (−∞, 0, 0) and then updated by this tile's scores; the result window is not touched. The triple below says so
  over whole staging memrefs, the stores each scratch buffer ends with recorded as pieces (last first).
-/
import proofs.«412178_j26319559590733_3_alg».proof.Proof.KBase1

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun1_A (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : cond1_0 i) (hc1 : ¬cond1_1 i)
    (x0 : Vec F S1024x256 .bf16) (x1 : Vec F S2048x256 .bf16) (x2 : Vec F S2048x256 .bf16) (x3 : Vec F S256x512 .bf16) (x4 : Vec F S1x512 .f32) :
    Σ' (L5 : List (View.Piece (Elt F) S1024x512 .f32)) (LS0 : List (View.Piece (Elt F) S1024x1 .f32)) (LS1 : List (View.Piece (Elt F) S1024x1 .f32)), { LS2 : List (View.Piece (Elt F) S1024x256 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__cross_attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__cross_attn_kernel_eq_skeleton]; unfold cc1__cross_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Attn

end
-- ==== Proof.KRun1B.lean ====
/-
  Region 1, the body at a MIDDLE key tile (neither branch taken): the scratch buffers, entered at what the tile
  before left, are updated by this tile's scores; the result window is not touched.
-/
import proofs.«412178_j26319559590733_3_alg».proof.Proof.KRun1A

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun1_B (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : ¬cond1_1 i)
    (x0 : Vec F S1024x256 .bf16) (x1 : Vec F S2048x256 .bf16) (x2 : Vec F S2048x256 .bf16) (x3 : Vec F S256x512 .bf16) (x4 : Vec F S1x512 .f32) (xs0 : Vec F S1024x1 .f32) (xs1 : Vec F S1024x1 .f32) (xs2 : Vec F S1024x256 .f32) :
    Σ' (L5 : List (View.Piece (Elt F) S1024x512 .f32)) (LS0 : List (View.Piece (Elt F) S1024x1 .f32)) (LS1 : List (View.Piece (Elt F) S1024x1 .f32)), { LS2 : List (View.Piece (Elt F) S1024x256 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__cross_attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__cross_attn_kernel_eq_skeleton]; unfold cc1__cross_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Attn

end
-- ==== Proof.KRun1C.lean ====
/-
  Region 1, the body at the LAST key tile (the epilogue branch taken, the reset not): the scratch buffers are updated
  by this tile's scores, and the result window is stored whole: the weighted sums divided by the row sums,
  projected and shifted by the bias.
-/
import proofs.«412178_j26319559590733_3_alg».proof.Proof.KRun1B

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun1_C (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : cond1_1 i)
    (x0 : Vec F S1024x256 .bf16) (x1 : Vec F S2048x256 .bf16) (x2 : Vec F S2048x256 .bf16) (x3 : Vec F S256x512 .bf16) (x4 : Vec F S1x512 .f32) (xs0 : Vec F S1024x1 .f32) (xs1 : Vec F S1024x1 .f32) (xs2 : Vec F S1024x256 .f32) :
    Σ' (L5 : List (View.Piece (Elt F) S1024x512 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__cross_attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__cross_attn_kernel_eq_skeleton]; unfold cc1__cross_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Attn

end
-- ==== Proof.KFrame1.lean ====
/-
  Region 1 as the pipeline runs it: what the result window's staging buffer and the three scratch buffers hold after
  each grid point, by recursion on the point — a first key tile starts from the reset, a later one from what the tile
  before left —, the region's invariant carrying the scratch from point to point, and the body's obligation at every
  point from the three cases' triples.
-/
import proofs.«412178_j26319559590733_3_alg».proof.Proof.KRun1C

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three scratch buffers' contents: running maximum, running sum, running weighted sums. -/
abbrev Sc1 (F : FTy → Type) [FloatOps F] : Type := Vec F S1024x1 .f32 × Vec F S1024x1 .f32 × Vec F S1024x256 .f32

/-! ## The three cases at a grid point -/

/-- The triple of a first key tile, at point `t`'s memrefs and blocks. -/
abbrev runA1 (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)
/-- The triple of a middle key tile, the scratch entered at `s`. -/
abbrev runB1 (c : Dev nD) (t : Fin cfg1.N) (h0 : ¬t.val % 4 = 0) (h1 : ¬t.val % 4 = 3) (s : Sc1 F) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) s.1 s.2.1 s.2.2
/-- The triple of the last key tile, the scratch entered at `s`. -/
abbrev runC1 (c : Dev nD) (t : Fin cfg1.N) (h0 : ¬t.val % 4 = 0) (h1 : t.val % 4 = 3) (s : Sc1 F) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) s.1 s.2.1 s.2.2

/-- What a case's recorded stores leave in the scratch buffers: the pieces read back (they cover each buffer). -/
abbrev scOf1 (L0 L1 : List (View.Piece (Elt F) S1024x1 .f32)) (L2 : List (View.Piece (Elt F) S1024x256 .f32)) : Sc1 F :=
  (VS1_0.read (Elt F) (VS1_0.writes (Elt F) VS1_0.junk L0), VS1_1.read (Elt F) (VS1_1.writes (Elt F) VS1_1.junk L1),
    VS1_2.read (Elt F) (VS1_2.writes (Elt F) VS1_2.junk L2))

def tupA1 (c : Dev nD) (t : Fin cfg1.N) (h0 : t.val % 4 = 0) (h1 : ¬t.val % 4 = 3) : Vec F S1024x512 .f32 × Sc1 F :=
  (VO1_5.read (Elt F) (VO1_5.writes (Elt F) VO1_5.junk (runA1 V c t h0 h1).1),
    scOf1 (runA1 V c t h0 h1).2.1 (runA1 V c t h0 h1).2.2.1 (runA1 V c t h0 h1).2.2.2.1)
def tupB1 (c : Dev nD) (t : Fin cfg1.N) (h0 : ¬t.val % 4 = 0) (h1 : ¬t.val % 4 = 3) (s : Sc1 F) : Vec F S1024x512 .f32 × Sc1 F :=
  (VO1_5.read (Elt F) (VO1_5.writes (Elt F) VO1_5.junk (runB1 V c t h0 h1 s).1),
    scOf1 (runB1 V c t h0 h1 s).2.1 (runB1 V c t h0 h1 s).2.2.1 (runB1 V c t h0 h1 s).2.2.2.1)
def tupC1 (c : Dev nD) (t : Fin cfg1.N) (h0 : ¬t.val % 4 = 0) (h1 : t.val % 4 = 3) (s : Sc1 F) : Vec F S1024x512 .f32 × Sc1 F :=
  (VO1_5.read (Elt F) (VO1_5.writes (Elt F) VO1_5.junk (runC1 V c t h0 h1 s).1),
    scOf1 (runC1 V c t h0 h1 s).2.1 (runC1 V c t h0 h1 s).2.2.1 (runC1 V c t h0 h1 s).2.2.2.1)

/-! ## The stores of each case cover what they are read back from -/

section Covers
variable (c : Dev nD) (t : Fin cfg1.N)
theorem scoverA1_0 (h0 : t.val % 4 = 0) (h1 : ¬t.val % 4 = 3) (y : S1024x1.Idx) : ∃ pc ∈ (runA1 V c t h0 h1).2.1, y ∈ pc.1.set :=
  View.cover_of_tiledL _ S1024x1.size (by sl_kernel_rfl) y
theorem scoverA1_1 (h0 : t.val % 4 = 0) (h1 : ¬t.val % 4 = 3) (y : S1024x1.Idx) : ∃ pc ∈ (runA1 V c t h0 h1).2.2.1, y ∈ pc.1.set :=
  View.cover_of_tiledL _ S1024x1.size (by sl_kernel_rfl) y
theorem scoverA1_2 (h0 : t.val % 4 = 0) (h1 : ¬t.val % 4 = 3) (y : S1024x256.Idx) : ∃ pc ∈ (runA1 V c t h0 h1).2.2.2.1, y ∈ pc.1.set :=
  View.cover_of_tiledL _ S1024x256.size (by sl_kernel_rfl) y
theorem scoverB1_0 (h0 : ¬t.val % 4 = 0) (h1 : ¬t.val % 4 = 3) (s : Sc1 F) (y : S1024x1.Idx) : ∃ pc ∈ (runB1 V c t h0 h1 s).2.1, y ∈ pc.1.set :=
  View.cover_of_tiledL _ S1024x1.size (by sl_kernel_rfl) y
theorem scoverB1_1 (h0 : ¬t.val % 4 = 0) (h1 : ¬t.val % 4 = 3) (s : Sc1 F) (y : S1024x1.Idx) : ∃ pc ∈ (runB1 V c t h0 h1 s).2.2.1, y ∈ pc.1.set :=
  View.cover_of_tiledL _ S1024x1.size (by sl_kernel_rfl) y
theorem scoverB1_2 (h0 : ¬t.val % 4 = 0) (h1 : ¬t.val % 4 = 3) (s : Sc1 F) (y : S1024x256.Idx) : ∃ pc ∈ (runB1 V c t h0 h1 s).2.2.2.1, y ∈ pc.1.set :=
  View.cover_of_tiledL _ S1024x256.size (by sl_kernel_rfl) y
theorem coverC1_5 (h0 : ¬t.val % 4 = 0) (h1 : t.val % 4 = 3) (s : Sc1 F) (y : S1024x512.Idx) : ∃ pc ∈ (runC1 V c t h0 h1 s).1, y ∈ pc.1.set :=
  View.cover_of_tiledL _ S1024x512.size (by sl_kernel_rfl) y
theorem scoverC1_0 (h0 : ¬t.val % 4 = 0) (h1 : t.val % 4 = 3) (s : Sc1 F) (y : S1024x1.Idx) : ∃ pc ∈ (runC1 V c t h0 h1 s).2.1, y ∈ pc.1.set :=
  View.cover_of_tiledL _ S1024x1.size (by sl_kernel_rfl) y
theorem scoverC1_1 (h0 : ¬t.val % 4 = 0) (h1 : t.val % 4 = 3) (s : Sc1 F) (y : S1024x1.Idx) : ∃ pc ∈ (runC1 V c t h0 h1 s).2.2.1, y ∈ pc.1.set :=
  View.cover_of_tiledL _ S1024x1.size (by sl_kernel_rfl) y
theorem scoverC1_2 (h0 : ¬t.val % 4 = 0) (h1 : t.val % 4 = 3) (s : Sc1 F) (y : S1024x256.Idx) : ∃ pc ∈ (runC1 V c t h0 h1 s).2.2.2.1, y ∈ pc.1.set :=
  View.cover_of_tiledL _ S1024x256.size (by sl_kernel_rfl) y
end Covers

/-! ## What the buffers hold after each point -/

/-- After grid point `n`: the result window's staging buffer and the scratch. A first key tile does not look at what came
    before; the others start from the scratch the point before left. -/
def outsAt1 (c : Dev nD) : (n : ℕ) → n < cfg1.N → Vec F S1024x512 .f32 × Sc1 F
  | 0, hn => tupA1 V c ⟨0, hn⟩ (Nat.zero_mod _) (show ¬(0 : ℕ) % 4 = 3 by decide)
  | n + 1, hn =>
    if h0 : (n + 1) % 4 = 0 then tupA1 V c ⟨n + 1, hn⟩ h0 (show ¬(n + 1) % 4 = 3 by omega)
    else if h1 : (n + 1) % 4 = 3 then tupC1 V c ⟨n + 1, hn⟩ h0 h1 (outsAt1 c n (Nat.lt_of_succ_lt hn)).2
    else tupB1 V c ⟨n + 1, hn⟩ h0 h1 (outsAt1 c n (Nat.lt_of_succ_lt hn)).2

theorem outsAt1_A (c : Dev nD) (t : Fin cfg1.N) (h0 : t.val % 4 = 0) (h1 : ¬t.val % 4 = 3) :
    outsAt1 V c t.val t.isLt = tupA1 V c t h0 h1 := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = tupB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = tupC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The three scratch buffers owned at given contents, beside the scoped buffers the region never touches. -/
def scHeld1 (c : Dev nD) (s : Sc1 F) : sProp 𝕄 :=
  iprop(owns (c : Thread nD τ) scM1_0 fullShare s.1 ∗ owns (c : Thread nD τ) scM1_1 fullShare s.2.1 ∗ owns (c : Thread nD τ) scM1_2 fullShare s.2.2 ∗ others1 c)

/-- The region's invariant before point `n`: at the start what the launch hands over (the scratch at anything); afterwards
    the scratch at what the point before left. -/
def PhiS1 (c : Dev nD) : (n : ℕ) → n ≤ cfg1.N → sProp 𝕄
  | 0, _ => Pipeline.ΦA spec1 c
  | n + 1, hn => iprop(scHeld1 c (outsAt1 V c n hn).2 ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scHeld1 c (outsAt1 V c n hn).2 ∗ (∃ r, prngReg c r)) := rfl
theorem PhiS1_pos (c : Dev nD) (n : ℕ) (h : n ≤ cfg1.N) (hz : n ≠ 0) :
    PhiS1 V c n h = iprop(scHeld1 c (outsAt1 V c (n - 1) (by omega)).2 ∗ (∃ r, prngReg c r)) := by
  cases n with
  | zero => exact absurd rfl hz
  | succ n => rfl

/-! ## The proof data -/

/-- The arrays as the region finds them; each input's staging buffer at its block, the result window's at `outsAt1`; the
    invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]

/-- Handing the scratch back at a case's contents: each buffer's recorded stores cover it. -/
theorem scBack1 (c : Dev nD) (L0 L1 : List (View.Piece (Elt F) S1024x1 .f32)) (L2 : List (View.Piece (Elt F) S1024x256 .f32))
    (hc0 : ∀ y, ∃ pc ∈ L0, y ∈ pc.1.set) (hc1 : ∀ y, ∃ pc ∈ L1, y ∈ pc.1.set) (hc2 : ∀ y, ∃ pc ∈ L2, y ∈ pc.1.set) :
    iprop((∃ f, scM1_0.view.loc (c : Thread nD τ) ↦[scM1_0.view.set]{fullShare} scM1_0.view.writes (Elt F) f L0)
        ∗ (∃ f, scM1_1.view.loc (c : Thread nD τ) ↦[scM1_1.view.set]{fullShare} scM1_1.view.writes (Elt F) f L1)
        ∗ (∃ f, scM1_2.view.loc (c : Thread nD τ) ↦[scM1_2.view.set]{fullShare} scM1_2.view.writes (Elt F) f L2)
        ∗ others1 c)
      ⊢ (iprop(owns (c : Thread nD τ) scM1_0 fullShare (VS1_0.read (Elt F) (VS1_0.writes (Elt F) VS1_0.junk L0))
          ∗ owns (c : Thread nD τ) scM1_1 fullShare (VS1_1.read (Elt F) (VS1_1.writes (Elt F) VS1_1.junk L1))
          ∗ owns (c : Thread nD τ) scM1_2 fullShare (VS1_2.read (Elt F) (VS1_2.writes (Elt F) VS1_2.junk L2))
          ∗ others1 c) : sProp 𝕄) := by
  iintro ⟨⟨%e0, HS0⟩, ⟨%e1, HS1⟩, ⟨%e2, HS2⟩, Ho⟩
  isplitl [HS0]
  · unfold owns; iexists _; isplitr
    swap; · iexact HS0
    ipureintro; exact View.read_writes_of_cover _ _ _ _ _ hc0
  isplitl [HS1]
  · unfold owns; iexists _; isplitr
    swap; · iexact HS1
    ipureintro; exact View.read_writes_of_cover _ _ _ _ _ hc1
  isplitl [HS2]
  · unfold owns; iexists _; isplitr
    swap; · iexact HS2
    ipureintro; exact View.read_writes_of_cover _ _ _ _ _ hc2
  iexact Ho

set_option maxHeartbeats 4800000 in
/-- The body at any point: the closed forms of the two conditions say which case the point is in; the invariant hands the
    case the scratch (at anything at the very first point, else at what the point before left) and takes it back at the
    case's contents; away from the last key tile the result window is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 32 := lt_of_lt_of_eq t.isLt (show cfg1.N = 32 from N_1)
  by_cases h0 : t.val % 4 = 0
  · have h1 : ¬t.val % 4 = 3 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold tupA1 scHeld1; dsimp only
    by_cases hz : t.val = 0
    · rw [PhiS1_castSucc V c t, PhiS1_zero V c _ _ hz, PhiA1_eq]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runA1 V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hoth Hg]
      · isplitl [HS0 HS1 HS2 Hoth]
        · iapply (scBack1 c (runA1 V c t h0 h1).2.1 (runA1 V c t h0 h1).2.2.1 (runA1 V c t h0 h1).2.2.2.1 (scoverA1_0 V c t h0 h1) (scoverA1_1 V c t h0 h1) (scoverA1_2 V c t h0 h1))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      unfold scHeld1
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runA1 V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, HS0, HS1, HS2⟩
      isplitl [HS0 HS1 HS2 Hoth Hg]
      · isplitl [HS0 HS1 HS2 Hoth]
        · iapply (scBack1 c (runA1 V c t h0 h1).2.1 (runA1 V c t h0 h1).2.2.1 (runA1 V c t h0 h1).2.2.2.1 (scoverA1_0 V c t h0 h1) (scoverA1_1 V c t h0 h1) (scoverA1_2 V c t h0 h1))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      rw [PhiS1_castSucc V c t, PhiS1_pos V c _ _ hz]
      obtain ⟨s, hs⟩ : ∃ s, s = (outsAt1 V c (t.val - 1) (Nat.lt_of_le_of_lt (Nat.sub_le _ _) t.isLt)).2 := ⟨_, rfl⟩
      rw [← hs]
      unfold tupC1 scHeld1; dsimp only
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runC1 V c t h0 h1 s).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, HS0, HS1, HS2⟩
      isplitl [HS0 HS1 HS2 Hoth Hg]
      · isplitl [HS0 HS1 HS2 Hoth]
        · iapply (scBack1 c (runC1 V c t h0 h1 s).2.1 (runC1 V c t h0 h1 s).2.2.1 (runC1 V c t h0 h1 s).2.2.2.1 (scoverC1_0 V c t h0 h1 s) (scoverC1_1 V c t h0 h1 s) (scoverC1_2 V c t h0 h1 s))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC1_5 V c t h0 h1 s)
    · rw [Dat.leavesExact_idle (dat1 V c) 5 t (idleAt1_5 t (fun h => h1 ((hcond1_1 t).mp h))) (noFlush1_5 t (fun h => h1 ((hcond1_1 t).mp h)))]
      rw [outsAt1_B V c t h0 h1]
      rw [PhiS1_castSucc V c t, PhiS1_pos V c _ _ hz]
      obtain ⟨s, hs⟩ : ∃ s, s = (outsAt1 V c (t.val - 1) (Nat.lt_of_le_of_lt (Nat.sub_le _ _) t.isLt)).2 := ⟨_, rfl⟩
      rw [← hs]
      unfold tupB1 scHeld1; dsimp only
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runB1 V c t h0 h1 s).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hoth Hg]
      · isplitl [HS0 HS1 HS2 Hoth]
        · iapply (scBack1 c (runB1 V c t h0 h1 s).2.1 (runB1 V c t h0 h1 s).2.2.1 (runB1 V c t h0 h1 s).2.2.2.1 (scoverB1_0 V c t h0 h1 s) (scoverB1_1 V c t h0 h1 s) (scoverB1_2 V c t h0 h1 s))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: what the scratch holds is forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  unfold scHeld1
  iintro ⟨⟨HS0, HS1, HS2, Hoth⟩, Hg⟩
  isplitl [HS0 HS1 HS2 Hoth]
  · isplitl [HS0]; · iexists _; iexact HS0
    isplitl [HS1]; · iexists _; iexact HS1
    isplitl [HS2]; · iexists _; iexact HS2
    iexact Hoth
  iexact Hg

end Cert.Kernel.Attn

end
-- ==== Proof.KWhole.lean ====
/-
  The whole program: three stretches of host operations, then the two attention regions. The TensorCore's buffers at
  each boundary are a fold from the launch memory — a host stretch applies its operations, a region replaces its result
  array by what its write-backs leave and changes nothing else. The launch theorem for a list of segments then says:
  every weakly fair execution terminates, and the final memory holds every unscoped buffer at the last boundary's
  contents; in particular each argument as launched and each result array at its region's final contents.
-/
import proofs.«412178_j26319559590733_3_alg».proof.Proof.KFrame0
import proofs.«412178_j26319559590733_3_alg».proof.Proof.KFrame1
import proofs.«412178_j26319559590733_3_alg».proof.Proof.Gen.Kernel.Regions

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the boundaries -/

/-- Before region 0: after the three host stretches, read at a TensorCore reference. -/
abbrev R3 (c : Dev nD) (b : Ref sig .tc) : Buf (Elt F) ((c : Thread nD τ).loc b) := Gen.V3 m c (Proc.devRef .tc b)
/-- After region 0. -/
def W4 (c : Dev nD) : Valuation τ sig (Elt F) :=
  Pipeline.withArrays spec0 c (Gen.V3 m c) fun w => (dat0 (R3 m) c).arrAt w cfg0.N
theorem W4_arr (c : Dev nD) (w : Fin cfg0.W) :
    W4 m c (Proc.devRef .tc (Pipeline.arrRef spec0 w)) = (dat0 (R3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = Gen.V3 m c (Proc.devRef .tc b) := by
  unfold W4; exact Pipeline.withArrays_of_ne spec0 c _ _ b hb
abbrev R4 (c : Dev nD) (b : Ref sig .tc) : Buf (Elt F) ((c : Thread nD τ).loc b) := W4 m c (Proc.devRef .tc b)
theorem hF0 (c : Dev nD) (w : Fin cfg0.W) : (dat0 (R3 m) c).arrAt w cfg0.N = R4 m c (Pipeline.arrRef spec0 w) :=
  (W4_arr m c w).symm
theorem hrest0 (c : Dev nD) : ∀ b, b ∉ Finset.univ.image (Pipeline.arrRef spec0) → R4 m c b = R3 m c b :=
  fun b hb => W4_of_ne m c b fun w e => hb (Finset.mem_image.mpr ⟨w, Finset.mem_univ _, e⟩)
/-- After region 1: the end. -/
def W5 (c : Dev nD) : Valuation τ sig (Elt F) :=
  Pipeline.withArrays spec1 c (W4 m c) fun w => (dat1 (R4 m) c).arrAt w cfg1.N
theorem W5_arr (c : Dev nD) (w : Fin cfg1.W) :
    W5 m c (Proc.devRef .tc (Pipeline.arrRef spec1 w)) = (dat1 (R4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev R5 (c : Dev nD) (b : Ref sig .tc) : Buf (Elt F) ((c : Thread nD τ).loc b) := W5 m c (Proc.devRef .tc b)
theorem hF1 (c : Dev nD) (w : Fin cfg1.W) : (dat1 (R4 m) c).arrAt w cfg1.N = R5 m c (Pipeline.arrRef spec1 w) :=
  (W5_arr m c w).symm
theorem hrest1 (c : Dev nD) : ∀ b, b ∉ Finset.univ.image (Pipeline.arrRef spec1) → R5 m c b = R4 m c b :=
  fun b hb => W5_of_ne m c b fun w e => hb (Finset.mem_image.mpr ⟨w, Finset.mem_univ _, e⟩)

/-- A buffer no region has as an array and no host stretch writes ends as launched. -/
theorem W5_kept (c : Dev nD) (b : Ref sig .tc) (h1 : ∀ w, Pipeline.arrRef spec1 w ≠ b) (h0 : ∀ w, Pipeline.arrRef spec0 w ≠ b)
    (h3 : b ∉ Gen.hostOps0_2_W) (h2 : b ∉ Gen.hostOps0_1_W) (h1' : b ∉ Gen.hostOps0_W) :
    W5 m c (Proc.devRef .tc b) = m ((c : Thread nD τ).loc b) :=
  (W5_of_ne m c b h1).trans <| (W4_of_ne m c b h0).trans <| (Gen.V3_of m c b h3).trans <| (Gen.V2_of m c b h2).trans <| (Gen.V1_of m c b h1').trans rfl

/-! ## The proof data family, the thread state, the segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (R3 m) c
  | ⟨1, _⟩ => fun c => dat1 (R4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 over the thread state: entered with every unscoped buffer at the contents before it, left with the result
    array at what the write-backs made of it and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R3 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (R3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (R3 m) c)
    unfold Pipeline.ΦA
    iintro ⟨Hp, -, Hr⟩
    isplitl [Hr]; · iexact Hr
    iexact Hp
  hout c := by
    rw [Pipeline.ownSems0_none]
    refine BIBase.Entails.trans (hout0 (R3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R3 m c) (R4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the result
    array at what the write-backs made of it and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (R4 m) c)
    unfold Pipeline.ΦA
    iintro ⟨Hp, -, Hr⟩
    isplitl [Hr]; · iexact Hr
    iexact Hp
  hout c := by
    rw [Pipeline.ownSems0_none]
    refine BIBase.Entails.trans (hout1 (R4 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R4 m c) (R5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's five segments in order. -/
abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and the
    final memory holds every unscoped TensorCore buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## What the final memory holds -/

/-- The first result is region 0's result array after its last write-back. -/
theorem W5_out0 (c : Dev nD) : W5 m c (Proc.devRef .tc main_v36) = (dat0 (R3 m) c).arrAt 5 cfg0.N :=
  (W5_of_ne m c main_v36 (by decide)).trans (W4_arr m c 5)
/-- The second result is region 1's. -/
theorem W5_out1 (c : Dev nD) : W5 m c (Proc.devRef .tc main_v37) = (dat1 (R4 m) c).arrAt 5 cfg1.N :=
  W5_arr m c 5
/-- An input array of region 0 is unchanged by it. -/
theorem R4_in (c : Dev nD) (w : Fin cfg0.W) (hw : (cfg0.win w).isOut = false) : R4 m c (Pipeline.arrRef spec0 w) = R3 m c (Pipeline.arrRef spec0 w) :=
  (W4_arr m c w).trans (((dat0 (R3 m) c).arrAt_in w hw _).trans (A_eq0 (R3 m) c w))
/-- Region 1 is entered with the output projection and the bias row as region 0 was. -/
theorem R4_v34 (c : Dev nD) : R4 m c main_v34 = R3 m c main_v34 := R4_in m c 3 rfl
theorem R4_v35 (c : Dev nD) : R4 m c main_v35 = R3 m c main_v35 := R4_in m c 4 rfl
/-- Region 1 is entered with region 0's input arrays unchanged. -/
theorem R4_of_ne (c : Dev nD) (b : Ref sig .tc) (hb : ∀ w, Pipeline.arrRef spec0 w ≠ b) : R4 m c b = R3 m c b :=
  W4_of_ne m c b hb

theorem W5_main_arg0 (c : Dev nD) : W5 m c (Proc.devRef .tc main_arg0) = m ((c : Thread nD τ).loc main_arg0) :=
  W5_kept m c main_arg0 (by decide) (by decide) (by decide) (by decide) (by decide)
theorem W5_main_arg1 (c : Dev nD) : W5 m c (Proc.devRef .tc main_arg1) = m ((c : Thread nD τ).loc main_arg1) :=
  W5_kept m c main_arg1 (by decide) (by decide) (by decide) (by decide) (by decide)
theorem W5_main_arg2 (c : Dev nD) : W5 m c (Proc.devRef .tc main_arg2) = m ((c : Thread nD τ).loc main_arg2) :=
  W5_kept m c main_arg2 (by decide) (by decide) (by decide) (by decide) (by decide)
theorem W5_main_arg3 (c : Dev nD) : W5 m c (Proc.devRef .tc main_arg3) = m ((c : Thread nD τ).loc main_arg3) :=
  W5_kept m c main_arg3 (by decide) (by decide) (by decide) (by decide) (by decide)
theorem W5_main_arg4 (c : Dev nD) : W5 m c (Proc.devRef .tc main_arg4) = m ((c : Thread nD τ).loc main_arg4) :=
  W5_kept m c main_arg4 (by decide) (by decide) (by decide) (by decide) (by decide)
theorem W5_main_arg5 (c : Dev nD) : W5 m c (Proc.devRef .tc main_arg5) = m ((c : Thread nD τ).loc main_arg5) :=
  W5_kept m c main_arg5 (by decide) (by decide) (by decide) (by decide) (by decide)
theorem W5_main_arg6 (c : Dev nD) : W5 m c (Proc.devRef .tc main_arg6) = m ((c : Thread nD τ).loc main_arg6) :=
  W5_kept m c main_arg6 (by decide) (by decide) (by decide) (by decide) (by decide)
theorem W5_main_arg7 (c : Dev nD) : W5 m c (Proc.devRef .tc main_arg7) = m ((c : Thread nD τ).loc main_arg7) :=
  W5_kept m c main_arg7 (by decide) (by decide) (by decide) (by decide) (by decide)
theorem W5_main_arg8 (c : Dev nD) : W5 m c (Proc.devRef .tc main_arg8) = m ((c : Thread nD τ).loc main_arg8) :=
  W5_kept m c main_arg8 (by decide) (by decide) (by decide) (by decide) (by decide)
theorem W5_main_arg9 (c : Dev nD) : W5 m c (Proc.devRef .tc main_arg9) = m ((c : Thread nD τ).loc main_arg9) :=
  W5_kept m c main_arg9 (by decide) (by decide) (by decide) (by decide) (by decide)
theorem W5_main_arg10 (c : Dev nD) : W5 m c (Proc.devRef .tc main_arg10) = m ((c : Thread nD τ).loc main_arg10) :=
  W5_kept m c main_arg10 (by decide) (by decide) (by decide) (by decide) (by decide)
theorem W5_main_arg11 (c : Dev nD) : W5 m c (Proc.devRef .tc main_arg11) = m ((c : Thread nD τ).loc main_arg11) :=
  W5_kept m c main_arg11 (by decide) (by decide) (by decide) (by decide) (by decide)
theorem W5_main_arg12 (c : Dev nD) : W5 m c (Proc.devRef .tc main_arg12) = m ((c : Thread nD τ).loc main_arg12) :=
  W5_kept m c main_arg12 (by decide) (by decide) (by decide) (by decide) (by decide)
theorem W5_main_arg13 (c : Dev nD) : W5 m c (Proc.devRef .tc main_arg13) = m ((c : Thread nD τ).loc main_arg13) :=
  W5_kept m c main_arg13 (by decide) (by decide) (by decide) (by decide) (by decide)
theorem W5_main_arg14 (c : Dev nD) : W5 m c (Proc.devRef .tc main_arg14) = m ((c : Thread nD τ).loc main_arg14) :=
  W5_kept m c main_arg14 (by decide) (by decide) (by decide) (by decide) (by decide)

/-- THE FRAME, and the two results: the run read at the arguments and at the result arrays. -/
theorem run_results : θ_run defs (onTc (τ := τ) (main (F := F))) ⟨m, fun _ => 0, ρ⟩ (fun r => ∀ c : Dev nD,
      r.2.mem ((c.tc : Thread nD τ).loc main_v36) = (dat0 (R3 m) c).arrAt 5 cfg0.N
      ∧ r.2.mem ((c.tc : Thread nD τ).loc main_v37) = (dat1 (R4 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v36 (by decide))).trans (W5_out0 m c),
      (h c _ (mem_uc main_v37 (by decide))).trans (W5_out1 m c),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c),
      (h c _ (mem_uc main_arg8 (by decide))).trans (W5_main_arg8 m c),
      (h c _ (mem_uc main_arg9 (by decide))).trans (W5_main_arg9 m c),
      (h c _ (mem_uc main_arg10 (by decide))).trans (W5_main_arg10 m c),
      (h c _ (mem_uc main_arg11 (by decide))).trans (W5_main_arg11 m c),
      (h c _ (mem_uc main_arg12 (by decide))).trans (W5_main_arg12 m c),
      (h c _ (mem_uc main_arg13 (by decide))).trans (W5_main_arg13 m c),
      (h c _ (mem_uc main_arg14 (by decide))).trans (W5_main_arg14 m c)⟩)
    (run_main m ρ)

end Cert.Kernel.Attn

end
-- ==== Proof.Base0.lean ====
/-
  Region 0 (one of the two attention branches): what every later module about it is stated over.

  The region is entered with the TensorCore's buffers at contents `V`. A grid point `t` of the 8 × 4 grid is a
  pair (query tile, key tile); the key-tile coordinate is `t mod 4`. Window 0 is the query tile's rows of Q,
  windows 1 and 2 the key tile's rows of K and of V, windows 3 and 4 the output projection and its bias (one
  block, never moving), window 5 the query tile's rows of the result. The three scratch buffers carry the
  running row maximum, the running row sum and the running weighted sum from one key tile to the next.
  The body has two branches: the reset of the scratch at the first key tile (`t mod 4 = 0`) and the epilogue at
  the last (`t mod 4 = 3`), the only points at which the result window is stored into and written back.
-/
import proofs.«412178_j26319559590733_3_alg».proof.Proof.Gen.KernelIdeal.Launch
import proofs.«412178_j26319559590733_3_alg».proof.Proof.Gen.KernelIdeal.Skeleton
import proofs.«412178_j26319559590733_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block of the entry array at every point, whether the
    point fetches it or not: between two fetches the block index does not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block of the entry array at every point, whether the
    point fetches it or not: between two fetches the block index does not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block of the entry array at every point, whether the
    point fetches it or not: between two fetches the block index does not move. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds the window's block of the entry array at every point, whether the
    point fetches it or not: between two fetches the block index does not move. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds the window's block of the entry array at every point, whether the
    point fetches it or not: between two fetches the block index does not move. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions, decided over the grid -/

/-- The reset branch is taken: the key-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The epilogue branch is taken: the key-tile coordinate is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last key tile the result window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last key tile it is live. -/
theorem liveAt0_5 : ∀ t : Fin cfg0.N, cond0_1 (grid0.coords t) → cfg0.idle 5 (grid0.coords t) = false := by decide +kernel

/-! ## The memrefs the body is called with -/

abbrev VO0_5 : View sig .tc .vmem S1024x512 .f32 := (Memref.whole cc0_stg5_0 : Memref sig .tc .vmem S1024x512 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
/-- The scratch operands: the running maximum, the running sum, the running weighted sum. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x256 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x256 .f32 := scM0_2.view

/-- The scoped buffers of the core that are no staging buffer of this region and no scratch of it, each at some contents:
    what the region's invariant carries along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The launch's invariant for this region, with the three scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ others0 c) ∗ (∃ r, prngReg c r)) := by
  unfold Pipeline.ΦA others0
  rw [Pipeline.scopedRest_eq_of_list spec0 c [cc0_scratch0, cc0_scratch1, cc0_scratch2, cc1_stg0_0, cc1_stg0_1, cc1_stg1_0, cc1_stg1_1, cc1_stg2_0, cc1_stg2_1, cc1_stg3_0, cc1_stg4_0, cc1_stg5_0, cc1_stg5_1, cc1_scratch0, cc1_scratch1, cc1_scratch2] (by decide) (by decide)]
  simp only [scM0_0, scM0_1, scM0_2, owns_whole]; try rfl

end Cert.KernelIdeal.Attn

end
-- ==== Proof.Run0A.lean ====
/-
  Region 0, the body at a FIRST key tile (the reset branch taken, the epilogue not): the scratch buffers are reset to
  (−∞, 0, 0) and then updated by this tile's scores; the result window is not touched. The triple below says so
  over whole staging memrefs, the stores each scratch buffer ends with recorded as pieces (last first).
-/
import proofs.«412178_j26319559590733_3_alg».proof.Proof.Base0

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : cond0_0 i) (hc1 : ¬cond0_1 i)
    (x0 : Vec F S1024x256 .bf16) (x1 : Vec F S2048x256 .bf16) (x2 : Vec F S2048x256 .bf16) (x3 : Vec F S256x512 .bf16) (x4 : Vec F S1x512 .f32) :
    Σ' (L5 : List (View.Piece (Elt F) S1024x512 .f32)) (LS0 : List (View.Piece (Elt F) S1024x1 .f32)) (LS1 : List (View.Piece (Elt F) S1024x1 .f32)), { LS2 : List (View.Piece (Elt F) S1024x256 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__cross_attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc0__cross_attn_kernel_eq_skeleton]; unfold cc0__cross_attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Attn

end
-- ==== Proof.Run0B.lean ====
/-
  Region 0, the body at a MIDDLE key tile (neither branch taken): the scratch buffers, entered at what the tile
  before left, are updated by this tile's scores; the result window is not touched.
-/
import proofs.«412178_j26319559590733_3_alg».proof.Proof.Run0A

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond0_0 i) (hc1 : ¬cond0_1 i)
    (x0 : Vec F S1024x256 .bf16) (x1 : Vec F S2048x256 .bf16) (x2 : Vec F S2048x256 .bf16) (x3 : Vec F S256x512 .bf16) (x4 : Vec F S1x512 .f32) (xs0 : Vec F S1024x1 .f32) (xs1 : Vec F S1024x1 .f32) (xs2 : Vec F S1024x256 .f32) :
    Σ' (L5 : List (View.Piece (Elt F) S1024x512 .f32)) (LS0 : List (View.Piece (Elt F) S1024x1 .f32)) (LS1 : List (View.Piece (Elt F) S1024x1 .f32)), { LS2 : List (View.Piece (Elt F) S1024x256 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__cross_attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc0__cross_attn_kernel_eq_skeleton]; unfold cc0__cross_attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Attn

end
-- ==== Proof.Run0C.lean ====
/-
  Region 0, the body at the LAST key tile (the epilogue branch taken, the reset not): the scratch buffers are updated
  by this tile's scores, and the result window is stored whole: the weighted sums divided by the row sums,
  projected and shifted by the bias.
-/
import proofs.«412178_j26319559590733_3_alg».proof.Proof.Run0B

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond0_0 i) (hc1 : cond0_1 i)
    (x0 : Vec F S1024x256 .bf16) (x1 : Vec F S2048x256 .bf16) (x2 : Vec F S2048x256 .bf16) (x3 : Vec F S256x512 .bf16) (x4 : Vec F S1x512 .f32) (xs0 : Vec F S1024x1 .f32) (xs1 : Vec F S1024x1 .f32) (xs2 : Vec F S1024x256 .f32) :
    Σ' (L5 : List (View.Piece (Elt F) S1024x512 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__cross_attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__cross_attn_kernel_eq_skeleton]; unfold cc0__cross_attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Attn

end
-- ==== Proof.Frame0.lean ====
/-
  Region 0 as the pipeline runs it: what the result window's staging buffer and the three scratch buffers hold after
  each grid point, by recursion on the point — a first key tile starts from the reset, a later one from what the tile
  before left —, the region's invariant carrying the scratch from point to point, and the body's obligation at every
  point from the three cases' triples.
-/
import proofs.«412178_j26319559590733_3_alg».proof.Proof.Run0C

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three scratch buffers' contents: running maximum, running sum, running weighted sums. -/
abbrev Sc0 (F : FTy → Type) [FloatOps F] : Type := Vec F S1024x1 .f32 × Vec F S1024x1 .f32 × Vec F S1024x256 .f32

/-! ## The three cases at a grid point -/

/-- The triple of a first key tile, at point `t`'s memrefs and blocks. -/
abbrev runA0 (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t)
/-- The triple of a middle key tile, the scratch entered at `s`. -/
abbrev runB0 (c : Dev nD) (t : Fin cfg0.N) (h0 : ¬t.val % 4 = 0) (h1 : ¬t.val % 4 = 3) (s : Sc0 F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) s.1 s.2.1 s.2.2
/-- The triple of the last key tile, the scratch entered at `s`. -/
abbrev runC0 (c : Dev nD) (t : Fin cfg0.N) (h0 : ¬t.val % 4 = 0) (h1 : t.val % 4 = 3) (s : Sc0 F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2

/-- What a case's recorded stores leave in the scratch buffers: the pieces read back (they cover each buffer). -/
abbrev scOf0 (L0 L1 : List (View.Piece (Elt F) S1024x1 .f32)) (L2 : List (View.Piece (Elt F) S1024x256 .f32)) : Sc0 F :=
  (VS0_0.read (Elt F) (VS0_0.writes (Elt F) VS0_0.junk L0), VS0_1.read (Elt F) (VS0_1.writes (Elt F) VS0_1.junk L1),
    VS0_2.read (Elt F) (VS0_2.writes (Elt F) VS0_2.junk L2))

def tupA0 (c : Dev nD) (t : Fin cfg0.N) (h0 : t.val % 4 = 0) (h1 : ¬t.val % 4 = 3) : Vec F S1024x512 .f32 × Sc0 F :=
  (VO0_5.read (Elt F) (VO0_5.writes (Elt F) VO0_5.junk (runA0 V c t h0 h1).1),
    scOf0 (runA0 V c t h0 h1).2.1 (runA0 V c t h0 h1).2.2.1 (runA0 V c t h0 h1).2.2.2.1)
def tupB0 (c : Dev nD) (t : Fin cfg0.N) (h0 : ¬t.val % 4 = 0) (h1 : ¬t.val % 4 = 3) (s : Sc0 F) : Vec F S1024x512 .f32 × Sc0 F :=
  (VO0_5.read (Elt F) (VO0_5.writes (Elt F) VO0_5.junk (runB0 V c t h0 h1 s).1),
    scOf0 (runB0 V c t h0 h1 s).2.1 (runB0 V c t h0 h1 s).2.2.1 (runB0 V c t h0 h1 s).2.2.2.1)
def tupC0 (c : Dev nD) (t : Fin cfg0.N) (h0 : ¬t.val % 4 = 0) (h1 : t.val % 4 = 3) (s : Sc0 F) : Vec F S1024x512 .f32 × Sc0 F :=
  (VO0_5.read (Elt F) (VO0_5.writes (Elt F) VO0_5.junk (runC0 V c t h0 h1 s).1),
    scOf0 (runC0 V c t h0 h1 s).2.1 (runC0 V c t h0 h1 s).2.2.1 (runC0 V c t h0 h1 s).2.2.2.1)

/-! ## The stores of each case cover what they are read back from -/

section Covers
variable (c : Dev nD) (t : Fin cfg0.N)
theorem scoverA0_0 (h0 : t.val % 4 = 0) (h1 : ¬t.val % 4 = 3) (y : S1024x1.Idx) : ∃ pc ∈ (runA0 V c t h0 h1).2.1, y ∈ pc.1.set :=
  View.cover_of_tiledL _ S1024x1.size (by sl_kernel_rfl) y
theorem scoverA0_1 (h0 : t.val % 4 = 0) (h1 : ¬t.val % 4 = 3) (y : S1024x1.Idx) : ∃ pc ∈ (runA0 V c t h0 h1).2.2.1, y ∈ pc.1.set :=
  View.cover_of_tiledL _ S1024x1.size (by sl_kernel_rfl) y
theorem scoverA0_2 (h0 : t.val % 4 = 0) (h1 : ¬t.val % 4 = 3) (y : S1024x256.Idx) : ∃ pc ∈ (runA0 V c t h0 h1).2.2.2.1, y ∈ pc.1.set :=
  View.cover_of_tiledL _ S1024x256.size (by sl_kernel_rfl) y
theorem scoverB0_0 (h0 : ¬t.val % 4 = 0) (h1 : ¬t.val % 4 = 3) (s : Sc0 F) (y : S1024x1.Idx) : ∃ pc ∈ (runB0 V c t h0 h1 s).2.1, y ∈ pc.1.set :=
  View.cover_of_tiledL _ S1024x1.size (by sl_kernel_rfl) y
theorem scoverB0_1 (h0 : ¬t.val % 4 = 0) (h1 : ¬t.val % 4 = 3) (s : Sc0 F) (y : S1024x1.Idx) : ∃ pc ∈ (runB0 V c t h0 h1 s).2.2.1, y ∈ pc.1.set :=
  View.cover_of_tiledL _ S1024x1.size (by sl_kernel_rfl) y
theorem scoverB0_2 (h0 : ¬t.val % 4 = 0) (h1 : ¬t.val % 4 = 3) (s : Sc0 F) (y : S1024x256.Idx) : ∃ pc ∈ (runB0 V c t h0 h1 s).2.2.2.1, y ∈ pc.1.set :=
  View.cover_of_tiledL _ S1024x256.size (by sl_kernel_rfl) y
theorem coverC0_5 (h0 : ¬t.val % 4 = 0) (h1 : t.val % 4 = 3) (s : Sc0 F) (y : S1024x512.Idx) : ∃ pc ∈ (runC0 V c t h0 h1 s).1, y ∈ pc.1.set :=
  View.cover_of_tiledL _ S1024x512.size (by sl_kernel_rfl) y
theorem scoverC0_0 (h0 : ¬t.val % 4 = 0) (h1 : t.val % 4 = 3) (s : Sc0 F) (y : S1024x1.Idx) : ∃ pc ∈ (runC0 V c t h0 h1 s).2.1, y ∈ pc.1.set :=
  View.cover_of_tiledL _ S1024x1.size (by sl_kernel_rfl) y
theorem scoverC0_1 (h0 : ¬t.val % 4 = 0) (h1 : t.val % 4 = 3) (s : Sc0 F) (y : S1024x1.Idx) : ∃ pc ∈ (runC0 V c t h0 h1 s).2.2.1, y ∈ pc.1.set :=
  View.cover_of_tiledL _ S1024x1.size (by sl_kernel_rfl) y
theorem scoverC0_2 (h0 : ¬t.val % 4 = 0) (h1 : t.val % 4 = 3) (s : Sc0 F) (y : S1024x256.Idx) : ∃ pc ∈ (runC0 V c t h0 h1 s).2.2.2.1, y ∈ pc.1.set :=
  View.cover_of_tiledL _ S1024x256.size (by sl_kernel_rfl) y
end Covers

/-! ## What the buffers hold after each point -/

/-- After grid point `n`: the result window's staging buffer and the scratch. A first key tile does not look at what came
    before; the others start from the scratch the point before left. -/
def outsAt0 (c : Dev nD) : (n : ℕ) → n < cfg0.N → Vec F S1024x512 .f32 × Sc0 F
  | 0, hn => tupA0 V c ⟨0, hn⟩ (Nat.zero_mod _) (show ¬(0 : ℕ) % 4 = 3 by decide)
  | n + 1, hn =>
    if h0 : (n + 1) % 4 = 0 then tupA0 V c ⟨n + 1, hn⟩ h0 (show ¬(n + 1) % 4 = 3 by omega)
    else if h1 : (n + 1) % 4 = 3 then tupC0 V c ⟨n + 1, hn⟩ h0 h1 (outsAt0 c n (Nat.lt_of_succ_lt hn)).2
    else tupB0 V c ⟨n + 1, hn⟩ h0 h1 (outsAt0 c n (Nat.lt_of_succ_lt hn)).2

theorem outsAt0_A (c : Dev nD) (t : Fin cfg0.N) (h0 : t.val % 4 = 0) (h1 : ¬t.val % 4 = 3) :
    outsAt0 V c t.val t.isLt = tupA0 V c t h0 h1 := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) :
    outsAt0 V c t.val t.isLt = tupB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = tupC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The three scratch buffers owned at given contents, beside the scoped buffers the region never touches. -/
def scHeld0 (c : Dev nD) (s : Sc0 F) : sProp 𝕄 :=
  iprop(owns (c : Thread nD τ) scM0_0 fullShare s.1 ∗ owns (c : Thread nD τ) scM0_1 fullShare s.2.1 ∗ owns (c : Thread nD τ) scM0_2 fullShare s.2.2 ∗ others0 c)

/-- The region's invariant before point `n`: at the start what the launch hands over (the scratch at anything); afterwards
    the scratch at what the point before left. -/
def PhiS0 (c : Dev nD) : (n : ℕ) → n ≤ cfg0.N → sProp 𝕄
  | 0, _ => Pipeline.ΦA spec0 c
  | n + 1, hn => iprop(scHeld0 c (outsAt0 V c n hn).2 ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(scHeld0 c (outsAt0 V c n hn).2 ∗ (∃ r, prngReg c r)) := rfl
theorem PhiS0_pos (c : Dev nD) (n : ℕ) (h : n ≤ cfg0.N) (hz : n ≠ 0) :
    PhiS0 V c n h = iprop(scHeld0 c (outsAt0 V c (n - 1) (by omega)).2 ∗ (∃ r, prngReg c r)) := by
  cases n with
  | zero => exact absurd rfl hz
  | succ n => rfl

/-! ## The proof data -/

/-- The arrays as the region finds them; each input's staging buffer at its block, the result window's at `outsAt0`; the
    invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare (iblk0 V c 4 t) := by
  unfold Dat.leavesExact; rw [liveAt0_4 t, after0_4]

/-- Handing the scratch back at a case's contents: each buffer's recorded stores cover it. -/
theorem scBack0 (c : Dev nD) (L0 L1 : List (View.Piece (Elt F) S1024x1 .f32)) (L2 : List (View.Piece (Elt F) S1024x256 .f32))
    (hc0 : ∀ y, ∃ pc ∈ L0, y ∈ pc.1.set) (hc1 : ∀ y, ∃ pc ∈ L1, y ∈ pc.1.set) (hc2 : ∀ y, ∃ pc ∈ L2, y ∈ pc.1.set) :
    iprop((∃ f, scM0_0.view.loc (c : Thread nD τ) ↦[scM0_0.view.set]{fullShare} scM0_0.view.writes (Elt F) f L0)
        ∗ (∃ f, scM0_1.view.loc (c : Thread nD τ) ↦[scM0_1.view.set]{fullShare} scM0_1.view.writes (Elt F) f L1)
        ∗ (∃ f, scM0_2.view.loc (c : Thread nD τ) ↦[scM0_2.view.set]{fullShare} scM0_2.view.writes (Elt F) f L2)
        ∗ others0 c)
      ⊢ (iprop(owns (c : Thread nD τ) scM0_0 fullShare (VS0_0.read (Elt F) (VS0_0.writes (Elt F) VS0_0.junk L0))
          ∗ owns (c : Thread nD τ) scM0_1 fullShare (VS0_1.read (Elt F) (VS0_1.writes (Elt F) VS0_1.junk L1))
          ∗ owns (c : Thread nD τ) scM0_2 fullShare (VS0_2.read (Elt F) (VS0_2.writes (Elt F) VS0_2.junk L2))
          ∗ others0 c) : sProp 𝕄) := by
  iintro ⟨⟨%e0, HS0⟩, ⟨%e1, HS1⟩, ⟨%e2, HS2⟩, Ho⟩
  isplitl [HS0]
  · unfold owns; iexists _; isplitr
    swap; · iexact HS0
    ipureintro; exact View.read_writes_of_cover _ _ _ _ _ hc0
  isplitl [HS1]
  · unfold owns; iexists _; isplitr
    swap; · iexact HS1
    ipureintro; exact View.read_writes_of_cover _ _ _ _ _ hc1
  isplitl [HS2]
  · unfold owns; iexists _; isplitr
    swap; · iexact HS2
    ipureintro; exact View.read_writes_of_cover _ _ _ _ _ hc2
  iexact Ho

set_option maxHeartbeats 4800000 in
/-- The body at any point: the closed forms of the two conditions say which case the point is in; the invariant hands the
    case the scratch (at anything at the very first point, else at what the point before left) and takes it back at the
    case's contents; away from the last key tile the result window is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4]
  have hN : t.val < 32 := lt_of_lt_of_eq t.isLt (show cfg0.N = 32 from N_0)
  by_cases h0 : t.val % 4 = 0
  · have h1 : ¬t.val % 4 = 3 := by omega
    rw [Dat.leavesExact_idle (dat0 V c) 5 t (idleAt0_5 t (fun h => h1 ((hcond0_1 t).mp h))) (noFlush0_5 t (fun h => h1 ((hcond0_1 t).mp h)))]
    rw [outsAt0_A V c t h0 h1]
    unfold tupA0 scHeld0; dsimp only
    by_cases hz : t.val = 0
    · rw [PhiS0_castSucc V c t, PhiS0_zero V c _ _ hz, PhiA0_eq]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runA0 V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hoth Hg]
      · isplitl [HS0 HS1 HS2 Hoth]
        · iapply (scBack0 c (runA0 V c t h0 h1).2.1 (runA0 V c t h0 h1).2.2.1 (runA0 V c t h0 h1).2.2.2.1 (scoverA0_0 V c t h0 h1) (scoverA0_1 V c t h0 h1) (scoverA0_2 V c t h0 h1))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      unfold scHeld0
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runA0 V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, HS0, HS1, HS2⟩
      isplitl [HS0 HS1 HS2 Hoth Hg]
      · isplitl [HS0 HS1 HS2 Hoth]
        · iapply (scBack0 c (runA0 V c t h0 h1).2.1 (runA0 V c t h0 h1).2.2.1 (runA0 V c t h0 h1).2.2.2.1 (scoverA0_0 V c t h0 h1) (scoverA0_1 V c t h0 h1) (scoverA0_2 V c t h0 h1))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      rw [PhiS0_castSucc V c t, PhiS0_pos V c _ _ hz]
      obtain ⟨s, hs⟩ : ∃ s, s = (outsAt0 V c (t.val - 1) (Nat.lt_of_le_of_lt (Nat.sub_le _ _) t.isLt)).2 := ⟨_, rfl⟩
      rw [← hs]
      unfold tupC0 scHeld0; dsimp only
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runC0 V c t h0 h1 s).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, HS0, HS1, HS2⟩
      isplitl [HS0 HS1 HS2 Hoth Hg]
      · isplitl [HS0 HS1 HS2 Hoth]
        · iapply (scBack0 c (runC0 V c t h0 h1 s).2.1 (runC0 V c t h0 h1 s).2.2.1 (runC0 V c t h0 h1 s).2.2.2.1 (scoverC0_0 V c t h0 h1 s) (scoverC0_1 V c t h0 h1 s) (scoverC0_2 V c t h0 h1 s))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC0_5 V c t h0 h1 s)
    · rw [Dat.leavesExact_idle (dat0 V c) 5 t (idleAt0_5 t (fun h => h1 ((hcond0_1 t).mp h))) (noFlush0_5 t (fun h => h1 ((hcond0_1 t).mp h)))]
      rw [outsAt0_B V c t h0 h1]
      rw [PhiS0_castSucc V c t, PhiS0_pos V c _ _ hz]
      obtain ⟨s, hs⟩ : ∃ s, s = (outsAt0 V c (t.val - 1) (Nat.lt_of_le_of_lt (Nat.sub_le _ _) t.isLt)).2 := ⟨_, rfl⟩
      rw [← hs]
      unfold tupB0 scHeld0; dsimp only
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runB0 V c t h0 h1 s).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hoth Hg]
      · isplitl [HS0 HS1 HS2 Hoth]
        · iapply (scBack0 c (runB0 V c t h0 h1 s).2.1 (runB0 V c t h0 h1 s).2.2.1 (runB0 V c t h0 h1 s).2.2.2.1 (scoverB0_0 V c t h0 h1 s) (scoverB0_1 V c t h0 h1 s) (scoverB0_2 V c t h0 h1 s))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: what the scratch holds is forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  unfold scHeld0
  iintro ⟨⟨HS0, HS1, HS2, Hoth⟩, Hg⟩
  isplitl [HS0 HS1 HS2 Hoth]
  · isplitl [HS0]; · iexists _; iexact HS0
    isplitl [HS1]; · iexists _; iexact HS1
    isplitl [HS2]; · iexists _; iexact HS2
    iexact Hoth
  iexact Hg

end Cert.KernelIdeal.Attn

end
-- ==== Proof.Blocks0.lean ====
/-
  Region 0, from blocks to arrays. Point `t` of the 8 × 4 grid is query tile `t / 4` and key tile `t mod 4`: the query
  window's block is rows `1024 (t / 4) + r` of Q, the key and value windows' blocks rows `2048 (t mod 4) + jj` of K and
  V, the projection and bias windows their whole arrays; and the result array ends holding, in rows
  `1024 (t / 4) + r`, what the last key tile of query tile `t / 4` stored.
-/
import proofs.«412178_j26319559590733_3_alg».proof.Proof.Frame0
import Idealize.ShloMosaic.Lib.ValueIdx
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The global row of row `r` of point `t`'s query tile. -/
def rowQ0 (t : Fin cfg0.N) (r : Fin 1024) : Fin 8192 :=
  ⟨t.val / 4 * 1024 + r.val, by have h : t.val < 32 := lt_of_lt_of_eq t.isLt (show cfg0.N = 32 from N_0); have := r.isLt; omega⟩
/-- The global row of row `jj` of point `t`'s key tile. -/
def rowK0 (t : Fin cfg0.N) (jj : Fin 2048) : Fin 8192 :=
  ⟨t.val % 4 * 2048 + jj.val, by have := jj.isLt; omega⟩

variable (V : (c : Dev nD) → (b : Ref sig .tc) → Buf (Elt F) ((c : Thread nD τ).loc b)) (c : Dev nD) (t : Fin cfg0.N)

/-! ## The block indices, decided once over the grid -/

/-- The query window's block index at point `t`: the query tile, and column block 0. -/
theorem idxQ0 : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)
/-- The key window's block index at point `t`: the key tile, and column block 0. -/
theorem idxK0 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
/-- The value window's block index at point `t`: the key tile, and column block 0. -/
theorem idxV0 : ∀ t : Fin cfg0.N, win0_2.index t (0 : Fin 2) = t.val % 4 ∧ win0_2.index t (1 : Fin 2) = 0 :=
  (by decide +kernel : ∀ t : Fin grid0.N, win0_2.index t (0 : Fin 2) = t.val % 4 ∧ win0_2.index t (1 : Fin 2) = 0)
/-- The projection window's one block is at the origin at every point. -/
theorem idxW0 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- The bias window's one block is at the origin at every point. -/
theorem idxB0 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- The result window's block index at point `t`: the query tile, and column block 0. -/
theorem idxO0 : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-! ## The input blocks, read off their arrays: a block's coordinate is its index times its size plus the coordinate inside -/

theorem qblk0 (r : Fin 1024) (x : Fin 256) :
    (iblk0 V c 0 t : Vec F S1024x256 .bf16) (ix2 r x) = (V c main_v13 : Vec F S8192x256 .bf16) (ix2 (rowQ0 t r) x) := by
  obtain ⟨ea, eb⟩ := idxQ0 t
  show V c main_v13 (((cfg0.win 0).blk t).view.emb (ix2 r x)) = V c main_v13 (ix2 (rowQ0 t r) x)
  refine congrArg (V c main_v13) ?_
  funext a; apply Fin.ext
  match a with
  | ⟨0, _⟩ => show win0_0.index t (0 : Fin 2) * 1024 + 1 * r.val = t.val / 4 * 1024 + r.val; omega
  | ⟨1, _⟩ => show win0_0.index t (1 : Fin 2) * 256 + 1 * x.val = x.val; omega
theorem kblk0 (jj : Fin 2048) (x : Fin 256) :
    (iblk0 V c 1 t : Vec F S2048x256 .bf16) (ix2 jj x) = (V c main_v30 : Vec F S8192x256 .bf16) (ix2 (rowK0 t jj) x) := by
  obtain ⟨ea, eb⟩ := idxK0 t
  show V c main_v30 (((cfg0.win 1).blk t).view.emb (ix2 jj x)) = V c main_v30 (ix2 (rowK0 t jj) x)
  refine congrArg (V c main_v30) ?_
  funext a; apply Fin.ext
  match a with
  | ⟨0, _⟩ => show win0_1.index t (0 : Fin 2) * 2048 + 1 * jj.val = t.val % 4 * 2048 + jj.val; omega
  | ⟨1, _⟩ => show win0_1.index t (1 : Fin 2) * 256 + 1 * x.val = x.val; omega
theorem vblk0 (jj : Fin 2048) (d : Fin 256) :
    (iblk0 V c 2 t : Vec F S2048x256 .bf16) (ix2 jj d) = (V c main_v17 : Vec F S8192x256 .bf16) (ix2 (rowK0 t jj) d) := by
  obtain ⟨ea, eb⟩ := idxV0 t
  show V c main_v17 (((cfg0.win 2).blk t).view.emb (ix2 jj d)) = V c main_v17 (ix2 (rowK0 t jj) d)
  refine congrArg (V c main_v17) ?_
  funext a; apply Fin.ext
  match a with
  | ⟨0, _⟩ => show win0_2.index t (0 : Fin 2) * 2048 + 1 * jj.val = t.val % 4 * 2048 + jj.val; omega
  | ⟨1, _⟩ => show win0_2.index t (1 : Fin 2) * 256 + 1 * d.val = d.val; omega
theorem wblk0 (d : Fin 256) (e : Fin 512) :
    (iblk0 V c 3 t : Vec F S256x512 .bf16) (ix2 d e) = (V c main_v34 : Vec F S256x512 .bf16) (ix2 d e) := by
  obtain ⟨ea, eb⟩ := idxW0 t
  show V c main_v34 (((cfg0.win 3).blk t).view.emb (ix2 d e)) = V c main_v34 (ix2 d e)
  refine congrArg (V c main_v34) ?_
  funext a; apply Fin.ext
  match a with
  | ⟨0, _⟩ => show win0_3.index t (0 : Fin 2) * 256 + 1 * d.val = d.val; omega
  | ⟨1, _⟩ => show win0_3.index t (1 : Fin 2) * 512 + 1 * e.val = e.val; omega
theorem bblk0 (e : Fin 512) :
    (iblk0 V c 4 t : Vec F S1x512 .f32) (ix2 (0 : Fin 1) e) = (V c main_v35 : Vec F S1x512 .f32) (ix2 (0 : Fin 1) e) := by
  obtain ⟨ea, eb⟩ := idxB0 t
  show V c main_v35 (((cfg0.win 4).blk t).view.emb (ix2 (0 : Fin 1) e)) = V c main_v35 (ix2 (0 : Fin 1) e)
  refine congrArg (V c main_v35) ?_
  funext a; apply Fin.ext
  match a with
  | ⟨0, _⟩ => show win0_4.index t (0 : Fin 2) * 1 + 1 * (0 : Fin 1).val = (0 : Fin 1).val; omega
  | ⟨1, _⟩ => show win0_4.index t (1 : Fin 2) * 512 + 1 * e.val = e.val; omega

/-! ## The result array -/

/-- An index of the result array is in point `t`'s block iff each coordinate is in the block's range on its axis. -/
theorem mem_oblk0 (i : S8192x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v36).slice (win0_5.rect t)).set ↔ _
  rw [View.set_slice_whole, Rect.mem_set_unit]
  exact Iff.rfl

/-- The result array after the region: if what every last-key-tile point stores is rows of one function `G`, the array is `G`. -/
theorem out_final0 (G : Vec F S8192x512 .f32)
    (hG : ∀ t : Fin cfg0.N, t.val % 4 = 3 → ∀ (r : Fin 1024) (e : Fin 512),
      (outsAt0 V c t.val t.isLt).1 (ix2 r e) = G (ix2 (rowQ0 t r) e)) :
    (dat0 V c).arrAt 5 cfg0.N = G := by
  have hN : cfg0.N = 32 := N_0
  refine (dat0 V c).arrAt_eq_of_cover 5 G (fun t hf => ?_) (fun i => ?_)
  · -- a point that writes back is a last key tile; what it writes is its rows of `G`
    have hlast : t.val % 4 = 3 := (flush0_5 t).mp hf
    obtain ⟨ea, eb⟩ := idxO0 t
    show (cfg0.win 5).cut (grid0.coords t) ((dat0 V c).after 5 t) = _
    rw [after0_5]
    funext y
    show (outsAt0 V c t.val t.isLt).1 y = G (((cfg0.win 5).blk t).view.emb y)
    have hy : (y : S1024x512.Idx) = ix2 (n0 := 1024) (n1 := 512) (y 0) (y 1) := eq_ix2 (n0 := 1024) (n1 := 512) y
    refine (congrArg (outsAt0 V c t.val t.isLt).1 hy).trans ((hG t hlast (y 0) (y 1)).trans (congrArg G ?_))
    funext a; apply Fin.ext
    match a with
    | ⟨0, _⟩ => show t.val / 4 * 1024 + (y 0).val = win0_5.index t (0 : Fin 2) * 1024 + 1 * (y 0).val; omega
    | ⟨1, _⟩ => show (y 1).val = win0_5.index t (1 : Fin 2) * 512 + 1 * (y 1).val; omega
  · -- row `ρ` is in the block the last key tile of query tile `ρ / 1024` writes back
    have hrow : (i 0).val < 8192 := (i 0).isLt
    have hcol : (i 1).val < 512 := (i 1).isLt
    have ht : (i 0).val / 1024 * 4 + 3 < cfg0.N := by rw [hN]; omega
    refine ⟨⟨(i 0).val / 1024 * 4 + 3, ht⟩, (flush0_5 _).mpr (by show ((i 0).val / 1024 * 4 + 3) % 4 = 3; omega), ?_⟩
    rw [mem_oblk0]
    obtain ⟨ea, eb⟩ := idxO0 ⟨(i 0).val / 1024 * 4 + 3, ht⟩
    have ea' : win0_5.index ⟨(i 0).val / 1024 * 4 + 3, ht⟩ (0 : Fin 2) = (i 0).val / 1024 :=
      ea.trans (by show ((i 0).val / 1024 * 4 + 3) / 4 = (i 0).val / 1024; omega)
    clear ea
    intro a
    match a with
    | ⟨0, _⟩ => show win0_5.index _ (0 : Fin 2) * 1024 ≤ (i 0).val ∧ (i 0).val < win0_5.index _ (0 : Fin 2) * 1024 + 1024; omega
    | ⟨1, _⟩ => show win0_5.index _ (1 : Fin 2) * 512 ≤ (i 1).val ∧ (i 1).val < win0_5.index _ (1 : Fin 2) * 512 + 512; omega

end Cert.KernelIdeal.Attn

end
-- ==== Proof.Pieces0.lean ====
/-
  Region 0: what a case's recorded stores read back to, as the body's arithmetic. Each scratch buffer ends a point at the
  value of its one last store — the update of what the point loaded, which at a first key tile is the reset value just
  stored —, and the result window at the last key tile at the epilogue of the scratch just updated.
-/
import proofs.«412178_j26319559590733_3_alg».proof.Proof.Frame0
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)

/-- One key tile's update of the scratch `s`, from the point's query, key and value blocks. -/
def step0 (s : Sc0 F) : Sc0 F :=
  (k0_pay2 (k0_pay8 (iblk0 V c 0 t) (iblk0 V c 1 t) s.1),
    k0_pay11 (iblk0 V c 0 t) (iblk0 V c 1 t) s.1 s.2.1,
    k0_pay1 (k0_pay12 (iblk0 V c 0 t) (iblk0 V c 1 t) (iblk0 V c 2 t) s.1 s.2.2))

/-- The reset values. -/
def reset0 : Sc0 F := (k0_pay4 (F := F), k0_pay5 (F := F), k0_pay6 (F := F))

/-- The offsets of a whole-buffer rectangle are zero. -/
theorem hz0 : (![0, 0] : Fin 2 → Nat) = fun _ => 0 := funext fun a => by fin_cases a <;> rfl

/-! ## The recorded stores of each case, over any buffers

Every store of the body writes a whole buffer, so a buffer ends at the payload of its last store; every load reads a
whole buffer, so it reads the contents the buffer is owned at, or, after a store of the same run, that store's payload. -/

section Pieces

variable (i : grid0.Coords)
  (aQ : Memref sig .tc .vmem S1024x256 .bf16) (gQ : aQ.IsWhole) (aK : Memref sig .tc .vmem S2048x256 .bf16) (gK : aK.IsWhole)
  (aV : Memref sig .tc .vmem S2048x256 .bf16) (gV : aV.IsWhole) (aW : Memref sig .tc .vmem S256x512 .bf16) (gW : aW.IsWhole)
  (aB : Memref sig .tc .vmem S1x512 .f32) (gB : aB.IsWhole) (aO : Memref sig .tc .vmem S1024x512 .f32) (gO : aO.IsWhole)
  (aM : Memref sig .tc .vmem S1024x1 .f32) (gM : aM.IsWhole) (aL : Memref sig .tc .vmem S1024x1 .f32) (gL : aL.IsWhole)
  (aA : Memref sig .tc .vmem S1024x256 .f32) (gA : aA.IsWhole)
  (xQ : Vec F S1024x256 .bf16) (xK : Vec F S2048x256 .bf16) (xV : Vec F S2048x256 .bf16) (xW : Vec F S256x512 .bf16) (xB : Vec F S1x512 .f32)
  (sM : Vec F S1024x1 .f32) (sL : Vec F S1024x1 .f32) (sA : Vec F S1024x256 .f32)

/-! At a first key tile each scratch buffer is reset and then updated: the update's loads read the reset values back. -/

theorem pcA0_0 (hc : cond0_0 i) (hd : ¬cond0_1 i) :
    View.canon (kernelRun0_A (F := F) c i aQ gQ aK gK aV gV aW gW aB gB aO gO aM gM aL gL aA gA hc hd xQ xK xV xW xB).2.1 = k0_pay2 (k0_pay8 xQ xK (k0_pay4 (F := F))) := by
  unfold kernelRun0_A; dsimp only
  sl_unfold_words
  rw [View.canon_cons_unit_zero (S := S1024x1) hz0]
  simp only [View.readAt_eq_ld, gQ.read_unread, gK.read_unread, gV.read_unread, gW.read_unread, gB.read_unread, gM.read_unread,
    gL.read_unread, gA.read_unread, View.readCov_unit_zero (S := S1024x1) _ hz0, View.readCov_unit_zero (S := S1024x256) _ hz0, View.ld_unit_zero (S := S1024x1) hz0, View.ld_unit_zero (S := S1024x256) hz0,
    View.ld_unit_zero (S := S2048x256) hz0, View.ld_unit_zero (S := S256x512) hz0, View.ld_unit_zero (S := S1x512) hz0]
theorem pcA0_1 (hc : cond0_0 i) (hd : ¬cond0_1 i) :
    View.canon (kernelRun0_A (F := F) c i aQ gQ aK gK aV gV aW gW aB gB aO gO aM gM aL gL aA gA hc hd xQ xK xV xW xB).2.2.1 = k0_pay11 xQ xK (k0_pay4 (F := F)) (k0_pay5 (F := F)) := by
  unfold kernelRun0_A; dsimp only
  sl_unfold_words
  rw [View.canon_cons_unit_zero (S := S1024x1) hz0]
  simp only [View.readAt_eq_ld, gQ.read_unread, gK.read_unread, gV.read_unread, gW.read_unread, gB.read_unread, gM.read_unread,
    gL.read_unread, gA.read_unread, View.readCov_unit_zero (S := S1024x1) _ hz0, View.readCov_unit_zero (S := S1024x256) _ hz0, View.ld_unit_zero (S := S1024x1) hz0, View.ld_unit_zero (S := S1024x256) hz0,
    View.ld_unit_zero (S := S2048x256) hz0, View.ld_unit_zero (S := S256x512) hz0, View.ld_unit_zero (S := S1x512) hz0]
theorem pcA0_2 (hc : cond0_0 i) (hd : ¬cond0_1 i) :
    View.canon (kernelRun0_A (F := F) c i aQ gQ aK gK aV gV aW gW aB gB aO gO aM gM aL gL aA gA hc hd xQ xK xV xW xB).2.2.2.1 = k0_pay1 (k0_pay12 xQ xK xV (k0_pay4 (F := F)) (k0_pay6 (F := F))) := by
  unfold kernelRun0_A; dsimp only
  sl_unfold_words
  rw [View.canon_cons_unit_zero (S := S1024x256) hz0]
  simp only [View.readAt_eq_ld, gQ.read_unread, gK.read_unread, gV.read_unread, gW.read_unread, gB.read_unread, gM.read_unread,
    gL.read_unread, gA.read_unread, View.readCov_unit_zero (S := S1024x1) _ hz0, View.readCov_unit_zero (S := S1024x256) _ hz0, View.ld_unit_zero (S := S1024x1) hz0, View.ld_unit_zero (S := S1024x256) hz0,
    View.ld_unit_zero (S := S2048x256) hz0, View.ld_unit_zero (S := S256x512) hz0, View.ld_unit_zero (S := S1x512) hz0]

/-! At a middle key tile each scratch buffer is updated from the contents it is entered at. -/

theorem pcB0_0 (hc : ¬cond0_0 i) (hd : ¬cond0_1 i) :
    View.canon (kernelRun0_B (F := F) c i aQ gQ aK gK aV gV aW gW aB gB aO gO aM gM aL gL aA gA hc hd xQ xK xV xW xB sM sL sA).2.1 = k0_pay2 (k0_pay8 xQ xK sM) := by
  unfold kernelRun0_B; dsimp only
  sl_unfold_words
  rw [View.canon_unit_zero (S := S1024x1) hz0]
  simp only [View.readAt_eq_ld, gQ.read_unread, gK.read_unread, gV.read_unread, gW.read_unread, gB.read_unread, gM.read_unread,
    gL.read_unread, gA.read_unread, View.ld_unit_zero (S := S1024x1) hz0, View.ld_unit_zero (S := S1024x256) hz0,
    View.ld_unit_zero (S := S2048x256) hz0, View.ld_unit_zero (S := S256x512) hz0, View.ld_unit_zero (S := S1x512) hz0]
theorem pcB0_1 (hc : ¬cond0_0 i) (hd : ¬cond0_1 i) :
    View.canon (kernelRun0_B (F := F) c i aQ gQ aK gK aV gV aW gW aB gB aO gO aM gM aL gL aA gA hc hd xQ xK xV xW xB sM sL sA).2.2.1 = k0_pay11 xQ xK sM sL := by
  unfold kernelRun0_B; dsimp only
  sl_unfold_words
  rw [View.canon_unit_zero (S := S1024x1) hz0]
  simp only [View.readAt_eq_ld, gQ.read_unread, gK.read_unread, gV.read_unread, gW.read_unread, gB.read_unread, gM.read_unread,
    gL.read_unread, gA.read_unread, View.ld_unit_zero (S := S1024x1) hz0, View.ld_unit_zero (S := S1024x256) hz0,
    View.ld_unit_zero (S := S2048x256) hz0, View.ld_unit_zero (S := S256x512) hz0, View.ld_unit_zero (S := S1x512) hz0]
theorem pcB0_2 (hc : ¬cond0_0 i) (hd : ¬cond0_1 i) :
    View.canon (kernelRun0_B (F := F) c i aQ gQ aK gK aV gV aW gW aB gB aO gO aM gM aL gL aA gA hc hd xQ xK xV xW xB sM sL sA).2.2.2.1 = k0_pay1 (k0_pay12 xQ xK xV sM sA) := by
  unfold kernelRun0_B; dsimp only
  sl_unfold_words
  rw [View.canon_unit_zero (S := S1024x256) hz0]
  simp only [View.readAt_eq_ld, gQ.read_unread, gK.read_unread, gV.read_unread, gW.read_unread, gB.read_unread, gM.read_unread,
    gL.read_unread, gA.read_unread, View.ld_unit_zero (S := S1024x1) hz0, View.ld_unit_zero (S := S1024x256) hz0,
    View.ld_unit_zero (S := S2048x256) hz0, View.ld_unit_zero (S := S256x512) hz0, View.ld_unit_zero (S := S1x512) hz0]

/-! At the last key tile likewise, and the result window is stored at the epilogue of the two buffers just updated,
    which its loads read back. -/

theorem pcC0_0 (hc : ¬cond0_0 i) (hd : cond0_1 i) :
    View.canon (kernelRun0_C (F := F) c i aQ gQ aK gK aV gV aW gW aB gB aO gO aM gM aL gL aA gA hc hd xQ xK xV xW xB sM sL sA).2.1 = k0_pay2 (k0_pay8 xQ xK sM) := by
  unfold kernelRun0_C; dsimp only
  sl_unfold_words
  rw [View.canon_unit_zero (S := S1024x1) hz0]
  simp only [View.readAt_eq_ld, gQ.read_unread, gK.read_unread, gV.read_unread, gW.read_unread, gB.read_unread, gM.read_unread,
    gL.read_unread, gA.read_unread, View.ld_unit_zero (S := S1024x1) hz0, View.ld_unit_zero (S := S1024x256) hz0,
    View.ld_unit_zero (S := S2048x256) hz0, View.ld_unit_zero (S := S256x512) hz0, View.ld_unit_zero (S := S1x512) hz0]
theorem pcC0_1 (hc : ¬cond0_0 i) (hd : cond0_1 i) :
    View.canon (kernelRun0_C (F := F) c i aQ gQ aK gK aV gV aW gW aB gB aO gO aM gM aL gL aA gA hc hd xQ xK xV xW xB sM sL sA).2.2.1 = k0_pay11 xQ xK sM sL := by
  unfold kernelRun0_C; dsimp only
  sl_unfold_words
  rw [View.canon_unit_zero (S := S1024x1) hz0]
  simp only [View.readAt_eq_ld, gQ.read_unread, gK.read_unread, gV.read_unread, gW.read_unread, gB.read_unread, gM.read_unread,
    gL.read_unread, gA.read_unread, View.ld_unit_zero (S := S1024x1) hz0, View.ld_unit_zero (S := S1024x256) hz0,
    View.ld_unit_zero (S := S2048x256) hz0, View.ld_unit_zero (S := S256x512) hz0, View.ld_unit_zero (S := S1x512) hz0]
theorem pcC0_2 (hc : ¬cond0_0 i) (hd : cond0_1 i) :
    View.canon (kernelRun0_C (F := F) c i aQ gQ aK gK aV gV aW gW aB gB aO gO aM gM aL gL aA gA hc hd xQ xK xV xW xB sM sL sA).2.2.2.1 = k0_pay1 (k0_pay12 xQ xK xV sM sA) := by
  unfold kernelRun0_C; dsimp only
  sl_unfold_words
  rw [View.canon_unit_zero (S := S1024x256) hz0]
  simp only [View.readAt_eq_ld, gQ.read_unread, gK.read_unread, gV.read_unread, gW.read_unread, gB.read_unread, gM.read_unread,
    gL.read_unread, gA.read_unread, View.ld_unit_zero (S := S1024x1) hz0, View.ld_unit_zero (S := S1024x256) hz0,
    View.ld_unit_zero (S := S2048x256) hz0, View.ld_unit_zero (S := S256x512) hz0, View.ld_unit_zero (S := S1x512) hz0]

theorem pcC0_5 (hc : ¬cond0_0 i) (hd : cond0_1 i) :
    View.canon (kernelRun0_C (F := F) c i aQ gQ aK gK aV gV aW gW aB gB aO gO aM gM aL gL aA gA hc hd xQ xK xV xW xB sM sL sA).1
      = k0_pay3 (k0_pay1 (k0_pay12 xQ xK xV sM sA)) (k0_pay11 xQ xK sM sL) xW xB := by
  unfold kernelRun0_C; dsimp only
  sl_unfold_words
  rw [View.canon_unit_zero (S := S1024x512) hz0]
  simp only [View.readAt_eq_ld, gQ.read_unread, gK.read_unread, gV.read_unread, gW.read_unread, gB.read_unread, gM.read_unread,
    gL.read_unread, gA.read_unread, View.readCov_unit_zero (S := S1024x1) _ hz0, View.readCov_unit_zero (S := S1024x256) _ hz0, View.ld_unit_zero (S := S1024x1) hz0, View.ld_unit_zero (S := S1024x256) hz0,
    View.ld_unit_zero (S := S2048x256) hz0, View.ld_unit_zero (S := S256x512) hz0, View.ld_unit_zero (S := S1x512) hz0]

end Pieces

/-! ## The cases at a grid point -/

theorem scA0 (h0 : t.val % 4 = 0) (h1 : ¬t.val % 4 = 3) : (tupA0 V c t h0 h1).2 = step0 V c t (reset0 (F := F)) := by
  unfold tupA0 scOf0 step0 reset0; dsimp only
  rw [View.read_writes_eq_canon _ _ _ (scoverA0_0 V c t h0 h1), View.read_writes_eq_canon _ _ _ (scoverA0_1 V c t h0 h1),
    View.read_writes_eq_canon _ _ _ (scoverA0_2 V c t h0 h1)]
  unfold runA0
  refine congrArg₂ Prod.mk ?_ (congrArg₂ Prod.mk ?_ ?_)
  · exact pcA0_0 c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) scM0_2 (Memref.isWhole_whole _)
      (iblk0 V c 0 t) (iblk0 V c 1 t) (iblk0 V c 2 t) (iblk0 V c 3 t) (iblk0 V c 4 t)
      ((hcond0_0 t).mpr h0) (fun h => h1 ((hcond0_1 t).mp h))
  · exact pcA0_1 c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) scM0_2 (Memref.isWhole_whole _)
      (iblk0 V c 0 t) (iblk0 V c 1 t) (iblk0 V c 2 t) (iblk0 V c 3 t) (iblk0 V c 4 t)
      ((hcond0_0 t).mpr h0) (fun h => h1 ((hcond0_1 t).mp h))
  · exact pcA0_2 c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) scM0_2 (Memref.isWhole_whole _)
      (iblk0 V c 0 t) (iblk0 V c 1 t) (iblk0 V c 2 t) (iblk0 V c 3 t) (iblk0 V c 4 t)
      ((hcond0_0 t).mpr h0) (fun h => h1 ((hcond0_1 t).mp h))
theorem scB0 (h0 : ¬t.val % 4 = 0) (h1 : ¬t.val % 4 = 3) (s : Sc0 F) : (tupB0 V c t h0 h1 s).2 = step0 V c t s := by
  unfold tupB0 scOf0 step0; dsimp only
  rw [View.read_writes_eq_canon _ _ _ (scoverB0_0 V c t h0 h1 s), View.read_writes_eq_canon _ _ _ (scoverB0_1 V c t h0 h1 s),
    View.read_writes_eq_canon _ _ _ (scoverB0_2 V c t h0 h1 s)]
  unfold runB0
  refine congrArg₂ Prod.mk ?_ (congrArg₂ Prod.mk ?_ ?_)
  · exact pcB0_0 c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) scM0_2 (Memref.isWhole_whole _)
      (iblk0 V c 0 t) (iblk0 V c 1 t) (iblk0 V c 2 t) (iblk0 V c 3 t) (iblk0 V c 4 t) s.1 s.2.1 s.2.2
      (fun h => h0 ((hcond0_0 t).mp h)) (fun h => h1 ((hcond0_1 t).mp h))
  · exact pcB0_1 c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) scM0_2 (Memref.isWhole_whole _)
      (iblk0 V c 0 t) (iblk0 V c 1 t) (iblk0 V c 2 t) (iblk0 V c 3 t) (iblk0 V c 4 t) s.1 s.2.1 s.2.2
      (fun h => h0 ((hcond0_0 t).mp h)) (fun h => h1 ((hcond0_1 t).mp h))
  · exact pcB0_2 c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) scM0_2 (Memref.isWhole_whole _)
      (iblk0 V c 0 t) (iblk0 V c 1 t) (iblk0 V c 2 t) (iblk0 V c 3 t) (iblk0 V c 4 t) s.1 s.2.1 s.2.2
      (fun h => h0 ((hcond0_0 t).mp h)) (fun h => h1 ((hcond0_1 t).mp h))
theorem scC0 (h0 : ¬t.val % 4 = 0) (h1 : t.val % 4 = 3) (s : Sc0 F) : (tupC0 V c t h0 h1 s).2 = step0 V c t s := by
  unfold tupC0 scOf0 step0; dsimp only
  rw [View.read_writes_eq_canon _ _ _ (scoverC0_0 V c t h0 h1 s), View.read_writes_eq_canon _ _ _ (scoverC0_1 V c t h0 h1 s),
    View.read_writes_eq_canon _ _ _ (scoverC0_2 V c t h0 h1 s)]
  unfold runC0
  refine congrArg₂ Prod.mk ?_ (congrArg₂ Prod.mk ?_ ?_)
  · exact pcC0_0 c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) scM0_2 (Memref.isWhole_whole _)
      (iblk0 V c 0 t) (iblk0 V c 1 t) (iblk0 V c 2 t) (iblk0 V c 3 t) (iblk0 V c 4 t) s.1 s.2.1 s.2.2
      (fun h => h0 ((hcond0_0 t).mp h)) ((hcond0_1 t).mpr h1)
  · exact pcC0_1 c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) scM0_2 (Memref.isWhole_whole _)
      (iblk0 V c 0 t) (iblk0 V c 1 t) (iblk0 V c 2 t) (iblk0 V c 3 t) (iblk0 V c 4 t) s.1 s.2.1 s.2.2
      (fun h => h0 ((hcond0_0 t).mp h)) ((hcond0_1 t).mpr h1)
  · exact pcC0_2 c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) scM0_2 (Memref.isWhole_whole _)
      (iblk0 V c 0 t) (iblk0 V c 1 t) (iblk0 V c 2 t) (iblk0 V c 3 t) (iblk0 V c 4 t) s.1 s.2.1 s.2.2
      (fun h => h0 ((hcond0_0 t).mp h)) ((hcond0_1 t).mpr h1)
/-- The result window's block at the last key tile: the epilogue of the updated scratch. -/
theorem outC0 (h0 : ¬t.val % 4 = 0) (h1 : t.val % 4 = 3) (s : Sc0 F) :
    (tupC0 V c t h0 h1 s).1 = k0_pay3 (step0 V c t s).2.2 (step0 V c t s).2.1 (iblk0 V c 3 t) (iblk0 V c 4 t) := by
  unfold tupC0 step0; dsimp only
  rw [View.read_writes_eq_canon _ _ _ (coverC0_5 V c t h0 h1 s)]
  unfold runC0
  exact (pcC0_5 c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) scM0_2 (Memref.isWhole_whole _)
      (iblk0 V c 0 t) (iblk0 V c 1 t) (iblk0 V c 2 t) (iblk0 V c 3 t) (iblk0 V c 4 t) s.1 s.2.1 s.2.2
      (fun h => h0 ((hcond0_0 t).mp h)) ((hcond0_1 t).mpr h1))

end Cert.KernelIdeal.Attn

end
-- ==== Proof.Softmax.lean ====
/-
  The online form of a softmax-weighted mean, and that it is the plain form.

  A row's scores arrive in four tiles of 2048. The online form keeps, tile after tile, the maximum m of the scores seen,
  the sum l of `exp (s − m)` over them and the sums acc of `exp (s − m) · v`; when a new tile raises the maximum from m
  to m', what was accumulated is rescaled by `exp (m − m')`, because `exp (s − m) · exp (m − m') = exp (s − m')`.
  After the last tile `acc / l` is the weighted mean. It starts from m = −∞, l = 0, acc = 0, where the rescaling factor
  `exp (−∞ − m')` is 0 and multiplies zeros.
-/
import Idealize.ShloMosaic.PureOps.Ideal
import Idealize.ShloMosaic.PureOps.Ideal.Laws
import Mathlib.Data.EReal.Basic
import Mathlib.Data.EReal.Operations
import Mathlib.Data.Finset.Fold
import Mathlib.Algebra.BigOperators.Fin
import Mathlib.Analysis.SpecialFunctions.Exp

noncomputable section

namespace Cert.Softmax

open Idealize.ShloMosaic

/-- The state carried across tiles for one row: (maximum, sum, weighted sums). -/
abbrev St := EReal × EReal × (Fin 256 → EReal)

/-- Before the first tile. -/
def init : St := (⊥, 0, fun _ => 0)

/-- One tile's update: `sc` the row's scores against the tile's 2048 keys, `vt` the tile's value rows. -/
def tileStep (sc : Fin 2048 → EReal) (vt : Fin 2048 → Fin 256 → EReal) (st : St) : St :=
  (max st.1 (Finset.univ.fold max ⊥ sc),
   Ideal.exp (st.1 - max st.1 (Finset.univ.fold max ⊥ sc)) * st.2.1
     + ∑ jj : Fin 2048, Ideal.exp (sc jj - max st.1 (Finset.univ.fold max ⊥ sc)),
   fun d => Ideal.exp (st.1 - max st.1 (Finset.univ.fold max ⊥ sc)) * st.2.2 d
     + ∑ jj : Fin 2048, Ideal.exp (sc jj - max st.1 (Finset.univ.fold max ⊥ sc)) * vt jj d)

/-- The state after the first `n` tiles. -/
def online (sc : ℕ → Fin 2048 → EReal) (vt : ℕ → Fin 2048 → Fin 256 → EReal) : ℕ → St
  | 0 => init
  | n + 1 => tileStep (sc n) (vt n) (online sc vt n)

/-! ### Real numbers read in the extended reals -/

/-- A finite sum of reals, read in the extended reals, is the sum of the readings. -/
theorem coe_sum {ι : Type*} (t : Finset ι) (f : ι → ℝ) :
    ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The larger of two reals, read in the extended reals. -/
theorem coe_max (a b : ℝ) : max (a : EReal) (b : EReal) = ((max a b : ℝ) : EReal) :=
  (EReal.coe_strictMono.monotone.map_max).symm

/-- The running maximum, started at −∞, of a nonempty family of reals is a real. -/
theorem fold_max_coe {ι : Type*} {t : Finset ι} (ht : t.Nonempty) (f : ι → ℝ) :
    ∃ M : ℝ, t.fold max ⊥ (fun i => (f i : EReal)) = (M : EReal) := by
  induction ht using Finset.Nonempty.cons_induction with
  | singleton a => exact ⟨f a, by rw [Finset.fold_singleton, max_eq_left bot_le]⟩
  | cons a s ha hs ih =>
    obtain ⟨M, hM⟩ := ih
    exact ⟨max (f a) M, by rw [Finset.fold_cons, hM, coe_max]⟩

/-! ### One tile, on real data -/

/-- The first tile: from (−∞, 0, 0) the rescaling factor is `exp (−∞) = 0` and multiplies zeros, so the state after it
    is, for a real `M` (the tile's maximum), the sums of `exp (t − M)` and of `exp (t − M) · w` over the tile. -/
theorem tileStep_init (t : Fin 2048 → ℝ) (w : Fin 2048 → Fin 256 → ℝ) :
    ∃ M : ℝ, tileStep (fun jj => (t jj : EReal)) (fun jj d => (w jj d : EReal)) init
      = ((M : EReal), ((∑ jj, Real.exp (t jj - M) : ℝ) : EReal),
          fun d => ((∑ jj, Real.exp (t jj - M) * w jj d : ℝ) : EReal)) := by
  obtain ⟨T, hT⟩ := fold_max_coe (Finset.univ_nonempty (α := Fin 2048)) t
  refine ⟨T, ?_⟩
  simp only [tileStep, init, hT, max_bot_left, EReal.bot_sub, Ideal.exp_bot, mul_zero, zero_add,
    ← EReal.coe_sub, Ideal.exp_coe, ← EReal.coe_mul, coe_sum]

/-- A later tile: from a real state `(M, L, A)` the new state is real, with maximum `M'`, and what was accumulated is
    rescaled by `exp (M − M')`. -/
theorem tileStep_coe (t : Fin 2048 → ℝ) (w : Fin 2048 → Fin 256 → ℝ) (M L : ℝ) (A : Fin 256 → ℝ) :
    ∃ M' : ℝ, tileStep (fun jj => (t jj : EReal)) (fun jj d => (w jj d : EReal))
        ((M : EReal), (L : EReal), fun d => (A d : EReal))
      = ((M' : EReal), ((Real.exp (M - M') * L + ∑ jj, Real.exp (t jj - M') : ℝ) : EReal),
          fun d => ((Real.exp (M - M') * A d + ∑ jj, Real.exp (t jj - M') * w jj d : ℝ) : EReal)) := by
  obtain ⟨T, hT⟩ := fold_max_coe (Finset.univ_nonempty (α := Fin 2048)) t
  refine ⟨max M T, ?_⟩
  simp only [tileStep, hT, coe_max, ← EReal.coe_sub, Ideal.exp_coe, ← EReal.coe_mul, coe_sum, ← EReal.coe_add]

/-! ### The state after one or more tiles -/

/-- Splitting the last tile off a sum over the first `(n + 1) · 2048` indices. -/
theorem sum_tile (f : ℕ → ℝ) (n : ℕ) :
    ∑ j ∈ Finset.range ((n + 1) * 2048), f j
      = ∑ j ∈ Finset.range (n * 2048), f j + ∑ jj : Fin 2048, f (n * 2048 + jj.val) := by
  rw [Nat.succ_mul, Finset.sum_range_add, Fin.sum_univ_eq_sum_range (fun i => f (n * 2048 + i))]

/-- Moving the reference point of the exponentials from `M` to `M'` costs the factor `exp (M − M')`:
    `exp (M − M') · exp (s − M) = exp (s − M')`. -/
theorem rescale (s g : ℕ → ℝ) (M M' : ℝ) (t : Finset ℕ) :
    Real.exp (M - M') * ∑ j ∈ t, Real.exp (s j - M) * g j = ∑ j ∈ t, Real.exp (s j - M') * g j := by
  rw [Finset.mul_sum]
  refine Finset.sum_congr rfl fun j _ => ?_
  rw [← mul_assoc, ← Real.exp_add]
  congr 2
  ring

theorem rescale_one (s : ℕ → ℝ) (M M' : ℝ) (t : Finset ℕ) :
    Real.exp (M - M') * ∑ j ∈ t, Real.exp (s j - M) = ∑ j ∈ t, Real.exp (s j - M') := by
  simpa using rescale s (fun _ => 1) M M' t

/-- After `n + 1` tiles of real scores `s` and real values `v` the state is real: for some real `M` it is `M`, the sum
    of `exp (s j − M)` and the sums of `exp (s j − M) · v j d`, over all `j` below `(n + 1) · 2048`. (Which real `M` is —
    the maximum of the scores seen — does not matter for the quotient taken at the end.) -/
theorem online_coe (s : ℕ → ℝ) (v : ℕ → Fin 256 → ℝ) (n : ℕ) :
    ∃ M : ℝ, online (fun n jj => (s (n * 2048 + jj.val) : EReal)) (fun n jj d => (v (n * 2048 + jj.val) d : EReal)) (n + 1)
      = ((M : EReal), ((∑ j ∈ Finset.range ((n + 1) * 2048), Real.exp (s j - M) : ℝ) : EReal),
          fun d => ((∑ j ∈ Finset.range ((n + 1) * 2048), Real.exp (s j - M) * v j d : ℝ) : EReal)) := by
  induction n with
  | zero =>
    obtain ⟨M, hM⟩ := tileStep_init (fun jj => s (0 * 2048 + jj.val)) (fun jj d => v (0 * 2048 + jj.val) d)
    refine ⟨M, ?_⟩
    refine Eq.trans (show online _ _ (0 + 1) = tileStep _ _ init from rfl) (hM.trans ?_)
    simp only [sum_tile, Finset.range_zero, Finset.sum_empty, zero_add, zero_mul]
  | succ n ih =>
    obtain ⟨M, hM⟩ := ih
    obtain ⟨M', hM'⟩ := tileStep_coe (fun jj => s ((n + 1) * 2048 + jj.val)) (fun jj d => v ((n + 1) * 2048 + jj.val) d) M
      (∑ j ∈ Finset.range ((n + 1) * 2048), Real.exp (s j - M))
      (fun d => ∑ j ∈ Finset.range ((n + 1) * 2048), Real.exp (s j - M) * v j d)
    refine ⟨M', ?_⟩
    refine Eq.trans (show online _ _ (n + 1 + 1) = tileStep _ _ (online _ _ (n + 1)) from rfl) ?_
    rw [hM]
    refine hM'.trans ?_
    simp only [sum_tile _ (n + 1), rescale, rescale_one]

/-- THE LAW. For real queries `q` (one row), keys `k`, values `v` (rows numbered by ℕ; only rows below 8192 matter) and a real
    scale `c`: the online form over four tiles — the scale folded into the query BEFORE the product, as the kernel does —
    divided out at the end is the plain softmax mean with the scale applied AFTER the product, as the reference does. -/
theorem online_eq_plain (q : Fin 256 → ℝ) (c : ℝ) (k v : ℕ → Fin 256 → ℝ) (d : Fin 256) :
    Ideal.div
        ((online (fun n jj => ∑ x : Fin 256, ((q x : EReal) * (c : EReal)) * (k (n * 2048 + jj.val) x : EReal))
            (fun n jj d => (v (n * 2048 + jj.val) d : EReal)) 4).2.2 d)
        ((online (fun n jj => ∑ x : Fin 256, ((q x : EReal) * (c : EReal)) * (k (n * 2048 + jj.val) x : EReal))
            (fun n jj d => (v (n * 2048 + jj.val) d : EReal)) 4).2.1)
      = ∑ j : Fin 8192,
          Ideal.div
            (Ideal.exp ((∑ x : Fin 256, (q x : EReal) * (k j.val x : EReal)) * (c : EReal)
              - max ⊥ (Finset.univ.fold max ⊥ fun j' : Fin 8192 => (∑ x : Fin 256, (q x : EReal) * (k j'.val x : EReal)) * (c : EReal))))
            (0 + ∑ j'' : Fin 8192, Ideal.exp ((∑ x : Fin 256, (q x : EReal) * (k j''.val x : EReal)) * (c : EReal)
              - max ⊥ (Finset.univ.fold max ⊥ fun j' : Fin 8192 => (∑ x : Fin 256, (q x : EReal) * (k j'.val x : EReal)) * (c : EReal))))
          * (v j.val d : EReal) := by
  -- the scaled scores as reals: the scale may be folded into the query before the product or applied after it
  obtain ⟨s, hs⟩ : ∃ s : ℕ → ℝ, ∀ j, s j = (∑ x, q x * k j x) * c := ⟨_, fun _ => rfl⟩
  have hk : (fun (n : ℕ) (jj : Fin 2048) =>
        ∑ x : Fin 256, ((q x : EReal) * (c : EReal)) * (k (n * 2048 + jj.val) x : EReal))
      = fun n jj => ((s (n * 2048 + jj.val) : ℝ) : EReal) := by
    funext n jj
    simp only [← EReal.coe_mul, coe_sum, hs]
    congr 1
    rw [Finset.sum_mul]
    exact Finset.sum_congr rfl fun x _ => mul_right_comm _ _ _
  have hr : ∀ j : ℕ, (∑ x : Fin 256, (q x : EReal) * (k j x : EReal)) * (c : EReal) = ((s j : ℝ) : EReal) := by
    intro j
    simp only [← EReal.coe_mul, coe_sum, hs]
  obtain ⟨M, hM⟩ := online_coe s v 3
  obtain ⟨M', hM'⟩ := fold_max_coe (Finset.univ_nonempty (α := Fin 8192)) (fun j => s j.val)
  rw [hk, hM]
  simp only [hr, hM', max_bot_left, zero_add, ← EReal.coe_sub, Ideal.exp_coe, coe_sum]
  have h4 : (3 + 1) * 2048 = 8192 := rfl
  rw [h4]
  -- both normalising sums are sums of exponentials over a nonempty range, so they are positive
  have hL : (∑ j ∈ Finset.range 8192, Real.exp (s j - M)) ≠ 0 :=
    (Finset.sum_pos (fun j _ => Real.exp_pos _) ⟨0, by simp⟩).ne'
  have hL' : (∑ i : Fin 8192, Real.exp (s i.val - M')) ≠ 0 :=
    (Finset.sum_pos (fun j _ => Real.exp_pos _) Finset.univ_nonempty).ne'
  rw [Ideal.div_coe hL]
  simp only [Ideal.div_coe hL', ← EReal.coe_mul, coe_sum]
  refine congrArg Real.toEReal ?_
  -- what is left is an identity of reals: both sides are the same quotient, with the exponentials taken relative to
  -- `M` on the left and to `M'` on the right; the factor `exp (M' − M)` between them cancels
  have hFin : ∀ f : ℕ → ℝ, ∑ i : Fin 8192, f i.val = ∑ j ∈ Finset.range 8192, f j :=
    fun f => Fin.sum_univ_eq_sum_range f 8192
  rw [hFin (fun j => Real.exp (s j - M')) ] at hL' ⊢
  rw [hFin (fun j => Real.exp (s j - M') * (1 / ∑ i ∈ Finset.range 8192, Real.exp (s i - M')) * v j d),
    ← rescale s (fun j => v j d) M' M, ← rescale_one s M' M,
    Finset.sum_congr rfl (fun j _ => mul_right_comm (Real.exp (s j - M')) (1 / ∑ i ∈ Finset.range 8192, Real.exp (s i - M')) (v j d)),
    ← Finset.sum_mul]
  have e0 : Real.exp (M' - M) ≠ 0 := (Real.exp_pos _).ne'
  field_simp

end Cert.Softmax

end
-- ==== Proof.Payload.lean ====
/-
  The body's arithmetic, read at one query row: one key tile's update of the scratch is one step of the online softmax
  (`Cert.Softmax.tileStep`) on that row, the reset puts the row at the starting state, and the epilogue divides the
  row's weighted sums by its sum, projects and adds the bias.
-/
import proofs.«412178_j26319559590733_3_alg».proof.Proof.Gen.KernelIdeal.Skeleton
import proofs.«412178_j26319559590733_3_alg».proof.Proof.Softmax
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Attn

open Cert.KernelIdeal Cert.KernelIdeal.Gen Idealize.ShloMosaic
open Idealize.ShloMosaic.ValueIdx

/-- Row `r` of the scratch as the online softmax's state: (maximum, sum, weighted sums). -/
abbrev rowState (sm sl : FVec Ideal S1024x1 .f32) (sa : FVec Ideal S1024x256 .f32) (r : Fin 1024) : Cert.Softmax.St :=
  (sm (ix2 r (0 : Fin 1)), sl (ix2 r (0 : Fin 1)), fun d => sa (ix2 r d))

/-- Row `r`'s scores against the tile's keys, and the tile's value rows. -/
abbrev tileScores (q : FVec Ideal S1024x256 .bf16) (k : FVec Ideal S2048x256 .bf16) (r : Fin 1024) : Fin 2048 → EReal :=
  fun jj => ∑ x : Fin 256, q (ix2 r x) * k (ix2 jj x)
abbrev tileValues (v : FVec Ideal S2048x256 .bf16) : Fin 2048 → Fin 256 → EReal := fun jj d => v (ix2 jj d)

/-! ## Layout operations and reductions read at a row -/

section Ops
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Ops

/-- Row `r` of a `[1024, 2048]` array with column `k` put back is the entry `(r, k)`. -/
theorem lift_row (h : S1024x2048.Reduces [1] S1024) (r : Fin 1024) (k : Fin (S1024x2048.size 1)) :
    h.lift (ix1 r) k = ix2 r (⟨k.val, k.isLt⟩ : Fin 2048) := by
  funext c; apply Fin.ext
  fin_cases c <;> rfl

/-- The f32 word of −∞ reads as the bottom of the extended reals. -/
theorem negInf_f32 : (FloatOps.ofBits .f32 0xFF800000#32 : Ideal .f32) = (⊥ : EReal) := by
  show Ideal.ofBits .f32 0xFF800000#32 = ⊥
  simp [Ideal.ofBits, Ideal.ieee]

/-- The lane sum of row `r`: the sum over the row's 2048 entries. -/
theorem rowSum_apply (src : FVec Ideal S1024x2048 .f32) (h : S1024x2048.Reduces [1] S1024) (hφ : FKind.Formats .f32)
    (hacc : (0x00000000#32 : BitVec 32) = 0x00000000#32) (r : Fin 1024) :
    multiReduction .add [1] S1024 src 0x00000000#32 h hφ hacc (ix1 r) = ∑ jj : Fin 2048, src (ix2 r jj) := by
  refine (Ideal.multiReduction_add_single src 0x00000000#32 h hφ hacc (ix1 r)).trans ?_
  exact Finset.sum_congr rfl fun k _ => congrArg src (lift_row h r k)

/-- The lane maximum of row `r`: the running maximum from −∞ over the row's 2048 entries. -/
theorem rowMax_apply (src : FVec Ideal S1024x2048 .f32) (h : S1024x2048.Reduces [1] S1024) (hφ : FKind.Formats .f32)
    (hacc : (0xFF800000#32 : BitVec 32) = 0xFF800000#32) (r : Fin 1024) :
    multiReduction .maximumf [1] S1024 src 0xFF800000#32 h hφ hacc (ix1 r)
      = Finset.univ.fold max ⊥ (fun jj : Fin 2048 => src (ix2 r jj)) := by
  refine (Ideal.multiReduction_maximumf_single src 0xFF800000#32 h hφ hacc (ix1 r)).trans ?_
  have hf : src ∘ h.lift (ix1 r) = fun jj : Fin 2048 => src (ix2 r jj) :=
    funext fun k => congrArg src (lift_row h r k)
  rw [hf, negInf_f32]
  rfl

/-! ## The three products read at an entry

Each product contracts one axis; its operand indices at an output entry and a contraction index are read axis by axis. -/

/-! ### Queries against keys: both operands contract their second axis -/

theorem lhs_scores_0 (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem lhs_scores_1 (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
theorem rhs_scores_0 (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem rhs_scores_1 (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q
/-- Entry `(p, c)` of the score product: query row `p` against key row `c`. -/
theorem scores_apply (x : FVec Ideal S1024x256 .bf16) (y : FVec Ideal S2048x256 .bf16) (p : Fin 1024) (c : Fin 2048) :
    FloatOps.matmul dot_S1024x256_S2048x256_S1024x2048_1_1_0_0_n_n none x y (constant (F := Ideal) S1024x2048 .f32 0x00000000#32) (ix2 p c)
      = ∑ t : Fin 256, x (ix2 p t) * y (ix2 c t) := by
  rw [Ideal.matmul_constant_zero_apply, ← Equiv.sum_comp (contrEquiv1 dot_S1024x256_S2048x256_S1024x2048_1_1_0_0_n_n 256 rfl rfl).symm]
  refine Finset.sum_congr rfl fun t _ => ?_
  have hk := contrEquiv1_symm_val dot_S1024x256_S2048x256_S1024x2048_1_1_0_0_n_n 256 rfl rfl t
  have el : dot_S1024x256_S2048x256_S1024x2048_1_1_0_0_n_n.lhsIdx (ix2 p c) ((contrEquiv1 dot_S1024x256_S2048x256_S1024x2048_1_1_0_0_n_n 256 rfl rfl).symm t) = ix2 p t := funext fun a => Fin.ext (by
    match a with
    | ⟨0, _⟩ => exact lhs_scores_0 _ _
    | ⟨1, _⟩ => exact (lhs_scores_1 _ _).trans hk)
  have er : dot_S1024x256_S2048x256_S1024x2048_1_1_0_0_n_n.rhsIdx (ix2 p c) ((contrEquiv1 dot_S1024x256_S2048x256_S1024x2048_1_1_0_0_n_n 256 rfl rfl).symm t) = ix2 c t := funext fun a => Fin.ext (by
    match a with
    | ⟨0, _⟩ => exact rhs_scores_0 _ _
    | ⟨1, _⟩ => exact (rhs_scores_1 _ _).trans hk)
  rw [el, er]

/-! ### Weights times values: rows against columns -/

theorem lhs_wsum_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_wsum_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_wsum_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_wsum_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl
/-- Entry `(p, c)` of the weighted sum: weight row `p` against value column `c`. -/
theorem wsum_apply (x : FVec Ideal S1024x2048 .bf16) (y : FVec Ideal S2048x256 .bf16) (p : Fin 1024) (c : Fin 256) :
    FloatOps.matmul dot_S1024x2048_S2048x256_S1024x256_1_0_0_1_n_n none x y (constant (F := Ideal) S1024x256 .f32 0x00000000#32) (ix2 p c)
      = ∑ t : Fin 2048, x (ix2 p t) * y (ix2 t c) := by
  rw [Ideal.matmul_constant_zero_apply, ← Equiv.sum_comp (contrEquiv1 dot_S1024x2048_S2048x256_S1024x256_1_0_0_1_n_n 2048 rfl rfl).symm]
  refine Finset.sum_congr rfl fun t _ => ?_
  have hk := contrEquiv1_symm_val dot_S1024x2048_S2048x256_S1024x256_1_0_0_1_n_n 2048 rfl rfl t
  have el : dot_S1024x2048_S2048x256_S1024x256_1_0_0_1_n_n.lhsIdx (ix2 p c) ((contrEquiv1 dot_S1024x2048_S2048x256_S1024x256_1_0_0_1_n_n 2048 rfl rfl).symm t) = ix2 p t := funext fun a => Fin.ext (by
    match a with
    | ⟨0, _⟩ => exact lhs_wsum_0 _ _
    | ⟨1, _⟩ => exact (lhs_wsum_1 _ _).trans hk)
  have er : dot_S1024x2048_S2048x256_S1024x256_1_0_0_1_n_n.rhsIdx (ix2 p c) ((contrEquiv1 dot_S1024x2048_S2048x256_S1024x256_1_0_0_1_n_n 2048 rfl rfl).symm t) = ix2 t c := funext fun a => Fin.ext (by
    match a with
    | ⟨0, _⟩ => exact (rhs_wsum_0 _ _).trans hk
    | ⟨1, _⟩ => exact rhs_wsum_1 _ _)
  rw [el, er]

/-! ### The output projection: rows against columns -/

theorem lhs_proj_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_proj_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhs_proj_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs_proj_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl
/-- Entry `(p, c)` of the projection: row `p` against weight column `c`. -/
theorem proj_apply (x : FVec Ideal S1024x256 .bf16) (y : FVec Ideal S256x512 .bf16) (p : Fin 1024) (c : Fin 512) :
    FloatOps.matmul dot_S1024x256_S256x512_S1024x512_1_0_0_1_n_n none x y (constant (F := Ideal) S1024x512 .f32 0x00000000#32) (ix2 p c)
      = ∑ t : Fin 256, x (ix2 p t) * y (ix2 t c) := by
  rw [Ideal.matmul_constant_zero_apply, ← Equiv.sum_comp (contrEquiv1 dot_S1024x256_S256x512_S1024x512_1_0_0_1_n_n 256 rfl rfl).symm]
  refine Finset.sum_congr rfl fun t _ => ?_
  have hk := contrEquiv1_symm_val dot_S1024x256_S256x512_S1024x512_1_0_0_1_n_n 256 rfl rfl t
  have el : dot_S1024x256_S256x512_S1024x512_1_0_0_1_n_n.lhsIdx (ix2 p c) ((contrEquiv1 dot_S1024x256_S256x512_S1024x512_1_0_0_1_n_n 256 rfl rfl).symm t) = ix2 p t := funext fun a => Fin.ext (by
    match a with
    | ⟨0, _⟩ => exact lhs_proj_0 _ _
    | ⟨1, _⟩ => exact (lhs_proj_1 _ _).trans hk)
  have er : dot_S1024x256_S256x512_S1024x512_1_0_0_1_n_n.rhsIdx (ix2 p c) ((contrEquiv1 dot_S1024x256_S256x512_S1024x512_1_0_0_1_n_n 256 rfl rfl).symm t) = ix2 t c := funext fun a => Fin.ext (by
    match a with
    | ⟨0, _⟩ => exact (rhs_proj_0 _ _).trans hk
    | ⟨1, _⟩ => exact rhs_proj_1 _ _)
  rw [el, er]

/-! ## Region 0's payloads -/

theorem k0_reset_max (r : Fin 1024) : (k0_pay4 (F := Ideal)) (ix2 r (0 : Fin 1)) = ⊥ := by
  unfold k0_pay4
  simp only [shapeCast_self, broadcast_apply]
  exact negInf_f32
theorem k0_reset_sum (r : Fin 1024) : (k0_pay5 (F := Ideal)) (ix2 r (0 : Fin 1)) = 0 := by
  unfold k0_pay5
  simp only [shapeCast_self, broadcast_apply]
  exact Ideal.ofBits_zero_f32
theorem k0_reset_acc (r : Fin 1024) (d : Fin 256) : (k0_pay6 (F := Ideal)) (ix2 r d) = 0 := by
  unfold k0_pay6
  simp only [shapeCast_self, broadcast_apply]
  exact Ideal.ofBits_zero_f32

/-- Entry `(r, jj)` of the tile's score product. -/
theorem k0_pay7_apply (q : FVec Ideal S1024x256 .bf16) (k : FVec Ideal S2048x256 .bf16) (r : Fin 1024) (jj : Fin 2048) :
    k0_pay7 (F := Ideal) q k (ix2 r jj) = tileScores q k r jj := by
  unfold k0_pay7
  simp only [shapeCast_self]
  exact scores_apply q k r jj

/-- Row `r`'s new maximum: the old one against the tile's row maximum. -/
theorem k0_pay8_apply (q : FVec Ideal S1024x256 .bf16) (k : FVec Ideal S2048x256 .bf16) (sm : FVec Ideal S1024x1 .f32) (r : Fin 1024) :
    k0_pay8 (F := Ideal) q k sm (ix2 r (0 : Fin 1))
      = max (sm (ix2 r (0 : Fin 1))) (Finset.univ.fold max ⊥ (tileScores q k r)) := by
  unfold k0_pay8
  refine (maximumf_apply _ _ _).trans ?_
  refine congrArg (max (sm (ix2 r (0 : Fin 1)))) ?_
  refine (shapeCast_a_a1_apply _ _ r 0).trans ?_
  refine (rowMax_apply _ _ _ _ r).trans ?_
  exact congrArg (Finset.univ.fold max ⊥) (funext fun jj => k0_pay7_apply q k r jj)

/-- Row `r`'s rescaling factor. -/
theorem k0_pay9_apply (q : FVec Ideal S1024x256 .bf16) (k : FVec Ideal S2048x256 .bf16) (sm : FVec Ideal S1024x1 .f32) (r : Fin 1024) :
    k0_pay9 (F := Ideal) q k sm (ix2 r (0 : Fin 1))
      = Ideal.exp (sm (ix2 r (0 : Fin 1)) - max (sm (ix2 r (0 : Fin 1))) (Finset.univ.fold max ⊥ (tileScores q k r))) := by
  rw [← k0_pay8_apply]
  rfl

/-- Entry `(r, jj)` of the tile's weights. -/
theorem k0_pay10_apply (q : FVec Ideal S1024x256 .bf16) (k : FVec Ideal S2048x256 .bf16) (sm : FVec Ideal S1024x1 .f32) (r : Fin 1024)
    (jj : Fin 2048) :
    k0_pay10 (F := Ideal) q k sm (ix2 r jj)
      = Ideal.exp (tileScores q k r jj - max (sm (ix2 r (0 : Fin 1))) (Finset.univ.fold max ⊥ (tileScores q k r))) := by
  rw [← k0_pay8_apply, ← k0_pay7_apply]
  unfold k0_pay10
  show Ideal.exp (k0_pay7 (F := Ideal) q k (ix2 r jj) - broadcastTo S1024x2048 (k0_pay8 (F := Ideal) q k sm) broadcasts_S1024x1_S1024x2048 (ix2 r jj)) = _
  rw [broadcastTo_a1_ab_apply]

/-- The new running maximum of row `r`. -/
theorem k0_step_max (q : FVec Ideal S1024x256 .bf16) (k : FVec Ideal S2048x256 .bf16) (sm : FVec Ideal S1024x1 .f32) (r : Fin 1024)
    (sl : FVec Ideal S1024x1 .f32) (sa : FVec Ideal S1024x256 .f32) (v : FVec Ideal S2048x256 .bf16) :
    k0_pay2 (F := Ideal) (k0_pay8 (F := Ideal) q k sm) (ix2 r (0 : Fin 1)) = (Cert.Softmax.tileStep (tileScores q k r) (tileValues v) (rowState sm sl sa r)).1 := by
  unfold k0_pay2
  simp only [shapeCast_self]
  exact k0_pay8_apply q k sm r
/-- The new running sum of row `r`. -/
theorem k0_step_sum (q : FVec Ideal S1024x256 .bf16) (k : FVec Ideal S2048x256 .bf16) (sm sl : FVec Ideal S1024x1 .f32) (r : Fin 1024)
    (sa : FVec Ideal S1024x256 .f32) (v : FVec Ideal S2048x256 .bf16) :
    k0_pay11 (F := Ideal) q k sm sl (ix2 r (0 : Fin 1)) = (Cert.Softmax.tileStep (tileScores q k r) (tileValues v) (rowState sm sl sa r)).2.1 := by
  unfold k0_pay11
  simp only [shapeCast_self]
  refine (addf_apply _ _ _).trans (congrArg₂ (· + ·) ?_ ?_)
  · refine (mulf_apply _ _ _).trans ?_
    rw [k0_pay9_apply]
  · refine (shapeCast_a_a1_apply _ _ r 0).trans ?_
    refine (rowSum_apply _ _ _ _ r).trans ?_
    exact Finset.sum_congr rfl fun jj _ => k0_pay10_apply q k sm r jj
/-- The new running weighted sums of row `r`. -/
theorem k0_step_acc (q : FVec Ideal S1024x256 .bf16) (k v : FVec Ideal S2048x256 .bf16) (sm : FVec Ideal S1024x1 .f32)
    (sa : FVec Ideal S1024x256 .f32) (r : Fin 1024) (d : Fin 256) (sl : FVec Ideal S1024x1 .f32) :
    k0_pay1 (F := Ideal) (k0_pay12 (F := Ideal) q k v sm sa) (ix2 r d) = (Cert.Softmax.tileStep (tileScores q k r) (tileValues v) (rowState sm sl sa r)).2.2 d := by
  unfold k0_pay1
  simp only [shapeCast_self]
  unfold k0_pay12
  refine (addf_apply _ _ _).trans (congrArg₂ (· + ·) ?_ ?_)
  · refine (mulf_apply _ _ _).trans ?_
    rw [broadcastTo_a1_ab_apply, k0_pay9_apply]
  · simp only [shapeCast_self]
    refine (wsum_apply _ _ r d).trans ?_
    refine Finset.sum_congr rfl fun jj _ => ?_
    rw [truncf_apply, k0_pay10_apply]
/-- The epilogue at result entry (r, e). -/
theorem k0_epilogue (acc : FVec Ideal S1024x256 .f32) (l : FVec Ideal S1024x1 .f32) (wt : FVec Ideal S256x512 .bf16) (b : FVec Ideal S1x512 .f32)
    (r : Fin 1024) (e : Fin 512) :
    k0_pay3 (F := Ideal) acc l wt b (ix2 r e)
      = (∑ d : Fin 256, Ideal.div (acc (ix2 r d)) (l (ix2 r (0 : Fin 1))) * wt (ix2 d e)) + b (ix2 (0 : Fin 1) e) := by
  unfold k0_pay3
  refine (addf_apply _ _ _).trans (congrArg₂ (· + ·) ?_ ?_)
  · simp only [shapeCast_self]
    refine (proj_apply _ _ r e).trans ?_
    refine Finset.sum_congr rfl fun t _ => ?_
    rw [truncf_apply, divf_apply, broadcastTo_a1_ab_apply]
  · simp only [shapeCast_self]
    exact broadcastTo_1b_ab_apply _ _ r e

/-! ## Region 1's payloads: the same kernel function printed a second time -/

theorem k1_reset_max (r : Fin 1024) : (k1_pay4 (F := Ideal)) (ix2 r (0 : Fin 1)) = ⊥ := by
  unfold k1_pay4
  simp only [shapeCast_self, broadcast_apply]
  exact negInf_f32
theorem k1_reset_sum (r : Fin 1024) : (k1_pay5 (F := Ideal)) (ix2 r (0 : Fin 1)) = 0 := by
  unfold k1_pay5
  simp only [shapeCast_self, broadcast_apply]
  exact Ideal.ofBits_zero_f32
theorem k1_reset_acc (r : Fin 1024) (d : Fin 256) : (k1_pay6 (F := Ideal)) (ix2 r d) = 0 := by
  unfold k1_pay6
  simp only [shapeCast_self, broadcast_apply]
  exact Ideal.ofBits_zero_f32

/-- Entry `(r, jj)` of the tile's score product. -/
theorem k1_pay7_apply (q : FVec Ideal S1024x256 .bf16) (k : FVec Ideal S2048x256 .bf16) (r : Fin 1024) (jj : Fin 2048) :
    k1_pay7 (F := Ideal) q k (ix2 r jj) = tileScores q k r jj := by
  unfold k1_pay7
  simp only [shapeCast_self]
  exact scores_apply q k r jj

/-- Row `r`'s new maximum: the old one against the tile's row maximum. -/
theorem k1_pay8_apply (q : FVec Ideal S1024x256 .bf16) (k : FVec Ideal S2048x256 .bf16) (sm : FVec Ideal S1024x1 .f32) (r : Fin 1024) :
    k1_pay8 (F := Ideal) q k sm (ix2 r (0 : Fin 1))
      = max (sm (ix2 r (0 : Fin 1))) (Finset.univ.fold max ⊥ (tileScores q k r)) := by
  unfold k1_pay8
  refine (maximumf_apply _ _ _).trans ?_
  refine congrArg (max (sm (ix2 r (0 : Fin 1)))) ?_
  refine (shapeCast_a_a1_apply _ _ r 0).trans ?_
  refine (rowMax_apply _ _ _ _ r).trans ?_
  exact congrArg (Finset.univ.fold max ⊥) (funext fun jj => k1_pay7_apply q k r jj)

/-- Row `r`'s rescaling factor. -/
theorem k1_pay9_apply (q : FVec Ideal S1024x256 .bf16) (k : FVec Ideal S2048x256 .bf16) (sm : FVec Ideal S1024x1 .f32) (r : Fin 1024) :
    k1_pay9 (F := Ideal) q k sm (ix2 r (0 : Fin 1))
      = Ideal.exp (sm (ix2 r (0 : Fin 1)) - max (sm (ix2 r (0 : Fin 1))) (Finset.univ.fold max ⊥ (tileScores q k r))) := by
  rw [← k1_pay8_apply]
  rfl

/-- Entry `(r, jj)` of the tile's weights. -/
theorem k1_pay10_apply (q : FVec Ideal S1024x256 .bf16) (k : FVec Ideal S2048x256 .bf16) (sm : FVec Ideal S1024x1 .f32) (r : Fin 1024)
    (jj : Fin 2048) :
    k1_pay10 (F := Ideal) q k sm (ix2 r jj)
      = Ideal.exp (tileScores q k r jj - max (sm (ix2 r (0 : Fin 1))) (Finset.univ.fold max ⊥ (tileScores q k r))) := by
  rw [← k1_pay8_apply, ← k1_pay7_apply]
  unfold k1_pay10
  show Ideal.exp (k1_pay7 (F := Ideal) q k (ix2 r jj) - broadcastTo S1024x2048 (k1_pay8 (F := Ideal) q k sm) broadcasts_S1024x1_S1024x2048 (ix2 r jj)) = _
  rw [broadcastTo_a1_ab_apply]

theorem k1_step_max (q : FVec Ideal S1024x256 .bf16) (k : FVec Ideal S2048x256 .bf16) (sm : FVec Ideal S1024x1 .f32) (r : Fin 1024)
    (sl : FVec Ideal S1024x1 .f32) (sa : FVec Ideal S1024x256 .f32) (v : FVec Ideal S2048x256 .bf16) :
    k1_pay2 (F := Ideal) (k1_pay8 (F := Ideal) q k sm) (ix2 r (0 : Fin 1)) = (Cert.Softmax.tileStep (tileScores q k r) (tileValues v) (rowState sm sl sa r)).1 := by
  unfold k1_pay2
  simp only [shapeCast_self]
  exact k1_pay8_apply q k sm r
theorem k1_step_sum (q : FVec Ideal S1024x256 .bf16) (k : FVec Ideal S2048x256 .bf16) (sm sl : FVec Ideal S1024x1 .f32) (r : Fin 1024)
    (sa : FVec Ideal S1024x256 .f32) (v : FVec Ideal S2048x256 .bf16) :
    k1_pay11 (F := Ideal) q k sm sl (ix2 r (0 : Fin 1)) = (Cert.Softmax.tileStep (tileScores q k r) (tileValues v) (rowState sm sl sa r)).2.1 := by
  unfold k1_pay11
  simp only [shapeCast_self]
  refine (addf_apply _ _ _).trans (congrArg₂ (· + ·) ?_ ?_)
  · refine (mulf_apply _ _ _).trans ?_
    rw [k1_pay9_apply]
  · refine (shapeCast_a_a1_apply _ _ r 0).trans ?_
    refine (rowSum_apply _ _ _ _ r).trans ?_
    exact Finset.sum_congr rfl fun jj _ => k1_pay10_apply q k sm r jj
theorem k1_step_acc (q : FVec Ideal S1024x256 .bf16) (k v : FVec Ideal S2048x256 .bf16) (sm : FVec Ideal S1024x1 .f32)
    (sa : FVec Ideal S1024x256 .f32) (r : Fin 1024) (d : Fin 256) (sl : FVec Ideal S1024x1 .f32) :
    k1_pay1 (F := Ideal) (k1_pay12 (F := Ideal) q k v sm sa) (ix2 r d) = (Cert.Softmax.tileStep (tileScores q k r) (tileValues v) (rowState sm sl sa r)).2.2 d := by
  unfold k1_pay1
  simp only [shapeCast_self]
  unfold k1_pay12
  refine (addf_apply _ _ _).trans (congrArg₂ (· + ·) ?_ ?_)
  · refine (mulf_apply _ _ _).trans ?_
    rw [broadcastTo_a1_ab_apply, k1_pay9_apply]
  · simp only [shapeCast_self]
    refine (wsum_apply _ _ r d).trans ?_
    refine Finset.sum_congr rfl fun jj _ => ?_
    rw [truncf_apply, k1_pay10_apply]
theorem k1_epilogue (acc : FVec Ideal S1024x256 .f32) (l : FVec Ideal S1024x1 .f32) (wt : FVec Ideal S256x512 .bf16) (b : FVec Ideal S1x512 .f32)
    (r : Fin 1024) (e : Fin 512) :
    k1_pay3 (F := Ideal) acc l wt b (ix2 r e)
      = (∑ d : Fin 256, Ideal.div (acc (ix2 r d)) (l (ix2 r (0 : Fin 1))) * wt (ix2 d e)) + b (ix2 (0 : Fin 1) e) := by
  unfold k1_pay3
  refine (addf_apply _ _ _).trans (congrArg₂ (· + ·) ?_ ?_)
  · simp only [shapeCast_self]
    refine (proj_apply _ _ r e).trans ?_
    refine Finset.sum_congr rfl fun t _ => ?_
    rw [truncf_apply, divf_apply, broadcastTo_a1_ab_apply]
  · simp only [shapeCast_self]
    exact broadcastTo_1b_ab_apply _ _ r e

end Cert.KernelIdeal.Attn

end
-- ==== Proof.AttnOut.lean ====
/-
  A region's result as one function of the arrays it is entered with: for each query row the online softmax over the
  four key tiles, divided out, projected, plus the bias.
-/
import proofs.«412178_j26319559590733_3_alg».proof.Proof.Softmax
import proofs.«412178_j26319559590733_3_alg».proof.KernelIdeal
import Idealize.ShloMosaic.Lib.ValueIdx

noncomputable section

namespace Cert.KernelIdeal.Attn

open Cert.KernelIdeal Idealize.ShloMosaic
open Idealize.ShloMosaic.ValueIdx

/-- Row `n` of an array of 8192 rows of 256, the rows numbered by ℕ (zero past the end: never read). -/
def rowN (A : S8192x256.Idx → EReal) (n : ℕ) (x : Fin 256) : EReal := if h : n < 8192 then A (ix2 (⟨n, h⟩ : Fin 8192) x) else 0

/-- Query row `i`'s scores against key tile `n`, and key tile `n`'s value rows. -/
def scoresN (Q K : S8192x256.Idx → EReal) (i : Fin 8192) (n : ℕ) (jj : Fin 2048) : EReal :=
  ∑ x : Fin 256, Q (ix2 i x) * rowN K (n * 2048 + jj.val) x
def valuesN (A : S8192x256.Idx → EReal) (n : ℕ) (jj : Fin 2048) (d : Fin 256) : EReal := rowN A (n * 2048 + jj.val) d

/-- The online softmax of query row `i` after all four key tiles. -/
def rowFinal (Q K A : S8192x256.Idx → EReal) (i : Fin 8192) : Cert.Softmax.St :=
  Cert.Softmax.online (scoresN Q K i) (valuesN A) 4

/-- The region's result as a function of what it is entered with: queries `Q`, keys `K`, values `A`, the transposed output
    projection `WT` and the bias row `B`. -/
def attnOut (Q K A : S8192x256.Idx → EReal) (WT : S256x512.Idx → EReal) (B : S1x512.Idx → EReal) (i : Fin 8192) (e : Fin 512) : EReal :=
  (∑ d : Fin 256, Ideal.div ((rowFinal Q K A i).2.2 d) (rowFinal Q K A i).2.1 * WT (ix2 d e)) + B (ix2 (0 : Fin 1) e)

end Cert.KernelIdeal.Attn

end
-- ==== Proof.Value0.lean ====
/-
  Region 0's result array, at the extended reals, as one function of the arrays the region is entered with.

  Fix a query row. Going through its query tile's four grid points, the three scratch buffers' row is, after the point
  of key tile n, the online softmax's state after n + 1 tiles of that row's scores: a first key tile starts the row at
  the starting state, every other one continues from what the point before left (same query tile, previous key tile).
  At the last key tile the epilogue stores the row of the result: the weighted sums divided by the sum, projected, plus
  the bias. The eight blocks so stored make up the result array.
-/
import proofs.«412178_j26319559590733_3_alg».proof.Proof.Blocks0
import proofs.«412178_j26319559590733_3_alg».proof.Proof.Pieces0
import proofs.«412178_j26319559590733_3_alg».proof.Proof.Payload
import proofs.«412178_j26319559590733_3_alg».proof.Proof.AttnOut

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Region0
variable (V : (c : Dev nD) → (b : Ref sig .tc) → Buf (Elt Ideal) ((c : Thread nD τ).loc b)) (c : Dev nD)

abbrev Q0 : S8192x256.Idx → EReal := V c main_v13
abbrev K0 : S8192x256.Idx → EReal := V c main_v30
abbrev A0 : S8192x256.Idx → EReal := V c main_v17
abbrev WT0 : S256x512.Idx → EReal := V c main_v34
abbrev B0 : S1x512.Idx → EReal := V c main_v35

/-- A point's query and key blocks give the query row's scores against the point's key tile. -/
theorem tileScores0 (t : Fin cfg0.N) (r : Fin 1024) :
    tileScores (iblk0 V c 0 t) (iblk0 V c 1 t) r = scoresN (Q0 V c) (K0 V c) (rowQ0 t r) (t.val % 4) := by
  funext jj
  unfold scoresN rowN
  have hlt : t.val % 4 * 2048 + jj.val < 8192 := by have := jj.isLt; omega
  refine Finset.sum_congr rfl fun x _ => ?_
  rw [dif_pos hlt, qblk0 V c t r x, kblk0 V c t jj x]
  rfl

theorem tileValues0 (t : Fin cfg0.N) :
    tileValues (iblk0 V c 2 t) = valuesN (A0 V c) (t.val % 4) := by
  funext jj d
  unfold valuesN rowN
  have hlt : t.val % 4 * 2048 + jj.val < 8192 := by have := jj.isLt; omega
  rw [dif_pos hlt]
  exact vblk0 V c t jj d

/-- One key tile's update, row by row, is one step of the online softmax. -/
theorem step0_row (t : Fin cfg0.N) (s : Sc0 Ideal) (r : Fin 1024) :
    rowState (step0 V c t s).1 (step0 V c t s).2.1 (step0 V c t s).2.2 r
      = Cert.Softmax.tileStep (scoresN (Q0 V c) (K0 V c) (rowQ0 t r) (t.val % 4)) (valuesN (A0 V c) (t.val % 4)) (rowState s.1 s.2.1 s.2.2 r) := by
  rw [← tileScores0 V c t r, ← tileValues0 V c t]
  refine Prod.ext ?_ (Prod.ext ?_ (funext fun d => ?_))
  · exact k0_step_max (iblk0 V c 0 t) (iblk0 V c 1 t) s.1 r s.2.1 s.2.2 (iblk0 V c 2 t)
  · exact k0_step_sum (iblk0 V c 0 t) (iblk0 V c 1 t) s.1 s.2.1 r s.2.2 (iblk0 V c 2 t)
  · exact k0_step_acc (iblk0 V c 0 t) (iblk0 V c 1 t) (iblk0 V c 2 t) s.1 s.2.2 r d s.2.1

/-- The reset puts every row at the starting state. -/
theorem reset0_row (r : Fin 1024) :
    rowState (reset0 (F := Ideal)).1 (reset0 (F := Ideal)).2.1 (reset0 (F := Ideal)).2.2 r = Cert.Softmax.init := by
  refine Prod.ext ?_ (Prod.ext ?_ (funext fun d => ?_))
  · exact k0_reset_max r
  · exact k0_reset_sum r
  · exact k0_reset_acc r d

/-- THE INVARIANT: after the point of key tile `t mod 4`, each row of the scratch is the online softmax of its query row after
    `t mod 4 + 1` tiles. -/
theorem scratch_row0 : ∀ (n : ℕ) (hn : n < cfg0.N) (r : Fin 1024),
    rowState (outsAt0 V c n hn).2.1 (outsAt0 V c n hn).2.2.1 (outsAt0 V c n hn).2.2.2 r
      = Cert.Softmax.online (scoresN (Q0 V c) (K0 V c) (rowQ0 ⟨n, hn⟩ r)) (valuesN (A0 V c)) (n % 4 + 1) := by
  intro n
  induction n with
  | zero =>
    intro hn r
    rw [outsAt0_A V c ⟨0, hn⟩ (Nat.zero_mod _) (show ¬(0 : ℕ) % 4 = 3 by decide), scA0 V c ⟨0, hn⟩ (Nat.zero_mod _) (show ¬(0 : ℕ) % 4 = 3 by decide), step0_row V c ⟨0, hn⟩ _ r, reset0_row]
    rfl
  | succ n ih =>
    intro hn r
    have hN : n + 1 < 32 := lt_of_lt_of_eq hn (show cfg0.N = 32 from N_0)
    by_cases h0 : (n + 1) % 4 = 0
    · have h1 : ¬(n + 1) % 4 = 3 := by omega
      rw [outsAt0_A V c ⟨n + 1, hn⟩ h0 h1, scA0 V c ⟨n + 1, hn⟩ h0 h1, step0_row V c ⟨n + 1, hn⟩ _ r, reset0_row]
      show _ = Cert.Softmax.online _ _ ((n + 1) % 4 + 1)
      rw [h0]; rfl
    · have hq : rowQ0 ⟨n, Nat.lt_of_succ_lt hn⟩ r = rowQ0 ⟨n + 1, hn⟩ r := by
        unfold rowQ0; apply Fin.ext; show n / 4 * 1024 + r.val = (n + 1) / 4 * 1024 + r.val; have : n / 4 = (n + 1) / 4 := by omega
        rw [this]
      have hm : (n + 1) % 4 = n % 4 + 1 := by omega
      have ih' := ih (Nat.lt_of_succ_lt hn) r
      rw [hq] at ih'
      by_cases h1 : (n + 1) % 4 = 3
      · rw [outsAt0_C V c ⟨n + 1, hn⟩ h0 h1, scC0 V c ⟨n + 1, hn⟩ h0 h1, step0_row V c ⟨n + 1, hn⟩ _ r]
        show Cert.Softmax.tileStep _ _ (rowState (outsAt0 V c n _).2.1 (outsAt0 V c n _).2.2.1 (outsAt0 V c n _).2.2.2 r) = Cert.Softmax.online _ _ ((n + 1) % 4 + 1)
        rw [ih', hm]; rfl
      · rw [outsAt0_B V c ⟨n + 1, hn⟩ h0 h1, scB0 V c ⟨n + 1, hn⟩ h0 h1, step0_row V c ⟨n + 1, hn⟩ _ r]
        show Cert.Softmax.tileStep _ _ (rowState (outsAt0 V c n _).2.1 (outsAt0 V c n _).2.2.1 (outsAt0 V c n _).2.2.2 r) = Cert.Softmax.online _ _ ((n + 1) % 4 + 1)
        rw [ih', hm]; rfl

/-- The result array after region 0. -/
theorem final0 : ((dat0 V c).arrAt 5 cfg0.N : S8192x512.Idx → EReal)
    = fun j => attnOut (Q0 V c) (K0 V c) (A0 V c) (WT0 V c) (B0 V c) (j 0) (j 1) := by
  refine out_final0 V c _ fun t h3 r e => ?_
  have h0 : ¬t.val % 4 = 0 := by omega
  have hrow := scratch_row0 V c t.val t.isLt r
  rw [outsAt0_C V c t h0 h3] at hrow ⊢
  rw [outC0 V c t h0 h3, k0_epilogue]
  rw [scC0 V c t h0 h3] at hrow
  show _ = attnOut (Q0 V c) (K0 V c) (A0 V c) (WT0 V c) (B0 V c) (rowQ0 t r) e
  unfold attnOut rowFinal
  have h4 : t.val % 4 + 1 = 4 := by omega
  rw [h4] at hrow
  rw [← hrow]
  refine congrArg₂ (· + ·) (Finset.sum_congr rfl fun d _ => ?_) (bblk0 V c t e)
  rw [wblk0 V c t d e]

end Region0

end Cert.KernelIdeal.Attn

end
-- ==== Proof.Base1.lean ====
/-
  Region 1 (one of the two attention branches): what every later module about it is stated over.

  The region is entered with the TensorCore's buffers at contents `V`. A grid point `t` of the 8 × 4 grid is a
  pair (query tile, key tile); the key-tile coordinate is `t mod 4`. Window 0 is the query tile's rows of Q,
  windows 1 and 2 the key tile's rows of K and of V, windows 3 and 4 the output projection and its bias (one
  block, never moving), window 5 the query tile's rows of the result. The three scratch buffers carry the
  running row maximum, the running row sum and the running weighted sum from one key tile to the next.
  The body has two branches: the reset of the scratch at the first key tile (`t mod 4 = 0`) and the epilogue at
  the last (`t mod 4 = 3`), the only points at which the result window is stored into and written back.
-/
import proofs.«412178_j26319559590733_3_alg».proof.Proof.Frame0
import proofs.«412178_j26319559590733_3_alg».proof.Proof.Gen.KernelIdeal.Launch
import proofs.«412178_j26319559590733_3_alg».proof.Proof.Gen.KernelIdeal.Skeleton
import proofs.«412178_j26319559590733_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block of the entry array at every point, whether the
    point fetches it or not: between two fetches the block index does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block of the entry array at every point, whether the
    point fetches it or not: between two fetches the block index does not move. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block of the entry array at every point, whether the
    point fetches it or not: between two fetches the block index does not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block of the entry array at every point, whether the
    point fetches it or not: between two fetches the block index does not move. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block of the entry array at every point, whether the
    point fetches it or not: between two fetches the block index does not move. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions, decided over the grid -/

/-- The reset branch is taken: the key-tile coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The epilogue branch is taken: the key-tile coordinate is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last key tile the result window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last key tile it is live. -/
theorem liveAt1_5 : ∀ t : Fin cfg1.N, cond1_1 (grid1.coords t) → cfg1.idle 5 (grid1.coords t) = false := by decide +kernel

/-! ## The memrefs the body is called with -/

abbrev VO1_5 : View sig .tc .vmem S1024x512 .f32 := (Memref.whole cc1_stg5_0 : Memref sig .tc .vmem S1024x512 .f32).view
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
/-- The scratch operands: the running maximum, the running sum, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

/-- The scoped buffers of the core that are no staging buffer of this region and no scratch of it, each at some contents:
    what the region's invariant carries along untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The launch's invariant for this region, with the three scratch operands as memrefs owned at some contents. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ others1 c) ∗ (∃ r, prngReg c r)) := by
  unfold Pipeline.ΦA others1
  rw [Pipeline.scopedRest_eq_of_list spec1 c [cc1_scratch0, cc1_scratch1, cc1_scratch2, cc0_stg0_0, cc0_stg0_1, cc0_stg1_0, cc0_stg1_1, cc0_stg2_0, cc0_stg2_1, cc0_stg3_0, cc0_stg4_0, cc0_stg5_0, cc0_stg5_1, cc0_scratch0, cc0_scratch1, cc0_scratch2] (by decide) (by decide)]
  simp only [scM1_0, scM1_1, scM1_2, owns_whole]; try rfl

end Cert.KernelIdeal.Attn

end
-- ==== Proof.Run1A.lean ====
/-
  Region 1, the body at a FIRST key tile (the reset branch taken, the epilogue not): the scratch buffers are reset to
  (−∞, 0, 0) and then updated by this tile's scores; the result window is not touched. The triple below says so
  over whole staging memrefs, the stores each scratch buffer ends with recorded as pieces (last first).
-/
import proofs.«412178_j26319559590733_3_alg».proof.Proof.Base1

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun1_A (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : cond1_0 i) (hc1 : ¬cond1_1 i)
    (x0 : Vec F S1024x256 .bf16) (x1 : Vec F S2048x256 .bf16) (x2 : Vec F S2048x256 .bf16) (x3 : Vec F S256x512 .bf16) (x4 : Vec F S1x512 .f32) :
    Σ' (L5 : List (View.Piece (Elt F) S1024x512 .f32)) (LS0 : List (View.Piece (Elt F) S1024x1 .f32)) (LS1 : List (View.Piece (Elt F) S1024x1 .f32)), { LS2 : List (View.Piece (Elt F) S1024x256 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__cross_attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__cross_attn_kernel_eq_skeleton]; unfold cc1__cross_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Attn

end
-- ==== Proof.Run1B.lean ====
/-
  Region 1, the body at a MIDDLE key tile (neither branch taken): the scratch buffers, entered at what the tile
  before left, are updated by this tile's scores; the result window is not touched.
-/
import proofs.«412178_j26319559590733_3_alg».proof.Proof.Run1A

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun1_B (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : ¬cond1_1 i)
    (x0 : Vec F S1024x256 .bf16) (x1 : Vec F S2048x256 .bf16) (x2 : Vec F S2048x256 .bf16) (x3 : Vec F S256x512 .bf16) (x4 : Vec F S1x512 .f32) (xs0 : Vec F S1024x1 .f32) (xs1 : Vec F S1024x1 .f32) (xs2 : Vec F S1024x256 .f32) :
    Σ' (L5 : List (View.Piece (Elt F) S1024x512 .f32)) (LS0 : List (View.Piece (Elt F) S1024x1 .f32)) (LS1 : List (View.Piece (Elt F) S1024x1 .f32)), { LS2 : List (View.Piece (Elt F) S1024x256 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__cross_attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__cross_attn_kernel_eq_skeleton]; unfold cc1__cross_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Attn

end
-- ==== Proof.Run1C.lean ====
/-
  Region 1, the body at the LAST key tile (the epilogue branch taken, the reset not): the scratch buffers are updated
  by this tile's scores, and the result window is stored whole: the weighted sums divided by the row sums,
  projected and shifted by the bias.
-/
import proofs.«412178_j26319559590733_3_alg».proof.Proof.Run1B

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun1_C (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : cond1_1 i)
    (x0 : Vec F S1024x256 .bf16) (x1 : Vec F S2048x256 .bf16) (x2 : Vec F S2048x256 .bf16) (x3 : Vec F S256x512 .bf16) (x4 : Vec F S1x512 .f32) (xs0 : Vec F S1024x1 .f32) (xs1 : Vec F S1024x1 .f32) (xs2 : Vec F S1024x256 .f32) :
    Σ' (L5 : List (View.Piece (Elt F) S1024x512 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__cross_attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__cross_attn_kernel_eq_skeleton]; unfold cc1__cross_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Attn

end
-- ==== Proof.Frame1.lean ====
/-
  Region 1 as the pipeline runs it: what the result window's staging buffer and the three scratch buffers hold after
  each grid point, by recursion on the point — a first key tile starts from the reset, a later one from what the tile
  before left —, the region's invariant carrying the scratch from point to point, and the body's obligation at every
  point from the three cases' triples.
-/
import proofs.«412178_j26319559590733_3_alg».proof.Proof.Run1C

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three scratch buffers' contents: running maximum, running sum, running weighted sums. -/
abbrev Sc1 (F : FTy → Type) [FloatOps F] : Type := Vec F S1024x1 .f32 × Vec F S1024x1 .f32 × Vec F S1024x256 .f32

/-! ## The three cases at a grid point -/

/-- The triple of a first key tile, at point `t`'s memrefs and blocks. -/
abbrev runA1 (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)
/-- The triple of a middle key tile, the scratch entered at `s`. -/
abbrev runB1 (c : Dev nD) (t : Fin cfg1.N) (h0 : ¬t.val % 4 = 0) (h1 : ¬t.val % 4 = 3) (s : Sc1 F) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) s.1 s.2.1 s.2.2
/-- The triple of the last key tile, the scratch entered at `s`. -/
abbrev runC1 (c : Dev nD) (t : Fin cfg1.N) (h0 : ¬t.val % 4 = 0) (h1 : t.val % 4 = 3) (s : Sc1 F) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) s.1 s.2.1 s.2.2

/-- What a case's recorded stores leave in the scratch buffers: the pieces read back (they cover each buffer). -/
abbrev scOf1 (L0 L1 : List (View.Piece (Elt F) S1024x1 .f32)) (L2 : List (View.Piece (Elt F) S1024x256 .f32)) : Sc1 F :=
  (VS1_0.read (Elt F) (VS1_0.writes (Elt F) VS1_0.junk L0), VS1_1.read (Elt F) (VS1_1.writes (Elt F) VS1_1.junk L1),
    VS1_2.read (Elt F) (VS1_2.writes (Elt F) VS1_2.junk L2))

def tupA1 (c : Dev nD) (t : Fin cfg1.N) (h0 : t.val % 4 = 0) (h1 : ¬t.val % 4 = 3) : Vec F S1024x512 .f32 × Sc1 F :=
  (VO1_5.read (Elt F) (VO1_5.writes (Elt F) VO1_5.junk (runA1 V c t h0 h1).1),
    scOf1 (runA1 V c t h0 h1).2.1 (runA1 V c t h0 h1).2.2.1 (runA1 V c t h0 h1).2.2.2.1)
def tupB1 (c : Dev nD) (t : Fin cfg1.N) (h0 : ¬t.val % 4 = 0) (h1 : ¬t.val % 4 = 3) (s : Sc1 F) : Vec F S1024x512 .f32 × Sc1 F :=
  (VO1_5.read (Elt F) (VO1_5.writes (Elt F) VO1_5.junk (runB1 V c t h0 h1 s).1),
    scOf1 (runB1 V c t h0 h1 s).2.1 (runB1 V c t h0 h1 s).2.2.1 (runB1 V c t h0 h1 s).2.2.2.1)
def tupC1 (c : Dev nD) (t : Fin cfg1.N) (h0 : ¬t.val % 4 = 0) (h1 : t.val % 4 = 3) (s : Sc1 F) : Vec F S1024x512 .f32 × Sc1 F :=
  (VO1_5.read (Elt F) (VO1_5.writes (Elt F) VO1_5.junk (runC1 V c t h0 h1 s).1),
    scOf1 (runC1 V c t h0 h1 s).2.1 (runC1 V c t h0 h1 s).2.2.1 (runC1 V c t h0 h1 s).2.2.2.1)

/-! ## The stores of each case cover what they are read back from -/

section Covers
variable (c : Dev nD) (t : Fin cfg1.N)
theorem scoverA1_0 (h0 : t.val % 4 = 0) (h1 : ¬t.val % 4 = 3) (y : S1024x1.Idx) : ∃ pc ∈ (runA1 V c t h0 h1).2.1, y ∈ pc.1.set :=
  View.cover_of_tiledL _ S1024x1.size (by sl_kernel_rfl) y
theorem scoverA1_1 (h0 : t.val % 4 = 0) (h1 : ¬t.val % 4 = 3) (y : S1024x1.Idx) : ∃ pc ∈ (runA1 V c t h0 h1).2.2.1, y ∈ pc.1.set :=
  View.cover_of_tiledL _ S1024x1.size (by sl_kernel_rfl) y
theorem scoverA1_2 (h0 : t.val % 4 = 0) (h1 : ¬t.val % 4 = 3) (y : S1024x256.Idx) : ∃ pc ∈ (runA1 V c t h0 h1).2.2.2.1, y ∈ pc.1.set :=
  View.cover_of_tiledL _ S1024x256.size (by sl_kernel_rfl) y
theorem scoverB1_0 (h0 : ¬t.val % 4 = 0) (h1 : ¬t.val % 4 = 3) (s : Sc1 F) (y : S1024x1.Idx) : ∃ pc ∈ (runB1 V c t h0 h1 s).2.1, y ∈ pc.1.set :=
  View.cover_of_tiledL _ S1024x1.size (by sl_kernel_rfl) y
theorem scoverB1_1 (h0 : ¬t.val % 4 = 0) (h1 : ¬t.val % 4 = 3) (s : Sc1 F) (y : S1024x1.Idx) : ∃ pc ∈ (runB1 V c t h0 h1 s).2.2.1, y ∈ pc.1.set :=
  View.cover_of_tiledL _ S1024x1.size (by sl_kernel_rfl) y
theorem scoverB1_2 (h0 : ¬t.val % 4 = 0) (h1 : ¬t.val % 4 = 3) (s : Sc1 F) (y : S1024x256.Idx) : ∃ pc ∈ (runB1 V c t h0 h1 s).2.2.2.1, y ∈ pc.1.set :=
  View.cover_of_tiledL _ S1024x256.size (by sl_kernel_rfl) y
theorem coverC1_5 (h0 : ¬t.val % 4 = 0) (h1 : t.val % 4 = 3) (s : Sc1 F) (y : S1024x512.Idx) : ∃ pc ∈ (runC1 V c t h0 h1 s).1, y ∈ pc.1.set :=
  View.cover_of_tiledL _ S1024x512.size (by sl_kernel_rfl) y
theorem scoverC1_0 (h0 : ¬t.val % 4 = 0) (h1 : t.val % 4 = 3) (s : Sc1 F) (y : S1024x1.Idx) : ∃ pc ∈ (runC1 V c t h0 h1 s).2.1, y ∈ pc.1.set :=
  View.cover_of_tiledL _ S1024x1.size (by sl_kernel_rfl) y
theorem scoverC1_1 (h0 : ¬t.val % 4 = 0) (h1 : t.val % 4 = 3) (s : Sc1 F) (y : S1024x1.Idx) : ∃ pc ∈ (runC1 V c t h0 h1 s).2.2.1, y ∈ pc.1.set :=
  View.cover_of_tiledL _ S1024x1.size (by sl_kernel_rfl) y
theorem scoverC1_2 (h0 : ¬t.val % 4 = 0) (h1 : t.val % 4 = 3) (s : Sc1 F) (y : S1024x256.Idx) : ∃ pc ∈ (runC1 V c t h0 h1 s).2.2.2.1, y ∈ pc.1.set :=
  View.cover_of_tiledL _ S1024x256.size (by sl_kernel_rfl) y
end Covers

/-! ## What the buffers hold after each point -/

/-- After grid point `n`: the result window's staging buffer and the scratch. A first key tile does not look at what came
    before; the others start from the scratch the point before left. -/
def outsAt1 (c : Dev nD) : (n : ℕ) → n < cfg1.N → Vec F S1024x512 .f32 × Sc1 F
  | 0, hn => tupA1 V c ⟨0, hn⟩ (Nat.zero_mod _) (show ¬(0 : ℕ) % 4 = 3 by decide)
  | n + 1, hn =>
    if h0 : (n + 1) % 4 = 0 then tupA1 V c ⟨n + 1, hn⟩ h0 (show ¬(n + 1) % 4 = 3 by omega)
    else if h1 : (n + 1) % 4 = 3 then tupC1 V c ⟨n + 1, hn⟩ h0 h1 (outsAt1 c n (Nat.lt_of_succ_lt hn)).2
    else tupB1 V c ⟨n + 1, hn⟩ h0 h1 (outsAt1 c n (Nat.lt_of_succ_lt hn)).2

theorem outsAt1_A (c : Dev nD) (t : Fin cfg1.N) (h0 : t.val % 4 = 0) (h1 : ¬t.val % 4 = 3) :
    outsAt1 V c t.val t.isLt = tupA1 V c t h0 h1 := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = tupB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = tupC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The three scratch buffers owned at given contents, beside the scoped buffers the region never touches. -/
def scHeld1 (c : Dev nD) (s : Sc1 F) : sProp 𝕄 :=
  iprop(owns (c : Thread nD τ) scM1_0 fullShare s.1 ∗ owns (c : Thread nD τ) scM1_1 fullShare s.2.1 ∗ owns (c : Thread nD τ) scM1_2 fullShare s.2.2 ∗ others1 c)

/-- The region's invariant before point `n`: at the start what the launch hands over (the scratch at anything); afterwards
    the scratch at what the point before left. -/
def PhiS1 (c : Dev nD) : (n : ℕ) → n ≤ cfg1.N → sProp 𝕄
  | 0, _ => Pipeline.ΦA spec1 c
  | n + 1, hn => iprop(scHeld1 c (outsAt1 V c n hn).2 ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scHeld1 c (outsAt1 V c n hn).2 ∗ (∃ r, prngReg c r)) := rfl
theorem PhiS1_pos (c : Dev nD) (n : ℕ) (h : n ≤ cfg1.N) (hz : n ≠ 0) :
    PhiS1 V c n h = iprop(scHeld1 c (outsAt1 V c (n - 1) (by omega)).2 ∗ (∃ r, prngReg c r)) := by
  cases n with
  | zero => exact absurd rfl hz
  | succ n => rfl

/-! ## The proof data -/

/-- The arrays as the region finds them; each input's staging buffer at its block, the result window's at `outsAt1`; the
    invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]

/-- Handing the scratch back at a case's contents: each buffer's recorded stores cover it. -/
theorem scBack1 (c : Dev nD) (L0 L1 : List (View.Piece (Elt F) S1024x1 .f32)) (L2 : List (View.Piece (Elt F) S1024x256 .f32))
    (hc0 : ∀ y, ∃ pc ∈ L0, y ∈ pc.1.set) (hc1 : ∀ y, ∃ pc ∈ L1, y ∈ pc.1.set) (hc2 : ∀ y, ∃ pc ∈ L2, y ∈ pc.1.set) :
    iprop((∃ f, scM1_0.view.loc (c : Thread nD τ) ↦[scM1_0.view.set]{fullShare} scM1_0.view.writes (Elt F) f L0)
        ∗ (∃ f, scM1_1.view.loc (c : Thread nD τ) ↦[scM1_1.view.set]{fullShare} scM1_1.view.writes (Elt F) f L1)
        ∗ (∃ f, scM1_2.view.loc (c : Thread nD τ) ↦[scM1_2.view.set]{fullShare} scM1_2.view.writes (Elt F) f L2)
        ∗ others1 c)
      ⊢ (iprop(owns (c : Thread nD τ) scM1_0 fullShare (VS1_0.read (Elt F) (VS1_0.writes (Elt F) VS1_0.junk L0))
          ∗ owns (c : Thread nD τ) scM1_1 fullShare (VS1_1.read (Elt F) (VS1_1.writes (Elt F) VS1_1.junk L1))
          ∗ owns (c : Thread nD τ) scM1_2 fullShare (VS1_2.read (Elt F) (VS1_2.writes (Elt F) VS1_2.junk L2))
          ∗ others1 c) : sProp 𝕄) := by
  iintro ⟨⟨%e0, HS0⟩, ⟨%e1, HS1⟩, ⟨%e2, HS2⟩, Ho⟩
  isplitl [HS0]
  · unfold owns; iexists _; isplitr
    swap; · iexact HS0
    ipureintro; exact View.read_writes_of_cover _ _ _ _ _ hc0
  isplitl [HS1]
  · unfold owns; iexists _; isplitr
    swap; · iexact HS1
    ipureintro; exact View.read_writes_of_cover _ _ _ _ _ hc1
  isplitl [HS2]
  · unfold owns; iexists _; isplitr
    swap; · iexact HS2
    ipureintro; exact View.read_writes_of_cover _ _ _ _ _ hc2
  iexact Ho

set_option maxHeartbeats 4800000 in
/-- The body at any point: the closed forms of the two conditions say which case the point is in; the invariant hands the
    case the scratch (at anything at the very first point, else at what the point before left) and takes it back at the
    case's contents; away from the last key tile the result window is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 32 := lt_of_lt_of_eq t.isLt (show cfg1.N = 32 from N_1)
  by_cases h0 : t.val % 4 = 0
  · have h1 : ¬t.val % 4 = 3 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold tupA1 scHeld1; dsimp only
    by_cases hz : t.val = 0
    · rw [PhiS1_castSucc V c t, PhiS1_zero V c _ _ hz, PhiA1_eq]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runA1 V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hoth Hg]
      · isplitl [HS0 HS1 HS2 Hoth]
        · iapply (scBack1 c (runA1 V c t h0 h1).2.1 (runA1 V c t h0 h1).2.2.1 (runA1 V c t h0 h1).2.2.2.1 (scoverA1_0 V c t h0 h1) (scoverA1_1 V c t h0 h1) (scoverA1_2 V c t h0 h1))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      unfold scHeld1
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runA1 V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, HS0, HS1, HS2⟩
      isplitl [HS0 HS1 HS2 Hoth Hg]
      · isplitl [HS0 HS1 HS2 Hoth]
        · iapply (scBack1 c (runA1 V c t h0 h1).2.1 (runA1 V c t h0 h1).2.2.1 (runA1 V c t h0 h1).2.2.2.1 (scoverA1_0 V c t h0 h1) (scoverA1_1 V c t h0 h1) (scoverA1_2 V c t h0 h1))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      rw [PhiS1_castSucc V c t, PhiS1_pos V c _ _ hz]
      obtain ⟨s, hs⟩ : ∃ s, s = (outsAt1 V c (t.val - 1) (Nat.lt_of_le_of_lt (Nat.sub_le _ _) t.isLt)).2 := ⟨_, rfl⟩
      rw [← hs]
      unfold tupC1 scHeld1; dsimp only
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runC1 V c t h0 h1 s).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, HS0, HS1, HS2⟩
      isplitl [HS0 HS1 HS2 Hoth Hg]
      · isplitl [HS0 HS1 HS2 Hoth]
        · iapply (scBack1 c (runC1 V c t h0 h1 s).2.1 (runC1 V c t h0 h1 s).2.2.1 (runC1 V c t h0 h1 s).2.2.2.1 (scoverC1_0 V c t h0 h1 s) (scoverC1_1 V c t h0 h1 s) (scoverC1_2 V c t h0 h1 s))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC1_5 V c t h0 h1 s)
    · rw [Dat.leavesExact_idle (dat1 V c) 5 t (idleAt1_5 t (fun h => h1 ((hcond1_1 t).mp h))) (noFlush1_5 t (fun h => h1 ((hcond1_1 t).mp h)))]
      rw [outsAt1_B V c t h0 h1]
      rw [PhiS1_castSucc V c t, PhiS1_pos V c _ _ hz]
      obtain ⟨s, hs⟩ : ∃ s, s = (outsAt1 V c (t.val - 1) (Nat.lt_of_le_of_lt (Nat.sub_le _ _) t.isLt)).2 := ⟨_, rfl⟩
      rw [← hs]
      unfold tupB1 scHeld1; dsimp only
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((runB1 V c t h0 h1 s).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hoth Hg]
      · isplitl [HS0 HS1 HS2 Hoth]
        · iapply (scBack1 c (runB1 V c t h0 h1 s).2.1 (runB1 V c t h0 h1 s).2.2.1 (runB1 V c t h0 h1 s).2.2.2.1 (scoverB1_0 V c t h0 h1 s) (scoverB1_1 V c t h0 h1 s) (scoverB1_2 V c t h0 h1 s))
          isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: what the scratch holds is forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  unfold scHeld1
  iintro ⟨⟨HS0, HS1, HS2, Hoth⟩, Hg⟩
  isplitl [HS0 HS1 HS2 Hoth]
  · isplitl [HS0]; · iexists _; iexact HS0
    isplitl [HS1]; · iexists _; iexact HS1
    isplitl [HS2]; · iexists _; iexact HS2
    iexact Hoth
  iexact Hg

end Cert.KernelIdeal.Attn

end
-- ==== Proof.Blocks1.lean ====
/-
  Region 1, from blocks to arrays. Point `t` of the 8 × 4 grid is query tile `t / 4` and key tile `t mod 4`: the query
  window's block is rows `1024 (t / 4) + r` of Q, the key and value windows' blocks rows `2048 (t mod 4) + jj` of K and
  V, the projection and bias windows their whole arrays; and the result array ends holding, in rows
  `1024 (t / 4) + r`, what the last key tile of query tile `t / 4` stored.
-/
import proofs.«412178_j26319559590733_3_alg».proof.Proof.Frame1
import Idealize.ShloMosaic.Lib.ValueIdx
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The global row of row `r` of point `t`'s query tile. -/
def rowQ1 (t : Fin cfg1.N) (r : Fin 1024) : Fin 8192 :=
  ⟨t.val / 4 * 1024 + r.val, by have h : t.val < 32 := lt_of_lt_of_eq t.isLt (show cfg1.N = 32 from N_1); have := r.isLt; omega⟩
/-- The global row of row `jj` of point `t`'s key tile. -/
def rowK1 (t : Fin cfg1.N) (jj : Fin 2048) : Fin 8192 :=
  ⟨t.val % 4 * 2048 + jj.val, by have := jj.isLt; omega⟩

variable (V : (c : Dev nD) → (b : Ref sig .tc) → Buf (Elt F) ((c : Thread nD τ).loc b)) (c : Dev nD) (t : Fin cfg1.N)

/-! ## The block indices, decided once over the grid -/

/-- The query window's block index at point `t`: the query tile, and column block 0. -/
theorem idxQ1 : ∀ t : Fin cfg1.N, win1_0.index t (0 : Fin 2) = t.val / 4 ∧ win1_0.index t (1 : Fin 2) = 0 :=
  (by decide +kernel : ∀ t : Fin grid1.N, win1_0.index t (0 : Fin 2) = t.val / 4 ∧ win1_0.index t (1 : Fin 2) = 0)
/-- The key window's block index at point `t`: the key tile, and column block 0. -/
theorem idxK1 : ∀ t : Fin cfg1.N, win1_1.index t (0 : Fin 2) = t.val % 4 ∧ win1_1.index t (1 : Fin 2) = 0 :=
  (by decide +kernel : ∀ t : Fin grid1.N, win1_1.index t (0 : Fin 2) = t.val % 4 ∧ win1_1.index t (1 : Fin 2) = 0)
/-- The value window's block index at point `t`: the key tile, and column block 0. -/
theorem idxV1 : ∀ t : Fin cfg1.N, win1_2.index t (0 : Fin 2) = t.val % 4 ∧ win1_2.index t (1 : Fin 2) = 0 :=
  (by decide +kernel : ∀ t : Fin grid1.N, win1_2.index t (0 : Fin 2) = t.val % 4 ∧ win1_2.index t (1 : Fin 2) = 0)
/-- The projection window's one block is at the origin at every point. -/
theorem idxW1 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
/-- The bias window's one block is at the origin at every point. -/
theorem idxB1 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
/-- The result window's block index at point `t`: the query tile, and column block 0. -/
theorem idxO1 : ∀ t : Fin cfg1.N, win1_5.index t (0 : Fin 2) = t.val / 4 ∧ win1_5.index t (1 : Fin 2) = 0 :=
  (by decide +kernel : ∀ t : Fin grid1.N, win1_5.index t (0 : Fin 2) = t.val / 4 ∧ win1_5.index t (1 : Fin 2) = 0)

/-! ## The input blocks, read off their arrays: a block's coordinate is its index times its size plus the coordinate inside -/

theorem qblk1 (r : Fin 1024) (x : Fin 256) :
    (iblk1 V c 0 t : Vec F S1024x256 .bf16) (ix2 r x) = (V c main_v28 : Vec F S8192x256 .bf16) (ix2 (rowQ1 t r) x) := by
  obtain ⟨ea, eb⟩ := idxQ1 t
  show V c main_v28 (((cfg1.win 0).blk t).view.emb (ix2 r x)) = V c main_v28 (ix2 (rowQ1 t r) x)
  refine congrArg (V c main_v28) ?_
  funext a; apply Fin.ext
  match a with
  | ⟨0, _⟩ => show win1_0.index t (0 : Fin 2) * 1024 + 1 * r.val = t.val / 4 * 1024 + r.val; omega
  | ⟨1, _⟩ => show win1_0.index t (1 : Fin 2) * 256 + 1 * x.val = x.val; omega
theorem kblk1 (jj : Fin 2048) (x : Fin 256) :
    (iblk1 V c 1 t : Vec F S2048x256 .bf16) (ix2 jj x) = (V c main_v15 : Vec F S8192x256 .bf16) (ix2 (rowK1 t jj) x) := by
  obtain ⟨ea, eb⟩ := idxK1 t
  show V c main_v15 (((cfg1.win 1).blk t).view.emb (ix2 jj x)) = V c main_v15 (ix2 (rowK1 t jj) x)
  refine congrArg (V c main_v15) ?_
  funext a; apply Fin.ext
  match a with
  | ⟨0, _⟩ => show win1_1.index t (0 : Fin 2) * 2048 + 1 * jj.val = t.val % 4 * 2048 + jj.val; omega
  | ⟨1, _⟩ => show win1_1.index t (1 : Fin 2) * 256 + 1 * x.val = x.val; omega
theorem vblk1 (jj : Fin 2048) (d : Fin 256) :
    (iblk1 V c 2 t : Vec F S2048x256 .bf16) (ix2 jj d) = (V c main_v32 : Vec F S8192x256 .bf16) (ix2 (rowK1 t jj) d) := by
  obtain ⟨ea, eb⟩ := idxV1 t
  show V c main_v32 (((cfg1.win 2).blk t).view.emb (ix2 jj d)) = V c main_v32 (ix2 (rowK1 t jj) d)
  refine congrArg (V c main_v32) ?_
  funext a; apply Fin.ext
  match a with
  | ⟨0, _⟩ => show win1_2.index t (0 : Fin 2) * 2048 + 1 * jj.val = t.val % 4 * 2048 + jj.val; omega
  | ⟨1, _⟩ => show win1_2.index t (1 : Fin 2) * 256 + 1 * d.val = d.val; omega
theorem wblk1 (d : Fin 256) (e : Fin 512) :
    (iblk1 V c 3 t : Vec F S256x512 .bf16) (ix2 d e) = (V c main_v34 : Vec F S256x512 .bf16) (ix2 d e) := by
  obtain ⟨ea, eb⟩ := idxW1 t
  show V c main_v34 (((cfg1.win 3).blk t).view.emb (ix2 d e)) = V c main_v34 (ix2 d e)
  refine congrArg (V c main_v34) ?_
  funext a; apply Fin.ext
  match a with
  | ⟨0, _⟩ => show win1_3.index t (0 : Fin 2) * 256 + 1 * d.val = d.val; omega
  | ⟨1, _⟩ => show win1_3.index t (1 : Fin 2) * 512 + 1 * e.val = e.val; omega
theorem bblk1 (e : Fin 512) :
    (iblk1 V c 4 t : Vec F S1x512 .f32) (ix2 (0 : Fin 1) e) = (V c main_v35 : Vec F S1x512 .f32) (ix2 (0 : Fin 1) e) := by
  obtain ⟨ea, eb⟩ := idxB1 t
  show V c main_v35 (((cfg1.win 4).blk t).view.emb (ix2 (0 : Fin 1) e)) = V c main_v35 (ix2 (0 : Fin 1) e)
  refine congrArg (V c main_v35) ?_
  funext a; apply Fin.ext
  match a with
  | ⟨0, _⟩ => show win1_4.index t (0 : Fin 2) * 1 + 1 * (0 : Fin 1).val = (0 : Fin 1).val; omega
  | ⟨1, _⟩ => show win1_4.index t (1 : Fin 2) * 512 + 1 * e.val = e.val; omega

/-! ## The result array -/

/-- An index of the result array is in point `t`'s block iff each coordinate is in the block's range on its axis. -/
theorem mem_oblk1 (i : S8192x512.Idx) :
    i ∈ ((cfg1.win 5).blk t).view.set ↔ ∀ a : Fin 2, win1_5.index t a * S1024x512.size a ≤ (i a).val ∧ (i a).val < win1_5.index t a * S1024x512.size a + S1024x512.size a := by
  show i ∈ ((View.whole main_v37).slice (win1_5.rect t)).set ↔ _
  rw [View.set_slice_whole, Rect.mem_set_unit]
  exact Iff.rfl

/-- The result array after the region: if what every last-key-tile point stores is rows of one function `G`, the array is `G`. -/
theorem out_final1 (G : Vec F S8192x512 .f32)
    (hG : ∀ t : Fin cfg1.N, t.val % 4 = 3 → ∀ (r : Fin 1024) (e : Fin 512),
      (outsAt1 V c t.val t.isLt).1 (ix2 r e) = G (ix2 (rowQ1 t r) e)) :
    (dat1 V c).arrAt 5 cfg1.N = G := by
  have hN : cfg1.N = 32 := N_1
  refine (dat1 V c).arrAt_eq_of_cover 5 G (fun t hf => ?_) (fun i => ?_)
  · -- a point that writes back is a last key tile; what it writes is its rows of `G`
    have hlast : t.val % 4 = 3 := (flush1_5 t).mp hf
    obtain ⟨ea, eb⟩ := idxO1 t
    show (cfg1.win 5).cut (grid1.coords t) ((dat1 V c).after 5 t) = _
    rw [after1_5]
    funext y
    show (outsAt1 V c t.val t.isLt).1 y = G (((cfg1.win 5).blk t).view.emb y)
    have hy : (y : S1024x512.Idx) = ix2 (n0 := 1024) (n1 := 512) (y 0) (y 1) := eq_ix2 (n0 := 1024) (n1 := 512) y
    refine (congrArg (outsAt1 V c t.val t.isLt).1 hy).trans ((hG t hlast (y 0) (y 1)).trans (congrArg G ?_))
    funext a; apply Fin.ext
    match a with
    | ⟨0, _⟩ => show t.val / 4 * 1024 + (y 0).val = win1_5.index t (0 : Fin 2) * 1024 + 1 * (y 0).val; omega
    | ⟨1, _⟩ => show (y 1).val = win1_5.index t (1 : Fin 2) * 512 + 1 * (y 1).val; omega
  · -- row `ρ` is in the block the last key tile of query tile `ρ / 1024` writes back
    have hrow : (i 0).val < 8192 := (i 0).isLt
    have hcol : (i 1).val < 512 := (i 1).isLt
    have ht : (i 0).val / 1024 * 4 + 3 < cfg1.N := by rw [hN]; omega
    refine ⟨⟨(i 0).val / 1024 * 4 + 3, ht⟩, (flush1_5 _).mpr (by show ((i 0).val / 1024 * 4 + 3) % 4 = 3; omega), ?_⟩
    rw [mem_oblk1]
    obtain ⟨ea, eb⟩ := idxO1 ⟨(i 0).val / 1024 * 4 + 3, ht⟩
    have ea' : win1_5.index ⟨(i 0).val / 1024 * 4 + 3, ht⟩ (0 : Fin 2) = (i 0).val / 1024 :=
      ea.trans (by show ((i 0).val / 1024 * 4 + 3) / 4 = (i 0).val / 1024; omega)
    clear ea
    intro a
    match a with
    | ⟨0, _⟩ => show win1_5.index _ (0 : Fin 2) * 1024 ≤ (i 0).val ∧ (i 0).val < win1_5.index _ (0 : Fin 2) * 1024 + 1024; omega
    | ⟨1, _⟩ => show win1_5.index _ (1 : Fin 2) * 512 ≤ (i 1).val ∧ (i 1).val < win1_5.index _ (1 : Fin 2) * 512 + 512; omega

end Cert.KernelIdeal.Attn

end
-- ==== Proof.Pieces1.lean ====
/-
  Region 1: what a case's recorded stores read back to, as the body's arithmetic. Each scratch buffer ends a point at the
  value of its one last store — the update of what the point loaded, which at a first key tile is the reset value just
  stored —, and the result window at the last key tile at the epilogue of the scratch just updated.
-/
import proofs.«412178_j26319559590733_3_alg».proof.Proof.Frame1
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg1.N)

/-- One key tile's update of the scratch `s`, from the point's query, key and value blocks. -/
def step1 (s : Sc1 F) : Sc1 F :=
  (k1_pay2 (k1_pay8 (iblk1 V c 0 t) (iblk1 V c 1 t) s.1),
    k1_pay11 (iblk1 V c 0 t) (iblk1 V c 1 t) s.1 s.2.1,
    k1_pay1 (k1_pay12 (iblk1 V c 0 t) (iblk1 V c 1 t) (iblk1 V c 2 t) s.1 s.2.2))

/-- The reset values. -/
def reset1 : Sc1 F := (k1_pay4 (F := F), k1_pay5 (F := F), k1_pay6 (F := F))

/-- The offsets of a whole-buffer rectangle are zero. -/
theorem hz1 : (![0, 0] : Fin 2 → Nat) = fun _ => 0 := funext fun a => by fin_cases a <;> rfl

/-! ## The recorded stores of each case, over any buffers

Every store of the body writes a whole buffer, so a buffer ends at the payload of its last store; every load reads a
whole buffer, so it reads the contents the buffer is owned at, or, after a store of the same run, that store's payload. -/

section Pieces

variable (i : grid1.Coords)
  (aQ : Memref sig .tc .vmem S1024x256 .bf16) (gQ : aQ.IsWhole) (aK : Memref sig .tc .vmem S2048x256 .bf16) (gK : aK.IsWhole)
  (aV : Memref sig .tc .vmem S2048x256 .bf16) (gV : aV.IsWhole) (aW : Memref sig .tc .vmem S256x512 .bf16) (gW : aW.IsWhole)
  (aB : Memref sig .tc .vmem S1x512 .f32) (gB : aB.IsWhole) (aO : Memref sig .tc .vmem S1024x512 .f32) (gO : aO.IsWhole)
  (aM : Memref sig .tc .vmem S1024x1 .f32) (gM : aM.IsWhole) (aL : Memref sig .tc .vmem S1024x1 .f32) (gL : aL.IsWhole)
  (aA : Memref sig .tc .vmem S1024x256 .f32) (gA : aA.IsWhole)
  (xQ : Vec F S1024x256 .bf16) (xK : Vec F S2048x256 .bf16) (xV : Vec F S2048x256 .bf16) (xW : Vec F S256x512 .bf16) (xB : Vec F S1x512 .f32)
  (sM : Vec F S1024x1 .f32) (sL : Vec F S1024x1 .f32) (sA : Vec F S1024x256 .f32)

/-! At a first key tile each scratch buffer is reset and then updated: the update's loads read the reset values back. -/

theorem pcA1_0 (hc : cond1_0 i) (hd : ¬cond1_1 i) :
    View.canon (kernelRun1_A (F := F) c i aQ gQ aK gK aV gV aW gW aB gB aO gO aM gM aL gL aA gA hc hd xQ xK xV xW xB).2.1 = k1_pay2 (k1_pay8 xQ xK (k1_pay4 (F := F))) := by
  unfold kernelRun1_A; dsimp only
  sl_unfold_words
  rw [View.canon_cons_unit_zero (S := S1024x1) hz1]
  simp only [View.readAt_eq_ld, gQ.read_unread, gK.read_unread, gV.read_unread, gW.read_unread, gB.read_unread, gM.read_unread,
    gL.read_unread, gA.read_unread, View.readCov_unit_zero (S := S1024x1) _ hz1, View.readCov_unit_zero (S := S1024x256) _ hz1, View.ld_unit_zero (S := S1024x1) hz1, View.ld_unit_zero (S := S1024x256) hz1,
    View.ld_unit_zero (S := S2048x256) hz1, View.ld_unit_zero (S := S256x512) hz1, View.ld_unit_zero (S := S1x512) hz1]
theorem pcA1_1 (hc : cond1_0 i) (hd : ¬cond1_1 i) :
    View.canon (kernelRun1_A (F := F) c i aQ gQ aK gK aV gV aW gW aB gB aO gO aM gM aL gL aA gA hc hd xQ xK xV xW xB).2.2.1 = k1_pay11 xQ xK (k1_pay4 (F := F)) (k1_pay5 (F := F)) := by
  unfold kernelRun1_A; dsimp only
  sl_unfold_words
  rw [View.canon_cons_unit_zero (S := S1024x1) hz1]
  simp only [View.readAt_eq_ld, gQ.read_unread, gK.read_unread, gV.read_unread, gW.read_unread, gB.read_unread, gM.read_unread,
    gL.read_unread, gA.read_unread, View.readCov_unit_zero (S := S1024x1) _ hz1, View.readCov_unit_zero (S := S1024x256) _ hz1, View.ld_unit_zero (S := S1024x1) hz1, View.ld_unit_zero (S := S1024x256) hz1,
    View.ld_unit_zero (S := S2048x256) hz1, View.ld_unit_zero (S := S256x512) hz1, View.ld_unit_zero (S := S1x512) hz1]
theorem pcA1_2 (hc : cond1_0 i) (hd : ¬cond1_1 i) :
    View.canon (kernelRun1_A (F := F) c i aQ gQ aK gK aV gV aW gW aB gB aO gO aM gM aL gL aA gA hc hd xQ xK xV xW xB).2.2.2.1 = k1_pay1 (k1_pay12 xQ xK xV (k1_pay4 (F := F)) (k1_pay6 (F := F))) := by
  unfold kernelRun1_A; dsimp only
  sl_unfold_words
  rw [View.canon_cons_unit_zero (S := S1024x256) hz1]
  simp only [View.readAt_eq_ld, gQ.read_unread, gK.read_unread, gV.read_unread, gW.read_unread, gB.read_unread, gM.read_unread,
    gL.read_unread, gA.read_unread, View.readCov_unit_zero (S := S1024x1) _ hz1, View.readCov_unit_zero (S := S1024x256) _ hz1, View.ld_unit_zero (S := S1024x1) hz1, View.ld_unit_zero (S := S1024x256) hz1,
    View.ld_unit_zero (S := S2048x256) hz1, View.ld_unit_zero (S := S256x512) hz1, View.ld_unit_zero (S := S1x512) hz1]

/-! At a middle key tile each scratch buffer is updated from the contents it is entered at. -/

theorem pcB1_0 (hc : ¬cond1_0 i) (hd : ¬cond1_1 i) :
    View.canon (kernelRun1_B (F := F) c i aQ gQ aK gK aV gV aW gW aB gB aO gO aM gM aL gL aA gA hc hd xQ xK xV xW xB sM sL sA).2.1 = k1_pay2 (k1_pay8 xQ xK sM) := by
  unfold kernelRun1_B; dsimp only
  sl_unfold_words
  rw [View.canon_unit_zero (S := S1024x1) hz1]
  simp only [View.readAt_eq_ld, gQ.read_unread, gK.read_unread, gV.read_unread, gW.read_unread, gB.read_unread, gM.read_unread,
    gL.read_unread, gA.read_unread, View.ld_unit_zero (S := S1024x1) hz1, View.ld_unit_zero (S := S1024x256) hz1,
    View.ld_unit_zero (S := S2048x256) hz1, View.ld_unit_zero (S := S256x512) hz1, View.ld_unit_zero (S := S1x512) hz1]
theorem pcB1_1 (hc : ¬cond1_0 i) (hd : ¬cond1_1 i) :
    View.canon (kernelRun1_B (F := F) c i aQ gQ aK gK aV gV aW gW aB gB aO gO aM gM aL gL aA gA hc hd xQ xK xV xW xB sM sL sA).2.2.1 = k1_pay11 xQ xK sM sL := by
  unfold kernelRun1_B; dsimp only
  sl_unfold_words
  rw [View.canon_unit_zero (S := S1024x1) hz1]
  simp only [View.readAt_eq_ld, gQ.read_unread, gK.read_unread, gV.read_unread, gW.read_unread, gB.read_unread, gM.read_unread,
    gL.read_unread, gA.read_unread, View.ld_unit_zero (S := S1024x1) hz1, View.ld_unit_zero (S := S1024x256) hz1,
    View.ld_unit_zero (S := S2048x256) hz1, View.ld_unit_zero (S := S256x512) hz1, View.ld_unit_zero (S := S1x512) hz1]
theorem pcB1_2 (hc : ¬cond1_0 i) (hd : ¬cond1_1 i) :
    View.canon (kernelRun1_B (F := F) c i aQ gQ aK gK aV gV aW gW aB gB aO gO aM gM aL gL aA gA hc hd xQ xK xV xW xB sM sL sA).2.2.2.1 = k1_pay1 (k1_pay12 xQ xK xV sM sA) := by
  unfold kernelRun1_B; dsimp only
  sl_unfold_words
  rw [View.canon_unit_zero (S := S1024x256) hz1]
  simp only [View.readAt_eq_ld, gQ.read_unread, gK.read_unread, gV.read_unread, gW.read_unread, gB.read_unread, gM.read_unread,
    gL.read_unread, gA.read_unread, View.ld_unit_zero (S := S1024x1) hz1, View.ld_unit_zero (S := S1024x256) hz1,
    View.ld_unit_zero (S := S2048x256) hz1, View.ld_unit_zero (S := S256x512) hz1, View.ld_unit_zero (S := S1x512) hz1]

/-! At the last key tile likewise, and the result window is stored at the epilogue of the two buffers just updated,
    which its loads read back. -/

theorem pcC1_0 (hc : ¬cond1_0 i) (hd : cond1_1 i) :
    View.canon (kernelRun1_C (F := F) c i aQ gQ aK gK aV gV aW gW aB gB aO gO aM gM aL gL aA gA hc hd xQ xK xV xW xB sM sL sA).2.1 = k1_pay2 (k1_pay8 xQ xK sM) := by
  unfold kernelRun1_C; dsimp only
  sl_unfold_words
  rw [View.canon_unit_zero (S := S1024x1) hz1]
  simp only [View.readAt_eq_ld, gQ.read_unread, gK.read_unread, gV.read_unread, gW.read_unread, gB.read_unread, gM.read_unread,
    gL.read_unread, gA.read_unread, View.ld_unit_zero (S := S1024x1) hz1, View.ld_unit_zero (S := S1024x256) hz1,
    View.ld_unit_zero (S := S2048x256) hz1, View.ld_unit_zero (S := S256x512) hz1, View.ld_unit_zero (S := S1x512) hz1]
theorem pcC1_1 (hc : ¬cond1_0 i) (hd : cond1_1 i) :
    View.canon (kernelRun1_C (F := F) c i aQ gQ aK gK aV gV aW gW aB gB aO gO aM gM aL gL aA gA hc hd xQ xK xV xW xB sM sL sA).2.2.1 = k1_pay11 xQ xK sM sL := by
  unfold kernelRun1_C; dsimp only
  sl_unfold_words
  rw [View.canon_unit_zero (S := S1024x1) hz1]
  simp only [View.readAt_eq_ld, gQ.read_unread, gK.read_unread, gV.read_unread, gW.read_unread, gB.read_unread, gM.read_unread,
    gL.read_unread, gA.read_unread, View.ld_unit_zero (S := S1024x1) hz1, View.ld_unit_zero (S := S1024x256) hz1,
    View.ld_unit_zero (S := S2048x256) hz1, View.ld_unit_zero (S := S256x512) hz1, View.ld_unit_zero (S := S1x512) hz1]
theorem pcC1_2 (hc : ¬cond1_0 i) (hd : cond1_1 i) :
    View.canon (kernelRun1_C (F := F) c i aQ gQ aK gK aV gV aW gW aB gB aO gO aM gM aL gL aA gA hc hd xQ xK xV xW xB sM sL sA).2.2.2.1 = k1_pay1 (k1_pay12 xQ xK xV sM sA) := by
  unfold kernelRun1_C; dsimp only
  sl_unfold_words
  rw [View.canon_unit_zero (S := S1024x256) hz1]
  simp only [View.readAt_eq_ld, gQ.read_unread, gK.read_unread, gV.read_unread, gW.read_unread, gB.read_unread, gM.read_unread,
    gL.read_unread, gA.read_unread, View.ld_unit_zero (S := S1024x1) hz1, View.ld_unit_zero (S := S1024x256) hz1,
    View.ld_unit_zero (S := S2048x256) hz1, View.ld_unit_zero (S := S256x512) hz1, View.ld_unit_zero (S := S1x512) hz1]

theorem pcC1_5 (hc : ¬cond1_0 i) (hd : cond1_1 i) :
    View.canon (kernelRun1_C (F := F) c i aQ gQ aK gK aV gV aW gW aB gB aO gO aM gM aL gL aA gA hc hd xQ xK xV xW xB sM sL sA).1
      = k1_pay3 (k1_pay1 (k1_pay12 xQ xK xV sM sA)) (k1_pay11 xQ xK sM sL) xW xB := by
  unfold kernelRun1_C; dsimp only
  sl_unfold_words
  rw [View.canon_unit_zero (S := S1024x512) hz1]
  simp only [View.readAt_eq_ld, gQ.read_unread, gK.read_unread, gV.read_unread, gW.read_unread, gB.read_unread, gM.read_unread,
    gL.read_unread, gA.read_unread, View.readCov_unit_zero (S := S1024x1) _ hz1, View.readCov_unit_zero (S := S1024x256) _ hz1, View.ld_unit_zero (S := S1024x1) hz1, View.ld_unit_zero (S := S1024x256) hz1,
    View.ld_unit_zero (S := S2048x256) hz1, View.ld_unit_zero (S := S256x512) hz1, View.ld_unit_zero (S := S1x512) hz1]

end Pieces

/-! ## The cases at a grid point -/

theorem scA1 (h0 : t.val % 4 = 0) (h1 : ¬t.val % 4 = 3) : (tupA1 V c t h0 h1).2 = step1 V c t (reset1 (F := F)) := by
  unfold tupA1 scOf1 step1 reset1; dsimp only
  rw [View.read_writes_eq_canon _ _ _ (scoverA1_0 V c t h0 h1), View.read_writes_eq_canon _ _ _ (scoverA1_1 V c t h0 h1),
    View.read_writes_eq_canon _ _ _ (scoverA1_2 V c t h0 h1)]
  unfold runA1
  refine congrArg₂ Prod.mk ?_ (congrArg₂ Prod.mk ?_ ?_)
  · exact pcA1_0 c (grid1.coords t) (ms1_0 t) (hs1_0 t) (ms1_1 t) (hs1_1 t) (ms1_2 t) (hs1_2 t) (ms1_3 t) (hs1_3 t) (ms1_4 t) (hs1_4 t) (ms1_5 t) (hs1_5 t)
      scM1_0 (Memref.isWhole_whole _) scM1_1 (Memref.isWhole_whole _) scM1_2 (Memref.isWhole_whole _)
      (iblk1 V c 0 t) (iblk1 V c 1 t) (iblk1 V c 2 t) (iblk1 V c 3 t) (iblk1 V c 4 t)
      ((hcond1_0 t).mpr h0) (fun h => h1 ((hcond1_1 t).mp h))
  · exact pcA1_1 c (grid1.coords t) (ms1_0 t) (hs1_0 t) (ms1_1 t) (hs1_1 t) (ms1_2 t) (hs1_2 t) (ms1_3 t) (hs1_3 t) (ms1_4 t) (hs1_4 t) (ms1_5 t) (hs1_5 t)
      scM1_0 (Memref.isWhole_whole _) scM1_1 (Memref.isWhole_whole _) scM1_2 (Memref.isWhole_whole _)
      (iblk1 V c 0 t) (iblk1 V c 1 t) (iblk1 V c 2 t) (iblk1 V c 3 t) (iblk1 V c 4 t)
      ((hcond1_0 t).mpr h0) (fun h => h1 ((hcond1_1 t).mp h))
  · exact pcA1_2 c (grid1.coords t) (ms1_0 t) (hs1_0 t) (ms1_1 t) (hs1_1 t) (ms1_2 t) (hs1_2 t) (ms1_3 t) (hs1_3 t) (ms1_4 t) (hs1_4 t) (ms1_5 t) (hs1_5 t)
      scM1_0 (Memref.isWhole_whole _) scM1_1 (Memref.isWhole_whole _) scM1_2 (Memref.isWhole_whole _)
      (iblk1 V c 0 t) (iblk1 V c 1 t) (iblk1 V c 2 t) (iblk1 V c 3 t) (iblk1 V c 4 t)
      ((hcond1_0 t).mpr h0) (fun h => h1 ((hcond1_1 t).mp h))
theorem scB1 (h0 : ¬t.val % 4 = 0) (h1 : ¬t.val % 4 = 3) (s : Sc1 F) : (tupB1 V c t h0 h1 s).2 = step1 V c t s := by
  unfold tupB1 scOf1 step1; dsimp only
  rw [View.read_writes_eq_canon _ _ _ (scoverB1_0 V c t h0 h1 s), View.read_writes_eq_canon _ _ _ (scoverB1_1 V c t h0 h1 s),
    View.read_writes_eq_canon _ _ _ (scoverB1_2 V c t h0 h1 s)]
  unfold runB1
  refine congrArg₂ Prod.mk ?_ (congrArg₂ Prod.mk ?_ ?_)
  · exact pcB1_0 c (grid1.coords t) (ms1_0 t) (hs1_0 t) (ms1_1 t) (hs1_1 t) (ms1_2 t) (hs1_2 t) (ms1_3 t) (hs1_3 t) (ms1_4 t) (hs1_4 t) (ms1_5 t) (hs1_5 t)
      scM1_0 (Memref.isWhole_whole _) scM1_1 (Memref.isWhole_whole _) scM1_2 (Memref.isWhole_whole _)
      (iblk1 V c 0 t) (iblk1 V c 1 t) (iblk1 V c 2 t) (iblk1 V c 3 t) (iblk1 V c 4 t) s.1 s.2.1 s.2.2
      (fun h => h0 ((hcond1_0 t).mp h)) (fun h => h1 ((hcond1_1 t).mp h))
  · exact pcB1_1 c (grid1.coords t) (ms1_0 t) (hs1_0 t) (ms1_1 t) (hs1_1 t) (ms1_2 t) (hs1_2 t) (ms1_3 t) (hs1_3 t) (ms1_4 t) (hs1_4 t) (ms1_5 t) (hs1_5 t)
      scM1_0 (Memref.isWhole_whole _) scM1_1 (Memref.isWhole_whole _) scM1_2 (Memref.isWhole_whole _)
      (iblk1 V c 0 t) (iblk1 V c 1 t) (iblk1 V c 2 t) (iblk1 V c 3 t) (iblk1 V c 4 t) s.1 s.2.1 s.2.2
      (fun h => h0 ((hcond1_0 t).mp h)) (fun h => h1 ((hcond1_1 t).mp h))
  · exact pcB1_2 c (grid1.coords t) (ms1_0 t) (hs1_0 t) (ms1_1 t) (hs1_1 t) (ms1_2 t) (hs1_2 t) (ms1_3 t) (hs1_3 t) (ms1_4 t) (hs1_4 t) (ms1_5 t) (hs1_5 t)
      scM1_0 (Memref.isWhole_whole _) scM1_1 (Memref.isWhole_whole _) scM1_2 (Memref.isWhole_whole _)
      (iblk1 V c 0 t) (iblk1 V c 1 t) (iblk1 V c 2 t) (iblk1 V c 3 t) (iblk1 V c 4 t) s.1 s.2.1 s.2.2
      (fun h => h0 ((hcond1_0 t).mp h)) (fun h => h1 ((hcond1_1 t).mp h))
theorem scC1 (h0 : ¬t.val % 4 = 0) (h1 : t.val % 4 = 3) (s : Sc1 F) : (tupC1 V c t h0 h1 s).2 = step1 V c t s := by
  unfold tupC1 scOf1 step1; dsimp only
  rw [View.read_writes_eq_canon _ _ _ (scoverC1_0 V c t h0 h1 s), View.read_writes_eq_canon _ _ _ (scoverC1_1 V c t h0 h1 s),
    View.read_writes_eq_canon _ _ _ (scoverC1_2 V c t h0 h1 s)]
  unfold runC1
  refine congrArg₂ Prod.mk ?_ (congrArg₂ Prod.mk ?_ ?_)
  · exact pcC1_0 c (grid1.coords t) (ms1_0 t) (hs1_0 t) (ms1_1 t) (hs1_1 t) (ms1_2 t) (hs1_2 t) (ms1_3 t) (hs1_3 t) (ms1_4 t) (hs1_4 t) (ms1_5 t) (hs1_5 t)
      scM1_0 (Memref.isWhole_whole _) scM1_1 (Memref.isWhole_whole _) scM1_2 (Memref.isWhole_whole _)
      (iblk1 V c 0 t) (iblk1 V c 1 t) (iblk1 V c 2 t) (iblk1 V c 3 t) (iblk1 V c 4 t) s.1 s.2.1 s.2.2
      (fun h => h0 ((hcond1_0 t).mp h)) ((hcond1_1 t).mpr h1)
  · exact pcC1_1 c (grid1.coords t) (ms1_0 t) (hs1_0 t) (ms1_1 t) (hs1_1 t) (ms1_2 t) (hs1_2 t) (ms1_3 t) (hs1_3 t) (ms1_4 t) (hs1_4 t) (ms1_5 t) (hs1_5 t)
      scM1_0 (Memref.isWhole_whole _) scM1_1 (Memref.isWhole_whole _) scM1_2 (Memref.isWhole_whole _)
      (iblk1 V c 0 t) (iblk1 V c 1 t) (iblk1 V c 2 t) (iblk1 V c 3 t) (iblk1 V c 4 t) s.1 s.2.1 s.2.2
      (fun h => h0 ((hcond1_0 t).mp h)) ((hcond1_1 t).mpr h1)
  · exact pcC1_2 c (grid1.coords t) (ms1_0 t) (hs1_0 t) (ms1_1 t) (hs1_1 t) (ms1_2 t) (hs1_2 t) (ms1_3 t) (hs1_3 t) (ms1_4 t) (hs1_4 t) (ms1_5 t) (hs1_5 t)
      scM1_0 (Memref.isWhole_whole _) scM1_1 (Memref.isWhole_whole _) scM1_2 (Memref.isWhole_whole _)
      (iblk1 V c 0 t) (iblk1 V c 1 t) (iblk1 V c 2 t) (iblk1 V c 3 t) (iblk1 V c 4 t) s.1 s.2.1 s.2.2
      (fun h => h0 ((hcond1_0 t).mp h)) ((hcond1_1 t).mpr h1)
/-- The result window's block at the last key tile: the epilogue of the updated scratch. -/
theorem outC1 (h0 : ¬t.val % 4 = 0) (h1 : t.val % 4 = 3) (s : Sc1 F) :
    (tupC1 V c t h0 h1 s).1 = k1_pay3 (step1 V c t s).2.2 (step1 V c t s).2.1 (iblk1 V c 3 t) (iblk1 V c 4 t) := by
  unfold tupC1 step1; dsimp only
  rw [View.read_writes_eq_canon _ _ _ (coverC1_5 V c t h0 h1 s)]
  unfold runC1
  exact (pcC1_5 c (grid1.coords t) (ms1_0 t) (hs1_0 t) (ms1_1 t) (hs1_1 t) (ms1_2 t) (hs1_2 t) (ms1_3 t) (hs1_3 t) (ms1_4 t) (hs1_4 t) (ms1_5 t) (hs1_5 t)
      scM1_0 (Memref.isWhole_whole _) scM1_1 (Memref.isWhole_whole _) scM1_2 (Memref.isWhole_whole _)
      (iblk1 V c 0 t) (iblk1 V c 1 t) (iblk1 V c 2 t) (iblk1 V c 3 t) (iblk1 V c 4 t) s.1 s.2.1 s.2.2
      (fun h => h0 ((hcond1_0 t).mp h)) ((hcond1_1 t).mpr h1))

end Cert.KernelIdeal.Attn

end
-- ==== Proof.Value1.lean ====
/-
  Region 1's result array, at the extended reals, as one function of the arrays the region is entered with.

  Fix a query row. Going through its query tile's four grid points, the three scratch buffers' row is, after the point
  of key tile n, the online softmax's state after n + 1 tiles of that row's scores: a first key tile starts the row at
  the starting state, every other one continues from what the point before left (same query tile, previous key tile).
  At the last key tile the epilogue stores the row of the result: the weighted sums divided by the sum, projected, plus
  the bias. The eight blocks so stored make up the result array.
-/
import proofs.«412178_j26319559590733_3_alg».proof.Proof.Blocks1
import proofs.«412178_j26319559590733_3_alg».proof.Proof.Pieces1
import proofs.«412178_j26319559590733_3_alg».proof.Proof.Payload
import proofs.«412178_j26319559590733_3_alg».proof.Proof.AttnOut

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Region0
variable (V : (c : Dev nD) → (b : Ref sig .tc) → Buf (Elt Ideal) ((c : Thread nD τ).loc b)) (c : Dev nD)

abbrev Q1 : S8192x256.Idx → EReal := V c main_v28
abbrev K1 : S8192x256.Idx → EReal := V c main_v15
abbrev A1 : S8192x256.Idx → EReal := V c main_v32
abbrev WT1 : S256x512.Idx → EReal := V c main_v34
abbrev B1 : S1x512.Idx → EReal := V c main_v35

/-- A point's query and key blocks give the query row's scores against the point's key tile. -/
theorem tileScores1 (t : Fin cfg1.N) (r : Fin 1024) :
    tileScores (iblk1 V c 0 t) (iblk1 V c 1 t) r = scoresN (Q1 V c) (K1 V c) (rowQ1 t r) (t.val % 4) := by
  funext jj
  unfold scoresN rowN
  have hlt : t.val % 4 * 2048 + jj.val < 8192 := by have := jj.isLt; omega
  refine Finset.sum_congr rfl fun x _ => ?_
  rw [dif_pos hlt, qblk1 V c t r x, kblk1 V c t jj x]
  rfl

theorem tileValues1 (t : Fin cfg1.N) :
    tileValues (iblk1 V c 2 t) = valuesN (A1 V c) (t.val % 4) := by
  funext jj d
  unfold valuesN rowN
  have hlt : t.val % 4 * 2048 + jj.val < 8192 := by have := jj.isLt; omega
  rw [dif_pos hlt]
  exact vblk1 V c t jj d

/-- One key tile's update, row by row, is one step of the online softmax. -/
theorem step1_row (t : Fin cfg1.N) (s : Sc1 Ideal) (r : Fin 1024) :
    rowState (step1 V c t s).1 (step1 V c t s).2.1 (step1 V c t s).2.2 r
      = Cert.Softmax.tileStep (scoresN (Q1 V c) (K1 V c) (rowQ1 t r) (t.val % 4)) (valuesN (A1 V c) (t.val % 4)) (rowState s.1 s.2.1 s.2.2 r) := by
  rw [← tileScores1 V c t r, ← tileValues1 V c t]
  refine Prod.ext ?_ (Prod.ext ?_ (funext fun d => ?_))
  · exact k1_step_max (iblk1 V c 0 t) (iblk1 V c 1 t) s.1 r s.2.1 s.2.2 (iblk1 V c 2 t)
  · exact k1_step_sum (iblk1 V c 0 t) (iblk1 V c 1 t) s.1 s.2.1 r s.2.2 (iblk1 V c 2 t)
  · exact k1_step_acc (iblk1 V c 0 t) (iblk1 V c 1 t) (iblk1 V c 2 t) s.1 s.2.2 r d s.2.1

/-- The reset puts every row at the starting state. -/
theorem reset1_row (r : Fin 1024) :
    rowState (reset1 (F := Ideal)).1 (reset1 (F := Ideal)).2.1 (reset1 (F := Ideal)).2.2 r = Cert.Softmax.init := by
  refine Prod.ext ?_ (Prod.ext ?_ (funext fun d => ?_))
  · exact k1_reset_max r
  · exact k1_reset_sum r
  · exact k1_reset_acc r d

/-- THE INVARIANT: after the point of key tile `t mod 4`, each row of the scratch is the online softmax of its query row after
    `t mod 4 + 1` tiles. -/
theorem scratch_row1 : ∀ (n : ℕ) (hn : n < cfg1.N) (r : Fin 1024),
    rowState (outsAt1 V c n hn).2.1 (outsAt1 V c n hn).2.2.1 (outsAt1 V c n hn).2.2.2 r
      = Cert.Softmax.online (scoresN (Q1 V c) (K1 V c) (rowQ1 ⟨n, hn⟩ r)) (valuesN (A1 V c)) (n % 4 + 1) := by
  intro n
  induction n with
  | zero =>
    intro hn r
    rw [outsAt1_A V c ⟨0, hn⟩ (Nat.zero_mod _) (show ¬(0 : ℕ) % 4 = 3 by decide), scA1 V c ⟨0, hn⟩ (Nat.zero_mod _) (show ¬(0 : ℕ) % 4 = 3 by decide), step1_row V c ⟨0, hn⟩ _ r, reset1_row]
    rfl
  | succ n ih =>
    intro hn r
    have hN : n + 1 < 32 := lt_of_lt_of_eq hn (show cfg1.N = 32 from N_1)
    by_cases h0 : (n + 1) % 4 = 0
    · have h1 : ¬(n + 1) % 4 = 3 := by omega
      rw [outsAt1_A V c ⟨n + 1, hn⟩ h0 h1, scA1 V c ⟨n + 1, hn⟩ h0 h1, step1_row V c ⟨n + 1, hn⟩ _ r, reset1_row]
      show _ = Cert.Softmax.online _ _ ((n + 1) % 4 + 1)
      rw [h0]; rfl
    · have hq : rowQ1 ⟨n, Nat.lt_of_succ_lt hn⟩ r = rowQ1 ⟨n + 1, hn⟩ r := by
        unfold rowQ1; apply Fin.ext; show n / 4 * 1024 + r.val = (n + 1) / 4 * 1024 + r.val; have : n / 4 = (n + 1) / 4 := by omega
        rw [this]
      have hm : (n + 1) % 4 = n % 4 + 1 := by omega
      have ih' := ih (Nat.lt_of_succ_lt hn) r
      rw [hq] at ih'
      by_cases h1 : (n + 1) % 4 = 3
      · rw [outsAt1_C V c ⟨n + 1, hn⟩ h0 h1, scC1 V c ⟨n + 1, hn⟩ h0 h1, step1_row V c ⟨n + 1, hn⟩ _ r]
        show Cert.Softmax.tileStep _ _ (rowState (outsAt1 V c n _).2.1 (outsAt1 V c n _).2.2.1 (outsAt1 V c n _).2.2.2 r) = Cert.Softmax.online _ _ ((n + 1) % 4 + 1)
        rw [ih', hm]; rfl
      · rw [outsAt1_B V c ⟨n + 1, hn⟩ h0 h1, scB1 V c ⟨n + 1, hn⟩ h0 h1, step1_row V c ⟨n + 1, hn⟩ _ r]
        show Cert.Softmax.tileStep _ _ (rowState (outsAt1 V c n _).2.1 (outsAt1 V c n _).2.2.1 (outsAt1 V c n _).2.2.2 r) = Cert.Softmax.online _ _ ((n + 1) % 4 + 1)
        rw [ih', hm]; rfl

/-- The result array after region 1. -/
theorem final1 : ((dat1 V c).arrAt 5 cfg1.N : S8192x512.Idx → EReal)
    = fun j => attnOut (Q1 V c) (K1 V c) (A1 V c) (WT1 V c) (B1 V c) (j 0) (j 1) := by
  refine out_final1 V c _ fun t h3 r e => ?_
  have h0 : ¬t.val % 4 = 0 := by omega
  have hrow := scratch_row1 V c t.val t.isLt r
  rw [outsAt1_C V c t h0 h3] at hrow ⊢
  rw [outC1 V c t h0 h3, k1_epilogue]
  rw [scC1 V c t h0 h3] at hrow
  show _ = attnOut (Q1 V c) (K1 V c) (A1 V c) (WT1 V c) (B1 V c) (rowQ1 t r) e
  unfold attnOut rowFinal
  have h4 : t.val % 4 + 1 = 4 := by omega
  rw [h4] at hrow
  rw [← hrow]
  refine congrArg₂ (· + ·) (Finset.sum_congr rfl fun d _ => ?_) (bblk1 V c t e)
  rw [wblk1 V c t d e]

end Region0

end Cert.KernelIdeal.Attn

end
-- ==== Proof.Formulas.lean ====
/-
  The mathematics both programs compute, written once over plain index functions on the extended reals.

  A branch of the block takes three row sets: queries q, keys k and values v (each 8192 rows of 256 numbers, the
  projections `x · Wᵀ + b` of an input), and a positive scalar c. Row i of its result is the softmax-weighted mean of
  the value rows, the weights `exp (sᵢⱼ − Mᵢ) / Lᵢ` with scores `sᵢⱼ = (qᵢ · kⱼ) c`, `Mᵢ` the row's largest score and
  `Lᵢ` the sum of the shifted exponentials; the result is then projected by `We` and shifted by `be`.
-/
import Idealize.ShloMosaic.PureOps.Ideal
import Idealize.ShloMosaic.PureOps.Ideal.Laws

noncomputable section

namespace Cert.Attn

open Idealize.ShloMosaic

/-- A linear layer at one output entry: `(x · Wᵀ + b) i d`. -/
def proj (x : Fin 8192 → Fin 512 → EReal) (W : Fin 256 → Fin 512 → EReal) (b : Fin 256 → EReal) (i : Fin 8192) (d : Fin 256) : EReal :=
  (∑ k : Fin 512, x i k * W d k) + b d

/-- The scale both programs multiply scores by: one over the square root of the learnt scalar clipped to [1, 32]
    (the two literals are the floats 1.0 and 32.0). -/
def invScale (scale : EReal) : EReal :=
  Ideal.div (Ideal.ofBits .f32 0x3F800000#32)
    (Ideal.sqrt (min (Ideal.ofBits .f32 0x42000000#32) (max (Ideal.ofBits .f32 0x3F800000#32) scale)))

/-- Scores of query row `i` against every key row, scaled after the product. -/
def score (q k : Fin 8192 → Fin 256 → EReal) (c : EReal) (i j : Fin 8192) : EReal := (∑ x : Fin 256, q i x * k j x) * c

/-- The largest score of row `i` (folded from −∞, and once more against −∞, as the reference's softmax does). -/
def rowMax (q k : Fin 8192 → Fin 256 → EReal) (c : EReal) (i : Fin 8192) : EReal :=
  max ⊥ (Finset.univ.fold max ⊥ (score q k c i))

/-- The sum of row `i`'s shifted exponentials (from the initial value 0). -/
def rowSum (q k : Fin 8192 → Fin 256 → EReal) (c : EReal) (i : Fin 8192) : EReal :=
  0 + ∑ j : Fin 8192, Ideal.exp (score q k c i j - rowMax q k c i)

/-- Softmax attention: the weighted mean of the value rows. -/
def attend (q k v : Fin 8192 → Fin 256 → EReal) (c : EReal) (i : Fin 8192) (d : Fin 256) : EReal :=
  ∑ j : Fin 8192, Ideal.div (Ideal.exp (score q k c i j - rowMax q k c i)) (rowSum q k c i) * v j d

/-- The output projection at one entry: `(f · Weᵀ + be) i e`. -/
def outProj (f : Fin 8192 → Fin 256 → EReal) (We : Fin 512 → Fin 256 → EReal) (be : Fin 512 → EReal) (i : Fin 8192) (e : Fin 512) : EReal :=
  (∑ d : Fin 256, f i d * We e d) + be e

/-- One branch, from the inputs: queries from `(xq, Wq, bq)`, keys from `(xk, Wk, bk)`, values from `(xq, Wv, bv)`. -/
def branch (xq xk : Fin 8192 → Fin 512 → EReal) (Wq : Fin 256 → Fin 512 → EReal) (bq : Fin 256 → EReal)
    (Wk : Fin 256 → Fin 512 → EReal) (bk : Fin 256 → EReal) (Wv : Fin 256 → Fin 512 → EReal) (bv : Fin 256 → EReal)
    (We : Fin 512 → Fin 256 → EReal) (be : Fin 512 → EReal) (scale : EReal) (i : Fin 8192) (e : Fin 512) : EReal :=
  outProj (attend (proj xq Wq bq) (proj xk Wk bk) (proj xq Wv bv) (invScale scale)) We be i e

end Cert.Attn

end
-- ==== Proof.LibNary3.lean ====
/-
  A `stablehlo.concatenate` (or any operation) of exactly THREE operands, printed `StableHlo.nary ![x, a, b] y f`:
  what it leaves in its result buffer, with each operand's contents taken AT ITS OWN REFERENCE.
-/
import Idealize.ShloMosaic.Lib.StableHlo.Run

noncomputable section

namespace Idealize.ShloMosaic.StableHlo

open Idealize.SL.Sem

variable {τ : Topo} {sig : RefSig} {Val : EltTy → Type}

section Nary3

variable {x a b y : Ref sig .tc}

/-- `nary` over a LITERAL family of three references: the result is the operation's function at the family
    `Fin.cons (F ↑x) (Fin.cons (F ↑a) (Fin.cons (F ↑b) _))` of the three operands' contents — each contents read at a
    literal reference, where the general `nary_result` reads them at `![x, a, b] k` under a binder `k`, which is no
    literal reference and which no further result lemma can rewrite. The three-operand companion of `nary4_result`. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- `nary3_result` with the result reference un-indexed, for use as a `simp` lemma (as `nary4_result'`). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

/-- `after_results` knowing three-operand `nary` operations as well: reduces a goal
    `after ops V (Proc.devRef .tc r) = …` over a literal list `ops` to the operations' functions applied to `V` at the
    argument references, a three-operand `nary` read through `nary3_result` so that the rewriting goes on into its operands. -/
macro "after_results3" : tactic =>
  `(tactic| (simp only [after_cons, after_nil]
             repeat (first
               | rw [nullary_result] | rw [unary_result] | rw [binary_result] | rw [ternary_result] | rw [quaternary_result]
               | rw [reshape_result] | rw [nary3_result] | rw [nary4_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo

end
-- ==== Proof.HostSide.lean ====
/-
  What the two kernel regions are entered with: the host operations before them compute, from the argument arrays,
  the queries (already multiplied by the scale), keys and values of each branch — one wide projection per input
  against the three weight matrices stacked, then cut back into its three column bands — and the transposed output
  projection and the bias as a row. Entry by entry these are the shared formulas.
-/
import proofs.«412178_j26319559590733_3_alg».proof.Proof.Gen.KernelIdeal.Regions
import proofs.«412178_j26319559590733_3_alg».proof.Proof.Formulas
import proofs.«412178_j26319559590733_3_alg».proof.Proof.LibNary3
import Idealize.ShloMosaic.Lib.ValueIdx
import Idealize.ShloMosaic.Lib.Pipeline.Value
import Idealize.ShloMosaic.Lib.ValueLayout

noncomputable section

namespace Cert.KernelIdeal.Attn

open Cert.KernelIdeal Cert.KernelIdeal.Gen Idealize.ShloMosaic Idealize.ShloMosaic.TcCoe Idealize.SL.Sem
open Idealize.ShloMosaic.ValueIdx

/-! ## The host stages as functions of their operands

Each input meets the three weight matrices of its column bands stacked by rows into one 768 × 512 matrix (and the three
biases into one 768-vector): one product `x · Wᵀ + b` of 768 columns, cut back into the bands `[0, 256)`, `[256, 512)`,
`[512, 768)`; the first band is multiplied by the scale. Read at an index, a band is the linear layer of its own weights. -/

section Stages

/-- Three weight matrices stacked by rows. -/
def cat3W (A B C : S256x512.Idx → EReal) : S768x512.Idx → EReal :=
  concatenate S768x512 0 [⟨S256x512, A⟩, ⟨S256x512, B⟩, ⟨S256x512, C⟩] concatenates_S256x512_S256x512_S256x512_S768x512_d0

/-- Three bias vectors laid end to end. -/
def cat3b (a b c : S256.Idx → EReal) : S768.Idx → EReal :=
  concatenate S768 0 [⟨S256, a⟩, ⟨S256, b⟩, ⟨S256, c⟩] concatenates_S256_S256_S256_S768_d0

/-- The wide projection `x · Wᵀ + b` over all 768 columns: the matrix transposed, the contraction over the 512 features,
    the bias made a row and repeated down the 8192 rows, the sum. -/
def wide (x : S8192x512.Idx → EReal) (W : S768x512.Idx → EReal) (b : S768.Idx → EReal) : S8192x768.Idx → EReal :=
  addf (F := Ideal) (φ := .f32)
    (Host.dotGeneral (F := Ideal) (φ₁ := .f32) (φ₂ := .f32) dot_S8192x512_S512x768_S8192x768_1_0_0_1_n_n none x
      (transpose S512x768 [1, 0] W transposes_S768x512_S512x768_1_0))
    (broadcastInDim S8192x768 ![0, 1] bcast_S1x768_S8192x768_0_1 (broadcastInDim S1x768 ![1] bcast_S768_S1x768_1 b))

/-- One over the square root of a scalar, as a scalar array. -/
def rsq (s : S_.Idx → EReal) : S_.Idx → EReal :=
  Host.divf (F := Ideal) (φ := .f32) (constant (F := Ideal) S_ .f32 0x3F800000#32) (Host.sqrt (F := Ideal) (φ := .f32) s)

/-- The first band, every entry multiplied by a scalar. -/
def bandQ (h : S8192x768.Idx → EReal) (s : S_.Idx → EReal) : S8192x256.Idx → EReal :=
  truncf (F := Ideal) (φ := .f32) .bf16
    (mulf (F := Ideal) (φ := .f32) (extractStridedSlice S8192x256 ![0, 0] h slices_S8192x768_S8192x256_0_0)
      (broadcastInDim S8192x256 ![] bcast_S_S8192x256 s)) bitsLt_bf16_f32

/-- The second band. -/
def bandK (h : S8192x768.Idx → EReal) : S8192x256.Idx → EReal :=
  truncf (F := Ideal) (φ := .f32) .bf16 (extractStridedSlice S8192x256 ![0, 256] h slices_S8192x768_S8192x256_0_256) bitsLt_bf16_f32

/-- The third band. -/
def bandV (h : S8192x768.Idx → EReal) : S8192x256.Idx → EReal :=
  truncf (F := Ideal) (φ := .f32) .bf16 (extractStridedSlice S8192x256 ![0, 512] h slices_S8192x768_S8192x256_0_512) bitsLt_bf16_f32

/-- A 512 × 256 matrix transposed. -/
def weT (X : S512x256.Idx → EReal) : S256x512.Idx → EReal :=
  truncf (F := Ideal) (φ := .f32) .bf16 (transpose S256x512 [1, 0] X transposes_S512x256_S256x512_1_0) bitsLt_bf16_f32

/-- A 512-vector as a 1 × 512 row. -/
def beRow (X : S512.Idx → EReal) : S1x512.Idx → EReal := shapeCast S1x512 X shapeCasts_S512_S1x512

end Stages

/-! ## The stages read at an index -/

section Reads

/-- Column `x` of the first, second and third band among the 768 columns. -/
abbrev col0 (x : Fin 256) : Fin 768 := ⟨x.val, Nat.lt_of_lt_of_le x.isLt (by decide)⟩
abbrev col1 (x : Fin 256) : Fin 768 := ⟨256 + x.val, by have := x.isLt; omega⟩
abbrev col2 (x : Fin 256) : Fin 768 := ⟨512 + x.val, by have := x.isLt; omega⟩

/-- Rows `[0, 256)` of the stacked matrix are the first matrix's. -/
theorem cat3W_col0 (A B C : S256x512.Idx → EReal) (x : Fin 256) (k : Fin 512) : cat3W A B C (ix2 (col0 x) k) = A (ix2 x k) := by
  unfold cat3W
  exact concatenate_apply_piece (0 : Fin S768x512.rank) [⟨S256x512, A⟩, ⟨S256x512, B⟩, ⟨S256x512, C⟩] concatenates_S256x512_S256x512_S256x512_S768x512_d0 (ix2 (col0 x) k)
    0 (by show (0 : Nat) < 3; decide) S256x512 A rfl rfl 0 rfl (ix2 x k)
    (fun b hb => match b with | ⟨0, _⟩ => absurd rfl hb | ⟨1, _⟩ => rfl) (Nat.zero_add _)
/-- Rows `[256, 512)` of the stacked matrix are the second matrix's. -/
theorem cat3W_col1 (A B C : S256x512.Idx → EReal) (x : Fin 256) (k : Fin 512) : cat3W A B C (ix2 (col1 x) k) = B (ix2 x k) := by
  unfold cat3W
  exact concatenate_apply_piece (0 : Fin S768x512.rank) [⟨S256x512, A⟩, ⟨S256x512, B⟩, ⟨S256x512, C⟩] concatenates_S256x512_S256x512_S256x512_S768x512_d0 (ix2 (col1 x) k)
    1 (by show (1 : Nat) < 3; decide) S256x512 B rfl rfl 256 rfl (ix2 x k)
    (fun b hb => match b with | ⟨0, _⟩ => absurd rfl hb | ⟨1, _⟩ => rfl) rfl
/-- Rows `[512, 768)` of the stacked matrix are the third matrix's. -/
theorem cat3W_col2 (A B C : S256x512.Idx → EReal) (x : Fin 256) (k : Fin 512) : cat3W A B C (ix2 (col2 x) k) = C (ix2 x k) := by
  unfold cat3W
  exact concatenate_apply_piece (0 : Fin S768x512.rank) [⟨S256x512, A⟩, ⟨S256x512, B⟩, ⟨S256x512, C⟩] concatenates_S256x512_S256x512_S256x512_S768x512_d0 (ix2 (col2 x) k)
    2 (by show (2 : Nat) < 3; decide) S256x512 C rfl rfl 512 rfl (ix2 x k)
    (fun b hb => match b with | ⟨0, _⟩ => absurd rfl hb | ⟨1, _⟩ => rfl) rfl

/-- Entries `[0, 256)`, `[256, 512)`, `[512, 768)` of the joined bias are the first, second, third bias's. -/
theorem cat3b_col0 (a b c : S256.Idx → EReal) (x : Fin 256) : cat3b a b c (ix1 (col0 x)) = a (ix1 x) := by
  unfold cat3b
  exact concatenate_apply_piece (0 : Fin S768.rank) [⟨S256, a⟩, ⟨S256, b⟩, ⟨S256, c⟩] concatenates_S256_S256_S256_S768_d0 (ix1 (col0 x))
    0 (by show (0 : Nat) < 3; decide) S256 a rfl rfl 0 rfl (ix1 x) (fun b hb => match b with | ⟨0, _⟩ => absurd rfl hb) (Nat.zero_add _)
theorem cat3b_col1 (a b c : S256.Idx → EReal) (x : Fin 256) : cat3b a b c (ix1 (col1 x)) = b (ix1 x) := by
  unfold cat3b
  exact concatenate_apply_piece (0 : Fin S768.rank) [⟨S256, a⟩, ⟨S256, b⟩, ⟨S256, c⟩] concatenates_S256_S256_S256_S768_d0 (ix1 (col1 x))
    1 (by show (1 : Nat) < 3; decide) S256 b rfl rfl 256 rfl (ix1 x) (fun b hb => match b with | ⟨0, _⟩ => absurd rfl hb) rfl
theorem cat3b_col2 (a b c : S256.Idx → EReal) (x : Fin 256) : cat3b a b c (ix1 (col2 x)) = c (ix1 x) := by
  unfold cat3b
  exact concatenate_apply_piece (0 : Fin S768.rank) [⟨S256, a⟩, ⟨S256, b⟩, ⟨S256, c⟩] concatenates_S256_S256_S256_S768_d0 (ix1 (col2 x))
    2 (by show (2 : Nat) < 3; decide) S256 c rfl rfl 512 rfl (ix1 x) (fun b hb => match b with | ⟨0, _⟩ => absurd rfl hb) rfl

/-! The contraction's operand indices, axis by axis: the left operand at (row, k), the right at (k, column). -/
theorem lhs_wide_0 (i : S8192x768.Idx) (q : dot_S8192x512_S512x768_S8192x768_1_0_0_1_n_n.contr.Idx) : (dot_S8192x512_S512x768_S8192x768_1_0_0_1_n_n.lhsIdx i q 0).val = (i 0).val := by
  unfold DotDims.lhsIdx
  rw [dif_neg (show ¬(0 : Fin S8192x512.rank) ∈ dot_S8192x512_S512x768_S8192x768_1_0_0_1_n_n.lhsBatch by decide), dif_pos (show (0 : Fin S8192x512.rank) ∈ dot_S8192x512_S512x768_S8192x768_1_0_0_1_n_n.lhsNonContracting by decide)]
  rfl
theorem lhs_wide_1 (i : S8192x768.Idx) (q : dot_S8192x512_S512x768_S8192x768_1_0_0_1_n_n.contr.Idx) : (dot_S8192x512_S512x768_S8192x768_1_0_0_1_n_n.lhsIdx i q 1).val = (q ⟨0, by decide⟩).val :=
  dot_S8192x512_S512x768_S8192x768_1_0_0_1_n_n.lhsIdx_val_of_single rfl i q
theorem rhs_wide_0 (i : S8192x768.Idx) (q : dot_S8192x512_S512x768_S8192x768_1_0_0_1_n_n.contr.Idx) : (dot_S8192x512_S512x768_S8192x768_1_0_0_1_n_n.rhsIdx i q 0).val = (q ⟨0, by decide⟩).val :=
  dot_S8192x512_S512x768_S8192x768_1_0_0_1_n_n.rhsIdx_val_of_single rfl i q
theorem rhs_wide_1 (i : S8192x768.Idx) (q : dot_S8192x512_S512x768_S8192x768_1_0_0_1_n_n.contr.Idx) : (dot_S8192x512_S512x768_S8192x768_1_0_0_1_n_n.rhsIdx i q 1).val = (i 1).val := by
  unfold DotDims.rhsIdx
  rw [dif_neg (show ¬(1 : Fin S512x768.rank) ∈ dot_S8192x512_S512x768_S8192x768_1_0_0_1_n_n.rhsBatch by decide), dif_pos (show (1 : Fin S512x768.rank) ∈ dot_S8192x512_S512x768_S8192x768_1_0_0_1_n_n.rhsNonContracting by decide)]
  rfl

/-- The wide projection at row `i`, column `y`: the row of `x` against row `y` of the stacked matrix, plus entry `y` of the bias. -/
theorem wide_apply (x : S8192x512.Idx → EReal) (W : S768x512.Idx → EReal) (b : S768.Idx → EReal) (i : Fin 8192) (y : Fin 768) :
    wide x W b (ix2 i y) = (∑ k : Fin 512, x (ix2 i k) * W (ix2 y k)) + b (ix1 y) := by
  have hd : Host.dotGeneral (F := Ideal) (φ₁ := .f32) (φ₂ := .f32) dot_S8192x512_S512x768_S8192x768_1_0_0_1_n_n none x (transpose S512x768 [1, 0] W transposes_S768x512_S512x768_1_0) (ix2 i y)
      = ∑ k : Fin 512, x (ix2 i k) * W (ix2 y k) := by
    have hT : ∀ k : Fin 512, transpose S512x768 [1, 0] W transposes_S768x512_S512x768_1_0 (ix2 k y) = W (ix2 y k) := fun k =>
      transpose_apply [1, 0] W transposes_S768x512_S512x768_1_0 (ix2 k y) (ix2 y k) (fun b => match b with
        | ⟨0, _⟩ => rfl
        | ⟨1, _⟩ => rfl)
    generalize transpose S512x768 [1, 0] W transposes_S768x512_S512x768_1_0 = T at hT ⊢
    simp only [Host.dotGeneral]
    rw [Ideal.dotGeneral_apply, ← Equiv.sum_comp (contrEquiv1 dot_S8192x512_S512x768_S8192x768_1_0_0_1_n_n 512 rfl rfl).symm]
    refine Finset.sum_congr rfl fun k _ => ?_
    have hk := contrEquiv1_symm_val dot_S8192x512_S512x768_S8192x768_1_0_0_1_n_n 512 rfl rfl k
    have el : dot_S8192x512_S512x768_S8192x768_1_0_0_1_n_n.lhsIdx (ix2 i y) ((contrEquiv1 dot_S8192x512_S512x768_S8192x768_1_0_0_1_n_n 512 rfl rfl).symm k) = ix2 i k := funext fun a => Fin.ext (by
      match a with
      | ⟨0, _⟩ => exact lhs_wide_0 _ _
      | ⟨1, _⟩ => exact (lhs_wide_1 _ _).trans hk)
    have er : dot_S8192x512_S512x768_S8192x768_1_0_0_1_n_n.rhsIdx (ix2 i y) ((contrEquiv1 dot_S8192x512_S512x768_S8192x768_1_0_0_1_n_n 512 rfl rfl).symm k) = ix2 k y := funext fun a => Fin.ext (by
      match a with
      | ⟨0, _⟩ => exact (rhs_wide_0 _ _).trans hk
      | ⟨1, _⟩ => exact rhs_wide_1 _ _)
    rw [el, er, hT]
  have hb : broadcastInDim S8192x768 ![0, 1] bcast_S1x768_S8192x768_0_1 (broadcastInDim S1x768 ![1] bcast_S768_S1x768_1 b) (ix2 i y) = b (ix1 y) :=
    (broadcastInDim_apply _ bcast_S1x768_S8192x768_0_1 _ (ix2 i y) (ix2 (0 : Fin 1) y) (fun a => match a with
      | ⟨0, _⟩ => by show 0 = if (1 : Nat) = 1 then 0 else i.val; rw [if_pos rfl]
      | ⟨1, _⟩ => by show y.val = if (768 : Nat) = 1 then 0 else y.val; rw [if_neg (by decide)])).trans
    (broadcastInDim_apply _ bcast_S768_S1x768_1 b (ix2 (0 : Fin 1) y) (ix1 y) (fun a => match a with
      | ⟨0, _⟩ => by show y.val = if (768 : Nat) = 1 then 0 else y.val; rw [if_neg (by decide)]))
  show Host.dotGeneral (F := Ideal) (φ₁ := .f32) (φ₂ := .f32) dot_S8192x512_S512x768_S8192x768_1_0_0_1_n_n none x (transpose S512x768 [1, 0] W transposes_S768x512_S512x768_1_0) (ix2 i y)
      + broadcastInDim S8192x768 ![0, 1] bcast_S1x768_S8192x768_0_1 (broadcastInDim S1x768 ![1] bcast_S768_S1x768_1 b) (ix2 i y) = _
  rw [hd, hb]

/-- The first band at `(i, x)`: the wide array at column `x`, times the scalar. -/
theorem bandQ_apply (h : S8192x768.Idx → EReal) (s : S_.Idx → EReal) (i : Fin 8192) (x : Fin 256) :
    bandQ h s (ix2 i x) = h (ix2 i (col0 x)) * s ix0 := by
  show extractStridedSlice S8192x256 ![0, 0] h slices_S8192x768_S8192x256_0_0 (ix2 i x)
      * broadcastInDim S8192x256 ![] bcast_S_S8192x256 s (ix2 i x) = _
  rw [extractStridedSlice_apply ![0, 0] h slices_S8192x768_S8192x256_0_0 (ix2 i x) (ix2 i (col0 x)) (fun a => match a with
      | ⟨0, _⟩ => (Nat.zero_add _).symm
      | ⟨1, _⟩ => (Nat.zero_add _).symm),
    broadcastInDim_apply _ bcast_S_S8192x256 s (ix2 i x) ix0 (fun a => a.elim0)]
/-- The second band at `(i, x)`: the wide array at column `256 + x`. -/
theorem bandK_apply (h : S8192x768.Idx → EReal) (i : Fin 8192) (x : Fin 256) : bandK h (ix2 i x) = h (ix2 i (col1 x)) := by
  show extractStridedSlice S8192x256 ![0, 256] h slices_S8192x768_S8192x256_0_256 (ix2 i x) = _
  exact extractStridedSlice_apply ![0, 256] h slices_S8192x768_S8192x256_0_256 (ix2 i x) (ix2 i (col1 x)) (fun a => match a with
      | ⟨0, _⟩ => (Nat.zero_add _).symm
      | ⟨1, _⟩ => rfl)
/-- The third band at `(i, x)`: the wide array at column `512 + x`. -/
theorem bandV_apply (h : S8192x768.Idx → EReal) (i : Fin 8192) (x : Fin 256) : bandV h (ix2 i x) = h (ix2 i (col2 x)) := by
  show extractStridedSlice S8192x256 ![0, 512] h slices_S8192x768_S8192x256_0_512 (ix2 i x) = _
  exact extractStridedSlice_apply ![0, 512] h slices_S8192x768_S8192x256_0_512 (ix2 i x) (ix2 i (col2 x)) (fun a => match a with
      | ⟨0, _⟩ => (Nat.zero_add _).symm
      | ⟨1, _⟩ => rfl)

/-- The transposed matrix at `(d, e)` is the matrix at `(e, d)`. -/
theorem weT_apply (X : S512x256.Idx → EReal) (d : Fin 256) (e : Fin 512) : weT X (ix2 d e) = X (ix2 e d) := by
  show transpose S256x512 [1, 0] X transposes_S512x256_S256x512_1_0 (ix2 d e) = _
  exact transpose_apply [1, 0] X transposes_S512x256_S256x512_1_0 (ix2 d e) (ix2 e d) (fun b => match b with
    | ⟨0, _⟩ => rfl
    | ⟨1, _⟩ => rfl)
/-- The row at `(0, e)` is the vector at `e`. -/
theorem beRow_apply (X : S512.Idx → EReal) (e : Fin 512) : beRow X (ix2 (0 : Fin 1) e) = X (ix1 e) :=
  shapeCast_a_1a_apply X shapeCasts_S512_S1x512 0 e

end Reads

/-! ## What the host operations leave in each buffer

From any contents `W` of the buffers before the 36 operations, each of the eight buffers is a stage above over `W` at the
argument arrays (and at the clipped scalar, which the operations before wrote). -/

section Terms

open Idealize.ShloMosaic.StableHlo

/-- Reads a buffer after a literal list of operations as the operations' functions over the contents before, a
    three-operand operation read operand by operand. -/
local macro "host_results" : tactic =>
  `(tactic| simp (disch := decide) only [after_cons, after_nil, nullary_result', unary_result', binary_result', reshape_result',
      nary3_result', nullary_result_ne', unary_result_ne', binary_result_ne', reshape_result_ne', nary_result_ne'])

variable (W : Valuation τ sig (Elt Ideal))

theorem after_v13 : (after hostOps0_2 W (Proc.devRef .tc main_v13) : S8192x256.Idx → EReal)
    = bandQ (wide (W (Proc.devRef .tc main_arg0)) (cat3W (W (Proc.devRef .tc main_arg2)) (W (Proc.devRef .tc main_arg4)) (W (Proc.devRef .tc main_arg6))) (cat3b (W (Proc.devRef .tc main_arg3)) (W (Proc.devRef .tc main_arg5)) (W (Proc.devRef .tc main_arg7)))) (rsq (W (Proc.devRef .tc main_v0))) := by
  host_results
  rfl
theorem after_v15 : (after hostOps0_2 W (Proc.devRef .tc main_v15) : S8192x256.Idx → EReal)
    = bandK (wide (W (Proc.devRef .tc main_arg0)) (cat3W (W (Proc.devRef .tc main_arg2)) (W (Proc.devRef .tc main_arg4)) (W (Proc.devRef .tc main_arg6))) (cat3b (W (Proc.devRef .tc main_arg3)) (W (Proc.devRef .tc main_arg5)) (W (Proc.devRef .tc main_arg7)))) := by
  host_results
  rfl
theorem after_v17 : (after hostOps0_2 W (Proc.devRef .tc main_v17) : S8192x256.Idx → EReal)
    = bandV (wide (W (Proc.devRef .tc main_arg0)) (cat3W (W (Proc.devRef .tc main_arg2)) (W (Proc.devRef .tc main_arg4)) (W (Proc.devRef .tc main_arg6))) (cat3b (W (Proc.devRef .tc main_arg3)) (W (Proc.devRef .tc main_arg5)) (W (Proc.devRef .tc main_arg7)))) := by
  host_results
  rfl
theorem after_v28 : (after hostOps0_2 W (Proc.devRef .tc main_v28) : S8192x256.Idx → EReal)
    = bandQ (wide (W (Proc.devRef .tc main_arg1)) (cat3W (W (Proc.devRef .tc main_arg8)) (W (Proc.devRef .tc main_arg10)) (W (Proc.devRef .tc main_arg6))) (cat3b (W (Proc.devRef .tc main_arg9)) (W (Proc.devRef .tc main_arg11)) (W (Proc.devRef .tc main_arg7)))) (rsq (W (Proc.devRef .tc main_v0))) := by
  host_results
  rfl
theorem after_v30 : (after hostOps0_2 W (Proc.devRef .tc main_v30) : S8192x256.Idx → EReal)
    = bandK (wide (W (Proc.devRef .tc main_arg1)) (cat3W (W (Proc.devRef .tc main_arg8)) (W (Proc.devRef .tc main_arg10)) (W (Proc.devRef .tc main_arg6))) (cat3b (W (Proc.devRef .tc main_arg9)) (W (Proc.devRef .tc main_arg11)) (W (Proc.devRef .tc main_arg7)))) := by
  host_results
  rfl
theorem after_v32 : (after hostOps0_2 W (Proc.devRef .tc main_v32) : S8192x256.Idx → EReal)
    = bandV (wide (W (Proc.devRef .tc main_arg1)) (cat3W (W (Proc.devRef .tc main_arg8)) (W (Proc.devRef .tc main_arg10)) (W (Proc.devRef .tc main_arg6))) (cat3b (W (Proc.devRef .tc main_arg9)) (W (Proc.devRef .tc main_arg11)) (W (Proc.devRef .tc main_arg7)))) := by
  host_results
  rfl

theorem after_v34 : (after hostOps0_2 W (Proc.devRef .tc main_v34) : S256x512.Idx → EReal) = weT (W (Proc.devRef .tc main_arg12)) := by
  host_results
  rfl
theorem after_v35 : (after hostOps0_2 W (Proc.devRef .tc main_v35) : S1x512.Idx → EReal) = beRow (W (Proc.devRef .tc main_arg13)) := by
  host_results
  rfl

end Terms

variable (m : (ℓ : Loc nD τ sig) → Buf (Elt Ideal) ℓ) (c : Dev nD)

/-! The argument arrays as plain index functions. -/
abbrev x1 : Fin 8192 → Fin 512 → EReal := fun i k => (m ((c.tc : Thread nD τ).loc main_arg0) : S8192x512.Idx → EReal) (ix2 i k)
abbrev x2 : Fin 8192 → Fin 512 → EReal := fun i k => (m ((c.tc : Thread nD τ).loc main_arg1) : S8192x512.Idx → EReal) (ix2 i k)
abbrev Wq1 : Fin 256 → Fin 512 → EReal := fun d k => (m ((c.tc : Thread nD τ).loc main_arg2) : S256x512.Idx → EReal) (ix2 d k)
abbrev bq1 : Fin 256 → EReal := fun d => (m ((c.tc : Thread nD τ).loc main_arg3) : S256.Idx → EReal) (ix1 d)
abbrev Wk1 : Fin 256 → Fin 512 → EReal := fun d k => (m ((c.tc : Thread nD τ).loc main_arg4) : S256x512.Idx → EReal) (ix2 d k)
abbrev bk1 : Fin 256 → EReal := fun d => (m ((c.tc : Thread nD τ).loc main_arg5) : S256.Idx → EReal) (ix1 d)
abbrev Wv : Fin 256 → Fin 512 → EReal := fun d k => (m ((c.tc : Thread nD τ).loc main_arg6) : S256x512.Idx → EReal) (ix2 d k)
abbrev bv : Fin 256 → EReal := fun d => (m ((c.tc : Thread nD τ).loc main_arg7) : S256.Idx → EReal) (ix1 d)
abbrev Wq2 : Fin 256 → Fin 512 → EReal := fun d k => (m ((c.tc : Thread nD τ).loc main_arg8) : S256x512.Idx → EReal) (ix2 d k)
abbrev bq2 : Fin 256 → EReal := fun d => (m ((c.tc : Thread nD τ).loc main_arg9) : S256.Idx → EReal) (ix1 d)
abbrev Wk2 : Fin 256 → Fin 512 → EReal := fun d k => (m ((c.tc : Thread nD τ).loc main_arg10) : S256x512.Idx → EReal) (ix2 d k)
abbrev bk2 : Fin 256 → EReal := fun d => (m ((c.tc : Thread nD τ).loc main_arg11) : S256.Idx → EReal) (ix1 d)
abbrev We : Fin 512 → Fin 256 → EReal := fun e d => (m ((c.tc : Thread nD τ).loc main_arg12) : S512x256.Idx → EReal) (ix2 e d)
abbrev be : Fin 512 → EReal := fun e => (m ((c.tc : Thread nD τ).loc main_arg13) : S512.Idx → EReal) (ix1 e)
abbrev scale : EReal := (m ((c.tc : Thread nD τ).loc main_arg14) : S_.Idx → EReal) ix0

/-- The TensorCore's buffers when the first region is entered, read at a reference. -/
abbrev entry (b : Ref sig .tc) : Buf (Elt Ideal) ((c : Thread nD τ).loc b) := Gen.V3 m c (Proc.devRef .tc b)

/-! ## The contents the 36 operations start from: the arguments as launched, and the scalar clipped to [1, 32] -/

/-- A buffer neither of the first two stretches writes still holds its launch contents. -/
theorem V2_arg (r : Ref sig .tc) (h1 : r ∉ hostOps0_1_W) (h0 : r ∉ hostOps0_W) :
    Gen.V2 m c (Proc.devRef .tc r) = m ((c.tc : Thread nD τ).loc r) :=
  (V2_of m c r h1).trans ((V1_of m c r h0).trans rfl)

/-- The scalar after the clip: `min 32.0 (max 1.0 scale)`, literals first. -/
theorem V2_v0 : (Gen.V2 m c (Proc.devRef .tc main_v0) : S_.Idx → EReal)
    = minimumf (F := Ideal) (φ := .f32) (constant (F := Ideal) S_ .f32 0x42000000#32)
        (maximumf (F := Ideal) (φ := .f32) (constant (F := Ideal) S_ .f32 0x3F800000#32) (m ((c.tc : Thread nD τ).loc main_arg14))) := by
  show StableHlo.after hostOps0_1 (StableHlo.after hostOps0 (Gen.V0 m c)) (Proc.devRef .tc main_v0) = _
  after_results3
  rfl

/-- One over the square root of the clipped scalar is the shared formula's scale. -/
theorem rsq_clip : rsq (minimumf (F := Ideal) (φ := .f32) (constant (F := Ideal) S_ .f32 0x42000000#32)
        (maximumf (F := Ideal) (φ := .f32) (constant (F := Ideal) S_ .f32 0x3F800000#32) (m ((c.tc : Thread nD τ).loc main_arg14)))) ix0
      = Cert.Attn.invScale (scale m c) := rfl

/-! Branch 1: queries (scaled) and values from the first input, keys from the second. -/
theorem entry_q0 (i : Fin 8192) (x : Fin 256) :
    (entry m c main_v13 : S8192x256.Idx → EReal) (ix2 i x) = Cert.Attn.proj (x1 m c) (Wq1 m c) (bq1 m c) i x * Cert.Attn.invScale (scale m c) := by
  refine (congrFun (after_v13 (Gen.V2 m c)) (ix2 i x)).trans ?_
  rw [V2_arg m c main_arg0 (by decide) (by decide), V2_arg m c main_arg2 (by decide) (by decide), V2_arg m c main_arg4 (by decide) (by decide), V2_arg m c main_arg6 (by decide) (by decide),
    V2_arg m c main_arg3 (by decide) (by decide), V2_arg m c main_arg5 (by decide) (by decide), V2_arg m c main_arg7 (by decide) (by decide), V2_v0 m c,
    bandQ_apply, wide_apply, cat3b_col0, rsq_clip]
  simp only [cat3W_col0]
  rfl
theorem entry_k0 (j : Fin 8192) (x : Fin 256) :
    (entry m c main_v30 : S8192x256.Idx → EReal) (ix2 j x) = Cert.Attn.proj (x2 m c) (Wk2 m c) (bk2 m c) j x := by
  refine (congrFun (after_v30 (Gen.V2 m c)) (ix2 j x)).trans ?_
  rw [V2_arg m c main_arg1 (by decide) (by decide), V2_arg m c main_arg8 (by decide) (by decide), V2_arg m c main_arg10 (by decide) (by decide), V2_arg m c main_arg6 (by decide) (by decide),
    V2_arg m c main_arg9 (by decide) (by decide), V2_arg m c main_arg11 (by decide) (by decide), V2_arg m c main_arg7 (by decide) (by decide),
    bandK_apply, wide_apply, cat3b_col1]
  simp only [cat3W_col1]
  rfl
theorem entry_v0 (j : Fin 8192) (d : Fin 256) :
    (entry m c main_v17 : S8192x256.Idx → EReal) (ix2 j d) = Cert.Attn.proj (x1 m c) (Wv m c) (bv m c) j d := by
  refine (congrFun (after_v17 (Gen.V2 m c)) (ix2 j d)).trans ?_
  rw [V2_arg m c main_arg0 (by decide) (by decide), V2_arg m c main_arg2 (by decide) (by decide), V2_arg m c main_arg4 (by decide) (by decide), V2_arg m c main_arg6 (by decide) (by decide),
    V2_arg m c main_arg3 (by decide) (by decide), V2_arg m c main_arg5 (by decide) (by decide), V2_arg m c main_arg7 (by decide) (by decide),
    bandV_apply, wide_apply, cat3b_col2]
  simp only [cat3W_col2]
  rfl
/-! Branch 2: queries (scaled) and values from the second input, keys from the first. -/
theorem entry_q1 (i : Fin 8192) (x : Fin 256) :
    (entry m c main_v28 : S8192x256.Idx → EReal) (ix2 i x) = Cert.Attn.proj (x2 m c) (Wq2 m c) (bq2 m c) i x * Cert.Attn.invScale (scale m c) := by
  refine (congrFun (after_v28 (Gen.V2 m c)) (ix2 i x)).trans ?_
  rw [V2_arg m c main_arg1 (by decide) (by decide), V2_arg m c main_arg8 (by decide) (by decide), V2_arg m c main_arg10 (by decide) (by decide), V2_arg m c main_arg6 (by decide) (by decide),
    V2_arg m c main_arg9 (by decide) (by decide), V2_arg m c main_arg11 (by decide) (by decide), V2_arg m c main_arg7 (by decide) (by decide), V2_v0 m c,
    bandQ_apply, wide_apply, cat3b_col0, rsq_clip]
  simp only [cat3W_col0]
  rfl
theorem entry_k1 (j : Fin 8192) (x : Fin 256) :
    (entry m c main_v15 : S8192x256.Idx → EReal) (ix2 j x) = Cert.Attn.proj (x1 m c) (Wk1 m c) (bk1 m c) j x := by
  refine (congrFun (after_v15 (Gen.V2 m c)) (ix2 j x)).trans ?_
  rw [V2_arg m c main_arg0 (by decide) (by decide), V2_arg m c main_arg2 (by decide) (by decide), V2_arg m c main_arg4 (by decide) (by decide), V2_arg m c main_arg6 (by decide) (by decide),
    V2_arg m c main_arg3 (by decide) (by decide), V2_arg m c main_arg5 (by decide) (by decide), V2_arg m c main_arg7 (by decide) (by decide),
    bandK_apply, wide_apply, cat3b_col1]
  simp only [cat3W_col1]
  rfl
theorem entry_v1 (j : Fin 8192) (d : Fin 256) :
    (entry m c main_v32 : S8192x256.Idx → EReal) (ix2 j d) = Cert.Attn.proj (x2 m c) (Wv m c) (bv m c) j d := by
  refine (congrFun (after_v32 (Gen.V2 m c)) (ix2 j d)).trans ?_
  rw [V2_arg m c main_arg1 (by decide) (by decide), V2_arg m c main_arg8 (by decide) (by decide), V2_arg m c main_arg10 (by decide) (by decide), V2_arg m c main_arg6 (by decide) (by decide),
    V2_arg m c main_arg9 (by decide) (by decide), V2_arg m c main_arg11 (by decide) (by decide), V2_arg m c main_arg7 (by decide) (by decide),
    bandV_apply, wide_apply, cat3b_col2]
  simp only [cat3W_col2]
  rfl
/-! Shared by both: the output projection transposed, and the bias as a row. -/
theorem entry_we (d : Fin 256) (e : Fin 512) :
    (entry m c main_v34 : S256x512.Idx → EReal) (ix2 d e) = We m c e d := by
  refine (congrFun (after_v34 (Gen.V2 m c)) (ix2 d e)).trans ?_
  rw [V2_arg m c main_arg12 (by decide) (by decide), weT_apply]
theorem entry_be (e : Fin 512) :
    (entry m c main_v35 : S1x512.Idx → EReal) (ix2 (0 : Fin 1) e) = be m c e := by
  refine (congrFun (after_v35 (Gen.V2 m c)) (ix2 (0 : Fin 1) e)).trans ?_
  rw [V2_arg m c main_arg13 (by decide) (by decide), beRow_apply]

end Cert.KernelIdeal.Attn

end
-- ==== Proof.Finite.lean ====
/-
  The precondition says every input number is finite; at the extended reals that is: every entry of every argument
  array is (the coercion of) a real number.
-/
import proofs.«412178_j26319559590733_3_alg».proof.Defs
import proofs.«412178_j26319559590733_3_alg».proof.Proof.Gen.Pre_finite_inputs
import proofs.«412178_j26319559590733_3_alg».proof.Proof.Formulas
import Idealize.ShloMosaic.Lib.ValueIdx
import Idealize.ShloMosaic.Lib.ReduceAll

noncomputable section

namespace Cert.KernelIdeal.Attn

open Cert.KernelIdeal Idealize.ShloMosaic Idealize.ShloMosaic.TcCoe Idealize.SL.Sem
open Idealize.ShloMosaic.ValueIdx

/-- An extended real that is a real number. -/
def IsReal (x : EReal) : Prop := ∃ r : ℝ, x = (r : EReal)

/-- The float pattern with all exponent bits set and no fraction bit is +∞. -/
theorem inf_bits : Ideal.ofBits .f32 0x7F800000#32 = (⊤ : EReal) := by
  simp [Ideal.ofBits, Ideal.ieee]

/-- An extended real whose absolute value is below +∞ is a real number. -/
theorem isReal_of_abs_lt (x : EReal)
    (h : FloatOps.cmpf (F := Ideal) (φ := .f32) .olt (FloatOps.hostAbsf (F := Ideal) (φ := .f32) x)
      (FloatOps.ofBits (F := Ideal) .f32 0x7F800000#32) = 1#1) : IsReal x := by
  have h' : Ideal.cmp .olt (max x (-x)) (Ideal.ofBits .f32 0x7F800000#32) = 1#1 := h
  rw [inf_bits] at h'
  induction x using EReal.rec with
  | bot => simp [Ideal.cmp] at h'
  | coe r => exact ⟨r, rfl⟩
  | top => simp [Ideal.cmp] at h'

/-- The shape with no axes has exactly one index. -/
instance : Subsingleton Cert.Pre_finite_inputs.S_.Idx := ⟨fun a b => funext fun d => d.elim0⟩

/-- `all (|x| < +∞)` over an array of any shape, read back: every entry is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi (cmpf .olt (Host.absf x)
          (broadcastInDim s ![] hb (constant Cert.Pre_finite_inputs.S_ .f32 0x7F800000#32))) init hr hu j = 1#1)
    (i : s.Idx) : IsReal (x i) :=
  isReal_of_abs_lt (x i) (Host.reduce_andi_all _ init hr hu j e i)

/-- The same for the scalar, which is compared without a broadcast. -/
theorem all_real0 (x : FVec Ideal Cert.Pre_finite_inputs.S_ .f32)
    (hr : Cert.Pre_finite_inputs.S_.ReducesTo [] Cert.Pre_finite_inputs.S_) (hu : 0 < Cert.Pre_finite_inputs.S_.numel)
    (init : IVec Cert.Pre_finite_inputs.S_ 1) (j : Cert.Pre_finite_inputs.S_.Idx)
    (e : Host.reduce IntOp.andi (cmpf .olt (Host.absf x)
          (constant Cert.Pre_finite_inputs.S_ .f32 0x7F800000#32)) init hr hu j = 1#1)
    (i : Cert.Pre_finite_inputs.S_.Idx) : IsReal (x i) :=
  isReal_of_abs_lt (x i) (Host.reduce_andi_all _ init hr hu j e i)

variable [hPre : Cert.Pre_finite_inputs.Facts]

/-- Under the precondition every entry of each of the fifteen argument arrays is a real number. -/
theorem real_args (m : (ℓ : Loc nD τ sig) → Buf (Elt Ideal) ℓ) (h : Cert.Pre_KernelIdeal m) (c : Dev nD) :
    (∀ j, IsReal ((m ((c.tc : Thread nD τ).loc main_arg0) : S8192x512.Idx → EReal) j))
    ∧ (∀ j, IsReal ((m ((c.tc : Thread nD τ).loc main_arg1) : S8192x512.Idx → EReal) j))
    ∧ (∀ j, IsReal ((m ((c.tc : Thread nD τ).loc main_arg2) : S256x512.Idx → EReal) j))
    ∧ (∀ j, IsReal ((m ((c.tc : Thread nD τ).loc main_arg3) : S256.Idx → EReal) j))
    ∧ (∀ j, IsReal ((m ((c.tc : Thread nD τ).loc main_arg4) : S256x512.Idx → EReal) j))
    ∧ (∀ j, IsReal ((m ((c.tc : Thread nD τ).loc main_arg5) : S256.Idx → EReal) j))
    ∧ (∀ j, IsReal ((m ((c.tc : Thread nD τ).loc main_arg6) : S256x512.Idx → EReal) j))
    ∧ (∀ j, IsReal ((m ((c.tc : Thread nD τ).loc main_arg7) : S256.Idx → EReal) j))
    ∧ (∀ j, IsReal ((m ((c.tc : Thread nD τ).loc main_arg8) : S256x512.Idx → EReal) j))
    ∧ (∀ j, IsReal ((m ((c.tc : Thread nD τ).loc main_arg9) : S256.Idx → EReal) j))
    ∧ (∀ j, IsReal ((m ((c.tc : Thread nD τ).loc main_arg10) : S256x512.Idx → EReal) j))
    ∧ (∀ j, IsReal ((m ((c.tc : Thread nD τ).loc main_arg11) : S256.Idx → EReal) j))
    ∧ (∀ j, IsReal ((m ((c.tc : Thread nD τ).loc main_arg12) : S512x256.Idx → EReal) j))
    ∧ (∀ j, IsReal ((m ((c.tc : Thread nD τ).loc main_arg13) : S512.Idx → EReal) j))
    ∧ (∀ j, IsReal ((m ((c.tc : Thread nD τ).loc main_arg14) : S_.Idx → EReal) j)) := by
  -- the predicate's one result word, at its one index, is 1
  have h0 := congrFun (h c) ValueIdx.ix0
  -- the printed predicate is a left-nested `and` of fifteen `all (|x| < +∞)`
  dsimp only [Cert.Pre_finite_inputs.fn, Cert.Pre_finite_inputs.fn_part1, Cert.Pre_finite_inputs.fn_part2,
    Cert.Pre_finite_inputs.fn_part3, Cert.Pre_finite_inputs.fn_part4, andi] at h0
  simp only [IntOp.andi_eq_one] at h0
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := h0
  exact ⟨all_real _ _ _ _ _ _ h0, all_real _ _ _ _ _ _ h1, all_real _ _ _ _ _ _ h2, all_real _ _ _ _ _ _ h3,
    all_real _ _ _ _ _ _ h4, all_real _ _ _ _ _ _ h5, all_real _ _ _ _ _ _ h6, all_real _ _ _ _ _ _ h7,
    all_real _ _ _ _ _ _ h8, all_real _ _ _ _ _ _ h9, all_real _ _ _ _ _ _ h10, all_real _ _ _ _ _ _ h11,
    all_real _ _ _ _ _ _ h12, all_real _ _ _ _ _ _ h13, all_real0 _ _ _ _ _ h14⟩

/-- The float pattern of 1.0 is the real 1. -/
theorem one_bits : Ideal.ofBits .f32 0x3F800000#32 = ((1 : ℝ) : EReal) := by
  simp [Ideal.ofBits, Ideal.ieee, -EReal.coe_mul]; norm_num

/-- The float pattern of 32.0 is the real 32. -/
theorem thirtytwo_bits : Ideal.ofBits .f32 0x42000000#32 = ((32 : ℝ) : EReal) := by
  simp [Ideal.ofBits, Ideal.ieee, -EReal.coe_mul]; norm_num

/-- The scale both programs use is then a real number too: the clipped scalar lies in [1, 32], its square root is a
    positive real, and one over it a real. -/
theorem invScale_real (s : EReal) (hs : IsReal s) : IsReal (Cert.Attn.invScale s) := by
  obtain ⟨r, rfl⟩ := hs
  have hmono : Monotone (fun x : ℝ => (x : EReal)) := EReal.coe_strictMono.monotone
  -- clipping a real to [1, 32] is a real, at least 1
  have hclip : min ((32 : ℝ) : EReal) (max ((1 : ℝ) : EReal) (r : EReal)) = ((min 32 (max 1 r) : ℝ) : EReal) := by
    rw [hmono.map_min, hmono.map_max]
  have h1 : (1 : ℝ) ≤ min 32 (max 1 r) := le_min (by norm_num) (le_max_left _ _)
  -- its square root is a positive real
  have hpos : 0 < Real.sqrt (min 32 (max 1 r)) := Real.sqrt_pos.2 (by linarith)
  unfold Cert.Attn.invScale
  rw [one_bits, thirtytwo_bits, hclip, Ideal.sqrt_coe, if_neg (by linarith), Ideal.div_coe hpos.ne', ← EReal.coe_mul]
  exact ⟨_, rfl⟩

/-- A product of two reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A sum of two reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- A finite sum of reals is real. -/
theorem isReal_sum {ι : Type} (s : Finset ι) (f : ι → EReal) (hf : ∀ i, IsReal (f i)) : IsReal (∑ i ∈ s, f i) := by
  classical
  refine Finset.induction_on s ⟨0, by simp⟩ ?_
  intro a s ha ih
  rw [Finset.sum_insert ha]
  exact (hf a).add ih

/-- A linear layer's entries are real when its inputs are. -/
theorem proj_real (x : Fin 8192 → Fin 512 → EReal) (W : Fin 256 → Fin 512 → EReal) (b : Fin 256 → EReal)
    (hx : ∀ i k, IsReal (x i k)) (hW : ∀ d k, IsReal (W d k)) (hb : ∀ d, IsReal (b d)) (i : Fin 8192) (d : Fin 256) :
    IsReal (Cert.Attn.proj x W b i d) :=
  (isReal_sum _ _ fun k => (hx i k).mul (hW d k)).add (hb d)

end Cert.KernelIdeal.Attn

end
-- ==== Proof.Whole.lean ====
/-
  The whole program: three stretches of host operations, then the two attention regions. The TensorCore's buffers at
  each boundary are a fold from the launch memory — a host stretch applies its operations, a region replaces its result
  array by what its write-backs leave and changes nothing else. The launch theorem for a list of segments then says:
  every weakly fair execution terminates, and the final memory holds every unscoped buffer at the last boundary's
  contents; in particular each argument as launched and each result array at its region's final contents.
-/
import proofs.«412178_j26319559590733_3_alg».proof.Proof.Frame0
import proofs.«412178_j26319559590733_3_alg».proof.Proof.Frame1
import proofs.«412178_j26319559590733_3_alg».proof.Proof.Gen.KernelIdeal.Regions

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the boundaries -/

/-- Before region 0: after the three host stretches, read at a TensorCore reference. -/
abbrev R3 (c : Dev nD) (b : Ref sig .tc) : Buf (Elt F) ((c : Thread nD τ).loc b) := Gen.V3 m c (Proc.devRef .tc b)
/-- After region 0. -/
def W4 (c : Dev nD) : Valuation τ sig (Elt F) :=
  Pipeline.withArrays spec0 c (Gen.V3 m c) fun w => (dat0 (R3 m) c).arrAt w cfg0.N
theorem W4_arr (c : Dev nD) (w : Fin cfg0.W) :
    W4 m c (Proc.devRef .tc (Pipeline.arrRef spec0 w)) = (dat0 (R3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = Gen.V3 m c (Proc.devRef .tc b) := by
  unfold W4; exact Pipeline.withArrays_of_ne spec0 c _ _ b hb
abbrev R4 (c : Dev nD) (b : Ref sig .tc) : Buf (Elt F) ((c : Thread nD τ).loc b) := W4 m c (Proc.devRef .tc b)
theorem hF0 (c : Dev nD) (w : Fin cfg0.W) : (dat0 (R3 m) c).arrAt w cfg0.N = R4 m c (Pipeline.arrRef spec0 w) :=
  (W4_arr m c w).symm
theorem hrest0 (c : Dev nD) : ∀ b, b ∉ Finset.univ.image (Pipeline.arrRef spec0) → R4 m c b = R3 m c b :=
  fun b hb => W4_of_ne m c b fun w e => hb (Finset.mem_image.mpr ⟨w, Finset.mem_univ _, e⟩)
/-- After region 1: the end. -/
def W5 (c : Dev nD) : Valuation τ sig (Elt F) :=
  Pipeline.withArrays spec1 c (W4 m c) fun w => (dat1 (R4 m) c).arrAt w cfg1.N
theorem W5_arr (c : Dev nD) (w : Fin cfg1.W) :
    W5 m c (Proc.devRef .tc (Pipeline.arrRef spec1 w)) = (dat1 (R4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev R5 (c : Dev nD) (b : Ref sig .tc) : Buf (Elt F) ((c : Thread nD τ).loc b) := W5 m c (Proc.devRef .tc b)
theorem hF1 (c : Dev nD) (w : Fin cfg1.W) : (dat1 (R4 m) c).arrAt w cfg1.N = R5 m c (Pipeline.arrRef spec1 w) :=
  (W5_arr m c w).symm
theorem hrest1 (c : Dev nD) : ∀ b, b ∉ Finset.univ.image (Pipeline.arrRef spec1) → R5 m c b = R4 m c b :=
  fun b hb => W5_of_ne m c b fun w e => hb (Finset.mem_image.mpr ⟨w, Finset.mem_univ _, e⟩)

/-- A buffer no region has as an array and no host stretch writes ends as launched. -/
theorem W5_kept (c : Dev nD) (b : Ref sig .tc) (h1 : ∀ w, Pipeline.arrRef spec1 w ≠ b) (h0 : ∀ w, Pipeline.arrRef spec0 w ≠ b)
    (h3 : b ∉ Gen.hostOps0_2_W) (h2 : b ∉ Gen.hostOps0_1_W) (h1' : b ∉ Gen.hostOps0_W) :
    W5 m c (Proc.devRef .tc b) = m ((c : Thread nD τ).loc b) :=
  (W5_of_ne m c b h1).trans <| (W4_of_ne m c b h0).trans <| (Gen.V3_of m c b h3).trans <| (Gen.V2_of m c b h2).trans <| (Gen.V1_of m c b h1').trans rfl

/-! ## The proof data family, the thread state, the segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (R3 m) c
  | ⟨1, _⟩ => fun c => dat1 (R4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 over the thread state: entered with every unscoped buffer at the contents before it, left with the result
    array at what the write-backs made of it and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R3 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (R3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (R3 m) c)
    unfold Pipeline.ΦA
    iintro ⟨Hp, -, Hr⟩
    isplitl [Hr]; · iexact Hr
    iexact Hp
  hout c := by
    rw [Pipeline.ownSems0_none]
    refine BIBase.Entails.trans (hout0 (R3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R3 m c) (R4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the result
    array at what the write-backs made of it and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (R4 m) c)
    unfold Pipeline.ΦA
    iintro ⟨Hp, -, Hr⟩
    isplitl [Hr]; · iexact Hr
    iexact Hp
  hout c := by
    rw [Pipeline.ownSems0_none]
    refine BIBase.Entails.trans (hout1 (R4 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R4 m c) (R5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's five segments in order. -/
abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and the
    final memory holds every unscoped TensorCore buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## What the final memory holds -/

/-- The first result is region 0's result array after its last write-back. -/
theorem W5_out0 (c : Dev nD) : W5 m c (Proc.devRef .tc main_v36) = (dat0 (R3 m) c).arrAt 5 cfg0.N :=
  (W5_of_ne m c main_v36 (by decide)).trans (W4_arr m c 5)
/-- The second result is region 1's. -/
theorem W5_out1 (c : Dev nD) : W5 m c (Proc.devRef .tc main_v37) = (dat1 (R4 m) c).arrAt 5 cfg1.N :=
  W5_arr m c 5
/-- An input array of region 0 is unchanged by it. -/
theorem R4_in (c : Dev nD) (w : Fin cfg0.W) (hw : (cfg0.win w).isOut = false) : R4 m c (Pipeline.arrRef spec0 w) = R3 m c (Pipeline.arrRef spec0 w) :=
  (W4_arr m c w).trans (((dat0 (R3 m) c).arrAt_in w hw _).trans (A_eq0 (R3 m) c w))
/-- Region 1 is entered with the output projection and the bias row as region 0 was. -/
theorem R4_v34 (c : Dev nD) : R4 m c main_v34 = R3 m c main_v34 := R4_in m c 3 rfl
theorem R4_v35 (c : Dev nD) : R4 m c main_v35 = R3 m c main_v35 := R4_in m c 4 rfl
/-- Region 1 is entered with region 0's input arrays unchanged. -/
theorem R4_of_ne (c : Dev nD) (b : Ref sig .tc) (hb : ∀ w, Pipeline.arrRef spec0 w ≠ b) : R4 m c b = R3 m c b :=
  W4_of_ne m c b hb

theorem W5_main_arg0 (c : Dev nD) : W5 m c (Proc.devRef .tc main_arg0) = m ((c : Thread nD τ).loc main_arg0) :=
  W5_kept m c main_arg0 (by decide) (by decide) (by decide) (by decide) (by decide)
theorem W5_main_arg1 (c : Dev nD) : W5 m c (Proc.devRef .tc main_arg1) = m ((c : Thread nD τ).loc main_arg1) :=
  W5_kept m c main_arg1 (by decide) (by decide) (by decide) (by decide) (by decide)
theorem W5_main_arg2 (c : Dev nD) : W5 m c (Proc.devRef .tc main_arg2) = m ((c : Thread nD τ).loc main_arg2) :=
  W5_kept m c main_arg2 (by decide) (by decide) (by decide) (by decide) (by decide)
theorem W5_main_arg3 (c : Dev nD) : W5 m c (Proc.devRef .tc main_arg3) = m ((c : Thread nD τ).loc main_arg3) :=
  W5_kept m c main_arg3 (by decide) (by decide) (by decide) (by decide) (by decide)
theorem W5_main_arg4 (c : Dev nD) : W5 m c (Proc.devRef .tc main_arg4) = m ((c : Thread nD τ).loc main_arg4) :=
  W5_kept m c main_arg4 (by decide) (by decide) (by decide) (by decide) (by decide)
theorem W5_main_arg5 (c : Dev nD) : W5 m c (Proc.devRef .tc main_arg5) = m ((c : Thread nD τ).loc main_arg5) :=
  W5_kept m c main_arg5 (by decide) (by decide) (by decide) (by decide) (by decide)
theorem W5_main_arg6 (c : Dev nD) : W5 m c (Proc.devRef .tc main_arg6) = m ((c : Thread nD τ).loc main_arg6) :=
  W5_kept m c main_arg6 (by decide) (by decide) (by decide) (by decide) (by decide)
theorem W5_main_arg7 (c : Dev nD) : W5 m c (Proc.devRef .tc main_arg7) = m ((c : Thread nD τ).loc main_arg7) :=
  W5_kept m c main_arg7 (by decide) (by decide) (by decide) (by decide) (by decide)
theorem W5_main_arg8 (c : Dev nD) : W5 m c (Proc.devRef .tc main_arg8) = m ((c : Thread nD τ).loc main_arg8) :=
  W5_kept m c main_arg8 (by decide) (by decide) (by decide) (by decide) (by decide)
theorem W5_main_arg9 (c : Dev nD) : W5 m c (Proc.devRef .tc main_arg9) = m ((c : Thread nD τ).loc main_arg9) :=
  W5_kept m c main_arg9 (by decide) (by decide) (by decide) (by decide) (by decide)
theorem W5_main_arg10 (c : Dev nD) : W5 m c (Proc.devRef .tc main_arg10) = m ((c : Thread nD τ).loc main_arg10) :=
  W5_kept m c main_arg10 (by decide) (by decide) (by decide) (by decide) (by decide)
theorem W5_main_arg11 (c : Dev nD) : W5 m c (Proc.devRef .tc main_arg11) = m ((c : Thread nD τ).loc main_arg11) :=
  W5_kept m c main_arg11 (by decide) (by decide) (by decide) (by decide) (by decide)
theorem W5_main_arg12 (c : Dev nD) : W5 m c (Proc.devRef .tc main_arg12) = m ((c : Thread nD τ).loc main_arg12) :=
  W5_kept m c main_arg12 (by decide) (by decide) (by decide) (by decide) (by decide)
theorem W5_main_arg13 (c : Dev nD) : W5 m c (Proc.devRef .tc main_arg13) = m ((c : Thread nD τ).loc main_arg13) :=
  W5_kept m c main_arg13 (by decide) (by decide) (by decide) (by decide) (by decide)
theorem W5_main_arg14 (c : Dev nD) : W5 m c (Proc.devRef .tc main_arg14) = m ((c : Thread nD τ).loc main_arg14) :=
  W5_kept m c main_arg14 (by decide) (by decide) (by decide) (by decide) (by decide)

/-- THE FRAME, and the two results: the run read at the arguments and at the result arrays. -/
theorem run_results : θ_run defs (onTc (τ := τ) (main (F := F))) ⟨m, fun _ => 0, ρ⟩ (fun r => ∀ c : Dev nD,
      r.2.mem ((c.tc : Thread nD τ).loc main_v36) = (dat0 (R3 m) c).arrAt 5 cfg0.N
      ∧ r.2.mem ((c.tc : Thread nD τ).loc main_v37) = (dat1 (R4 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v36 (by decide))).trans (W5_out0 m c),
      (h c _ (mem_uc main_v37 (by decide))).trans (W5_out1 m c),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c),
      (h c _ (mem_uc main_arg8 (by decide))).trans (W5_main_arg8 m c),
      (h c _ (mem_uc main_arg9 (by decide))).trans (W5_main_arg9 m c),
      (h c _ (mem_uc main_arg10 (by decide))).trans (W5_main_arg10 m c),
      (h c _ (mem_uc main_arg11 (by decide))).trans (W5_main_arg11 m c),
      (h c _ (mem_uc main_arg12 (by decide))).trans (W5_main_arg12 m c),
      (h c _ (mem_uc main_arg13 (by decide))).trans (W5_main_arg13 m c),
      (h c _ (mem_uc main_arg14 (by decide))).trans (W5_main_arg14 m c)⟩)
    (run_main m ρ)

end Cert.KernelIdeal.Attn

end
-- ==== Proof.Bridge.lean ====
/-
  The kernel's two results are the shared formulas. A region's result is, row by row, the online softmax divided out and
  projected; the arrays it is entered with are projections of the inputs (the queries already times the scale); under
  the precondition every such entry is a real number, so the online form is the plain softmax-weighted mean, with the scale
  moved from the query to the score.
-/
import proofs.«412178_j26319559590733_3_alg».proof.Proof.Value0
import proofs.«412178_j26319559590733_3_alg».proof.Proof.Value1
import proofs.«412178_j26319559590733_3_alg».proof.Proof.HostSide
import proofs.«412178_j26319559590733_3_alg».proof.Proof.Finite
import proofs.«412178_j26319559590733_3_alg».proof.Proof.Whole

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- From what a region is entered with to the formula: queries `pq · cs`, keys `pk`, values `pv`, all real. -/
theorem attnOut_eq (Q K A : S8192x256.Idx → EReal) (WT : S256x512.Idx → EReal) (B : S1x512.Idx → EReal)
    (pq pk pv : Fin 8192 → Fin 256 → EReal) (cs : EReal) (We : Fin 512 → Fin 256 → EReal) (be : Fin 512 → EReal)
    (hQ : ∀ i x, Q (ix2 i x) = pq i x * cs) (hK : ∀ j x, K (ix2 j x) = pk j x) (hA : ∀ j d, A (ix2 j d) = pv j d)
    (hW : ∀ d e, WT (ix2 d e) = We e d) (hB : ∀ e, B (ix2 (0 : Fin 1) e) = be e)
    (rq : ∀ i x, IsReal (pq i x)) (rk : ∀ j x, IsReal (pk j x)) (rv : ∀ j d, IsReal (pv j d)) (rc : IsReal cs)
    (i : Fin 8192) (e : Fin 512) :
    attnOut Q K A WT B i e = Cert.Attn.outProj (Cert.Attn.attend pq pk pv cs) We be i e := by
  obtain ⟨cr, rfl⟩ := rc
  have rq' : ∀ i x, ∃ r : ℝ, pq i x = (r : EReal) := rq
  have rk' : ∀ j x, ∃ r : ℝ, pk j x = (r : EReal) := rk
  have rv' : ∀ j d, ∃ r : ℝ, pv j d = (r : EReal) := rv
  choose qr hqr using rq'
  choose kr hkr using rk'
  choose vr hvr using rv'
  -- the key and value rows numbered by ℕ, as reals
  let kN : ℕ → Fin 256 → ℝ := fun n x => if h : n < 8192 then kr ⟨n, h⟩ x else 0
  let vN : ℕ → Fin 256 → ℝ := fun n d => if h : n < 8192 then vr ⟨n, h⟩ d else 0
  have hrowK : ∀ n x, rowN K n x = (kN n x : EReal) := fun n x => by
    unfold rowN; show _ = ((if h : n < 8192 then kr ⟨n, h⟩ x else 0 : ℝ) : EReal)
    split_ifs with h
    · rw [hK, hkr]
    · rfl
  have hrowA : ∀ n d, rowN A n d = (vN n d : EReal) := fun n d => by
    unfold rowN; show _ = ((if h : n < 8192 then vr ⟨n, h⟩ d else 0 : ℝ) : EReal)
    split_ifs with h
    · rw [hA, hvr]
    · rfl
  have hkN : ∀ (j : Fin 8192) x, (kN j.val x : EReal) = pk j x := fun j x => by
    show ((if h : j.val < 8192 then kr ⟨j.val, h⟩ x else 0 : ℝ) : EReal) = _
    rw [dif_pos j.isLt, hkr]
  have hvN : ∀ (j : Fin 8192) d, (vN j.val d : EReal) = pv j d := fun j d => by
    show ((if h : j.val < 8192 then vr ⟨j.val, h⟩ d else 0 : ℝ) : EReal) = _
    rw [dif_pos j.isLt, hvr]
  have hsc : scoresN Q K i = fun n jj => ∑ x : Fin 256, ((qr i x : EReal) * (cr : EReal)) * (kN (n * 2048 + jj.val) x : EReal) := by
    funext n jj; unfold scoresN
    exact Finset.sum_congr rfl fun x _ => by rw [hQ, hqr, hrowK]
  have hva : valuesN A = fun n jj d => (vN (n * 2048 + jj.val) d : EReal) := by
    funext n jj d; unfold valuesN; exact hrowA _ _
  have hscore : ∀ j : Fin 8192, (∑ x : Fin 256, (qr i x : EReal) * (kN j.val x : EReal)) * (cr : EReal) = Cert.Attn.score pq pk (cr : EReal) i j := fun j => by
    unfold Cert.Attn.score
    exact congrArg (· * (cr : EReal)) (Finset.sum_congr rfl fun x _ => by rw [hkN, hqr])
  unfold attnOut Cert.Attn.outProj
  refine congrArg₂ (· + ·) (Finset.sum_congr rfl fun d _ => ?_) (hB e)
  rw [hW d e]
  refine congrArg (· * We e d) ?_
  unfold rowFinal
  rw [hsc, hva, Cert.Softmax.online_eq_plain (qr i) cr kN vN d]
  unfold Cert.Attn.attend Cert.Attn.rowSum Cert.Attn.rowMax
  simp only [hscore, hvN]

variable [hPre : Cert.Pre_finite_inputs.Facts]
variable (m : (ℓ : Loc nD τ sig) → Buf (Elt Ideal) ℓ) (c : Dev nD)

/-- The first result. -/
theorem out0_eq (h : Cert.Pre_KernelIdeal m) (i : Fin 8192) (e : Fin 512) :
    ((dat0 (R3 m) c).arrAt 5 cfg0.N : S8192x512.Idx → EReal) (ix2 i e)
      = Cert.Attn.branch (x1 m c) (x2 m c) (Wq1 m c) (bq1 m c) (Wk2 m c) (bk2 m c) (Wv m c) (bv m c) (We m c) (be m c) (scale m c) i e := by
  obtain ⟨r0, r1, r2, r3, r4, r5, r6, r7, r8, r9, r10, r11, r12, r13, r14⟩ := real_args m h c
  rw [final0 (R3 m) c]
  exact attnOut_eq _ _ _ _ _ (Cert.Attn.proj (x1 m c) (Wq1 m c) (bq1 m c)) (Cert.Attn.proj (x2 m c) (Wk2 m c) (bk2 m c))
    (Cert.Attn.proj (x1 m c) (Wv m c) (bv m c)) (Cert.Attn.invScale (scale m c)) (We m c) (be m c)
    (entry_q0 m c) (entry_k0 m c) (entry_v0 m c) (entry_we m c) (entry_be m c)
    (proj_real _ _ _ (fun i k => r0 _) (fun d k => r2 _) (fun d => r3 _))
    (proj_real _ _ _ (fun i k => r1 _) (fun d k => r10 _) (fun d => r11 _))
    (proj_real _ _ _ (fun i k => r0 _) (fun d k => r6 _) (fun d => r7 _))
    (invScale_real _ (r14 _)) i e

/-- The second result: the region is entered with the arrays the host stretch left, region 0 having changed none of them. -/
theorem out1_eq (h : Cert.Pre_KernelIdeal m) (i : Fin 8192) (e : Fin 512) :
    ((dat1 (R4 m) c).arrAt 5 cfg1.N : S8192x512.Idx → EReal) (ix2 i e)
      = Cert.Attn.branch (x2 m c) (x1 m c) (Wq2 m c) (bq2 m c) (Wk1 m c) (bk1 m c) (Wv m c) (bv m c) (We m c) (be m c) (scale m c) i e := by
  obtain ⟨r0, r1, r2, r3, r4, r5, r6, r7, r8, r9, r10, r11, r12, r13, r14⟩ := real_args m h c
  have e28 : R4 m c main_v28 = entry m c main_v28 := R4_of_ne m c main_v28 (by decide)
  have e15 : R4 m c main_v15 = entry m c main_v15 := R4_of_ne m c main_v15 (by decide)
  have e32 : R4 m c main_v32 = entry m c main_v32 := R4_of_ne m c main_v32 (by decide)
  have e34 : R4 m c main_v34 = entry m c main_v34 := R4_v34 m c
  have e35 : R4 m c main_v35 = entry m c main_v35 := R4_v35 m c
  rw [final1 (R4 m) c]
  exact attnOut_eq _ _ _ _ _ (Cert.Attn.proj (x2 m c) (Wq2 m c) (bq2 m c)) (Cert.Attn.proj (x1 m c) (Wk1 m c) (bk1 m c))
    (Cert.Attn.proj (x2 m c) (Wv m c) (bv m c)) (Cert.Attn.invScale (scale m c)) (We m c) (be m c)
    (fun i x => (congrFun e28 (ix2 i x)).trans (entry_q1 m c i x)) (fun j x => (congrFun e15 (ix2 j x)).trans (entry_k1 m c j x))
    (fun j d => (congrFun e32 (ix2 j d)).trans (entry_v1 m c j d)) (fun d e => (congrFun e34 (ix2 d e)).trans (entry_we m c d e))
    (fun e => (congrFun e35 (ix2 (0 : Fin 1) e)).trans (entry_be m c e))
    (proj_real _ _ _ (fun i k => r1 _) (fun d k => r8 _) (fun d => r9 _))
    (proj_real _ _ _ (fun i k => r0 _) (fun d k => r4 _) (fun d => r5 _))
    (proj_real _ _ _ (fun i k => r1 _) (fun d k => r6 _) (fun d => r7 _))
    (invScale_real _ (r14 _)) i e

end Cert.KernelIdeal.Attn

end
-- ==== Proof.RefRun.lean ====
import proofs.«412178_j26319559590733_3_alg».proof.Proof.Gen.ReferenceIdeal.Run
import proofs.«412178_j26319559590733_3_alg».proof.Proof.Gen.ReferenceIdeal.Read

/-! The reference program's run and its stages, taken from the generated modules; what this unit proves about them lives in the modules that import this one. -/
-- ==== Proof.RefSide.lean ====
/-
  The reference program's two results, entry by entry, as the shared formulas of its argument arrays.
-/
import proofs.«412178_j26319559590733_3_alg».proof.Proof.RefRun
import proofs.«412178_j26319559590733_3_alg».proof.Proof.Formulas
import Idealize.ShloMosaic.Lib.ValueIdx
import Idealize.ShloMosaic.Lib.Pipeline.Value

noncomputable section

namespace Cert.ReferenceIdeal.Attn

open Cert.ReferenceIdeal Cert.ReferenceIdeal.Gen Idealize.ShloMosaic Idealize.ShloMosaic.TcCoe Idealize.SL.Sem
open Idealize.ShloMosaic.ValueIdx

/-! ## The stages, over arbitrary argument arrays

Each lemma reads one stage of the program at an index given by coordinates and names what it holds with the shared
formulas. The first branch (queries and values from the first input, keys from the second) and the second branch
(the inputs exchanged) run through the same operations on different stages. -/

section Stages

open Cert.ReferenceIdeal.Read

/-- An f32 array of the given shape, read at the extended reals. -/
abbrev Arr (s : Shape) : Type := (⟨s, .f32⟩ : BufTy).Contents (Elt Ideal)

/-! Each stage of the program is read at an index built from coordinates; the index functions the stage lemmas
    compose agree with the coordinate constructors axis by axis. -/
local macro "idx2" : tactic => `(tactic| exact funext fun a => Fin.ext (by match a with | ⟨0, _⟩ => rfl | ⟨1, _⟩ => rfl))
local macro "idx1" : tactic => `(tactic| exact funext fun a => Fin.ext (by match a with | ⟨0, _⟩ => rfl))

variable (x0 x1 : Arr S8192x512) (x2 : Arr S256x512) (x3 : Arr S256) (x4 : Arr S256x512) (x5 : Arr S256)
  (x6 : Arr S256x512) (x7 : Arr S256) (x8 : Arr S256x512) (x9 : Arr S256) (x10 : Arr S256x512) (x11 : Arr S256)
  (x12 : Arr S512x256) (x13 : Arr S512) (x14 : Arr S_)

/-- The scale both score products are multiplied by: one over the square root of the clipped scalar. -/
theorem scale_v32 (j : S_.Idx) : val_main_v32 (F := Ideal) x14 j = Cert.Attn.invScale (x14 ix0) := by
  rw [val_main_v32_apply, val_main_v31_apply, val_main_v30_apply, val_main_call0_v1_apply, val_main_call0_v0_apply,
    val_main_cst_apply, val_main_cst_0_apply, val_main_cst_1_apply, eq_ix0 j]
  rfl

/-- The key axis of the score array is its second one. -/
theorem red1 : S8192x8192.Reduces [1] S8192 := by decide

/-- Row `i` of the score array with column `k` put back is the entry (i, k). -/
theorem lift_red1 (i : Fin 8192) (k : Fin (S8192x8192.size 1)) : red1.lift (ix1 i) k = ix2 i (⟨k.val, k.isLt⟩ : Fin 8192) := by
  funext c; apply Fin.ext
  fin_cases c <;> rfl

/-- The f32 word of −∞ reads as the bottom of the extended reals. -/
theorem negInf_f32 : (FloatOps.ofBits .f32 0xFF800000#32 : Ideal .f32) = (⊥ : EReal) := by
  show Ideal.ofBits .f32 0xFF800000#32 = ⊥
  simp [Ideal.ofBits, Ideal.ieee]

/-! ### The first branch -/

/-- A linear layer of the program, read at one entry: the contraction over the input width plus the bias. -/
theorem proj_v4 (i : Fin 8192) (d : Fin 256) :
    val_main_v4 (F := Ideal) x0 x2 x3 (ix2 i d) = (Cert.Attn.proj (fun i k => x0 (ix2 i k)) (fun d k => x2 (ix2 d k)) (fun d => x3 (ix1 d))) i d := by
  rw [val_main_v4_apply, val_main_v1_apply, val_main_v3_apply, val_main_v2_apply]
  simp only [val_main_v0_apply]
  have e1 : ∀ k, lidx_main_v1 (ix2 i d) k = ix2 i k := fun k => by idx2
  have e2 : ∀ k, idx_main_v0 (ridx_main_v1 (ix2 i d) k) = ix2 d k := fun k => by idx2
  have e3 : idx_main_v2 (idx_main_v3 (ix2 i d)) = ix1 d := by idx1
  simp only [e1, e2, e3]
  rfl

/-- A linear layer of the program, read at one entry: the contraction over the input width plus the bias. -/
theorem proj_v24 (i : Fin 8192) (d : Fin 256) :
    val_main_v24 (F := Ideal) x1 x10 x11 (ix2 i d) = (Cert.Attn.proj (fun i k => x1 (ix2 i k)) (fun d k => x10 (ix2 d k)) (fun d => x11 (ix1 d))) i d := by
  rw [val_main_v24_apply, val_main_v21_apply, val_main_v23_apply, val_main_v22_apply]
  simp only [val_main_v20_apply]
  have e1 : ∀ k, lidx_main_v21 (ix2 i d) k = ix2 i k := fun k => by idx2
  have e2 : ∀ k, idx_main_v20 (ridx_main_v21 (ix2 i d) k) = ix2 d k := fun k => by idx2
  have e3 : idx_main_v22 (idx_main_v23 (ix2 i d)) = ix1 d := by idx1
  simp only [e1, e2, e3]
  rfl

/-- A linear layer of the program, read at one entry: the contraction over the input width plus the bias. -/
theorem proj_v14 (i : Fin 8192) (d : Fin 256) :
    val_main_v14 (F := Ideal) x0 x6 x7 (ix2 i d) = (Cert.Attn.proj (fun i k => x0 (ix2 i k)) (fun d k => x6 (ix2 d k)) (fun d => x7 (ix1 d))) i d := by
  rw [val_main_v14_apply, val_main_v11_apply, val_main_v13_apply, val_main_v12_apply]
  simp only [val_main_v10_apply]
  have e1 : ∀ k, lidx_main_v11 (ix2 i d) k = ix2 i k := fun k => by idx2
  have e2 : ∀ k, idx_main_v10 (ridx_main_v11 (ix2 i d) k) = ix2 d k := fun k => by idx2
  have e3 : idx_main_v12 (idx_main_v13 (ix2 i d)) = ix1 d := by idx1
  simp only [e1, e2, e3]
  rfl

/-- The scores: query row `i` against key row `j`, times the scale. -/
theorem score_v36 (i j : Fin 8192) :
    val_main_v36 (F := Ideal) x0 x1 x2 x3 x10 x11 x14 (ix2 i j) = Cert.Attn.score (Cert.Attn.proj (fun i k => x0 (ix2 i k)) (fun d k => x2 (ix2 d k)) (fun d => x3 (ix1 d))) (Cert.Attn.proj (fun i k => x1 (ix2 i k)) (fun d k => x10 (ix2 d k)) (fun d => x11 (ix1 d))) (Cert.Attn.invScale (x14 ix0)) i j := by
  rw [val_main_v36_apply, val_main_v34_apply, val_main_v35_apply, scale_v32]
  simp only [val_main_v33_apply]
  have e1 : ∀ k, lidx_main_v34 (ix2 i j) k = ix2 i k := fun k => by idx2
  have e2 : ∀ k, idx_main_v33 (ridx_main_v34 (ix2 i j) k) = ix2 j k := fun k => by idx2
  simp only [e1, e2, proj_v4, proj_v24]
  rfl

/-- The row maximum: the reduction from −∞ over the key axis, then once more against −∞. -/
theorem rowMax_v39 (i : Fin 8192) :
    val_main_v39 (F := Ideal) x0 x1 x2 x3 x10 x11 x14 (ix1 i) = Cert.Attn.rowMax (Cert.Attn.proj (fun i k => x0 (ix2 i k)) (fun d k => x2 (ix2 d k)) (fun d => x3 (ix1 d))) (Cert.Attn.proj (fun i k => x1 (ix2 i k)) (fun d k => x10 (ix2 d k)) (fun d => x11 (ix1 d))) (Cert.Attn.invScale (x14 ix0)) i := by
  rw [val_main_v39_apply, val_main_v38_apply, val_main_cst_3_apply]
  unfold val_main_v37
  rw [Host.reduce_eq_fold_single FloatOps.maximumf _ _ reducesTo_S8192x8192_S8192_d1 red1 h_S_, val_main_cst_2_apply]
  have hf : (val_main_v36 (F := Ideal) x0 x1 x2 x3 x10 x11 x14) ∘ red1.lift (ix1 i) = Cert.Attn.score (Cert.Attn.proj (fun i k => x0 (ix2 i k)) (fun d k => x2 (ix2 d k)) (fun d => x3 (ix1 d))) (Cert.Attn.proj (fun i k => x1 (ix2 i k)) (fun d k => x10 (ix2 d k)) (fun d => x11 (ix1 d))) (Cert.Attn.invScale (x14 ix0)) i :=
    funext fun k => (congrArg (val_main_v36 (F := Ideal) x0 x1 x2 x3 x10 x11 x14) (lift_red1 i k)).trans (score_v36 x0 x1 x2 x3 x10 x11 x14 i _)
  rw [hf, negInf_f32]
  rfl

/-- The shifted exponential of one score. -/
theorem expShift_v43 (i j : Fin 8192) :
    val_main_v43 (F := Ideal) x0 x1 x2 x3 x10 x11 x14 (ix2 i j) = Ideal.exp (Cert.Attn.score (Cert.Attn.proj (fun i k => x0 (ix2 i k)) (fun d k => x2 (ix2 d k)) (fun d => x3 (ix1 d))) (Cert.Attn.proj (fun i k => x1 (ix2 i k)) (fun d k => x10 (ix2 d k)) (fun d => x11 (ix1 d))) (Cert.Attn.invScale (x14 ix0)) i j - Cert.Attn.rowMax (Cert.Attn.proj (fun i k => x0 (ix2 i k)) (fun d k => x2 (ix2 d k)) (fun d => x3 (ix1 d))) (Cert.Attn.proj (fun i k => x1 (ix2 i k)) (fun d k => x10 (ix2 d k)) (fun d => x11 (ix1 d))) (Cert.Attn.invScale (x14 ix0)) i) := by
  rw [val_main_v43_apply, val_main_v42_apply, val_main_v41_apply, val_main_v40_apply, score_v36]
  have e1 : idx_main_v40 (idx_main_v41 (ix2 i j)) = ix1 i := by idx1
  rw [e1, rowMax_v39]
  rfl

/-- The row sum of the shifted exponentials, from the initial value 0. -/
theorem rowSum_v44 (i : Fin 8192) :
    val_main_v44 (F := Ideal) x0 x1 x2 x3 x10 x11 x14 (ix1 i) = Cert.Attn.rowSum (Cert.Attn.proj (fun i k => x0 (ix2 i k)) (fun d k => x2 (ix2 d k)) (fun d => x3 (ix1 d))) (Cert.Attn.proj (fun i k => x1 (ix2 i k)) (fun d k => x10 (ix2 d k)) (fun d => x11 (ix1 d))) (Cert.Attn.invScale (x14 ix0)) i := by
  rw [val_main_v44_apply, val_main_cst_4_apply]
  have e1 : ∀ k, idx_main_v44 (ix1 i) k = ix2 i k := fun k => by idx2
  simp only [e1, expShift_v43]
  rw [show (FloatOps.ofBits .f32 0x00000000#32 : Ideal .f32) = 0 from Ideal.ofBits_zero_f32]
  rfl

/-- Attention: the weights times the value rows, summed over the key axis. -/
theorem attend_v48 (i : Fin 8192) (d : Fin 256) :
    val_main_v48 (F := Ideal) x0 x1 x2 x3 x6 x7 x10 x11 x14 (ix2 i d) = Cert.Attn.attend (Cert.Attn.proj (fun i k => x0 (ix2 i k)) (fun d k => x2 (ix2 d k)) (fun d => x3 (ix1 d))) (Cert.Attn.proj (fun i k => x1 (ix2 i k)) (fun d k => x10 (ix2 d k)) (fun d => x11 (ix1 d))) (Cert.Attn.proj (fun i k => x0 (ix2 i k)) (fun d k => x6 (ix2 d k)) (fun d => x7 (ix1 d))) (Cert.Attn.invScale (x14 ix0)) i d := by
  rw [val_main_v48_apply]
  simp only [val_main_v47_apply, val_main_v46_apply, val_main_v45_apply]
  have e1 : ∀ k, lidx_main_v48 (ix2 i d) k = ix2 i k := fun k => by idx2
  have e2 : ∀ k, ridx_main_v48 (ix2 i d) k = ix2 k d := fun k => by idx2
  have e3 : ∀ k : Fin 8192, idx_main_v45 (idx_main_v46 (ix2 i k)) = ix1 i := fun k => by idx1
  simp only [e1, e2, e3, expShift_v43, rowSum_v44, proj_v14]
  rfl

/-- The result: the output projection of the attention rows plus its bias. -/
theorem out_v69 (i : Fin 8192) (e : Fin 512) :
    val_main_v69 (F := Ideal) x0 x1 x2 x3 x6 x7 x10 x11 x12 x13 x14 (ix2 i e)
      = Cert.Attn.branch (fun i k => x0 (ix2 i k)) (fun i k => x1 (ix2 i k)) (fun d k => x2 (ix2 d k)) (fun d => x3 (ix1 d)) (fun d k => x10 (ix2 d k)) (fun d => x11 (ix1 d)) (fun d k => x6 (ix2 d k)) (fun d => x7 (ix1 d)) (fun e d => x12 (ix2 e d)) (fun e => x13 (ix1 e)) (x14 ix0) i e := by
  rw [val_main_v69_apply, val_main_v66_apply, val_main_v68_apply, val_main_v67_apply]
  simp only [val_main_v65_apply]
  have e1 : ∀ k, lidx_main_v66 (ix2 i e) k = ix2 i k := fun k => by idx2
  have e2 : ∀ k, idx_main_v65 (ridx_main_v66 (ix2 i e) k) = ix2 e k := fun k => by idx2
  have e3 : idx_main_v67 (idx_main_v68 (ix2 i e)) = ix1 e := by idx1
  simp only [e1, e2, e3, attend_v48]
  rfl

/-! ### The second branch -/

/-- A linear layer of the program, read at one entry: the contraction over the input width plus the bias. -/
theorem proj_v19 (i : Fin 8192) (d : Fin 256) :
    val_main_v19 (F := Ideal) x1 x8 x9 (ix2 i d) = (Cert.Attn.proj (fun i k => x1 (ix2 i k)) (fun d k => x8 (ix2 d k)) (fun d => x9 (ix1 d))) i d := by
  rw [val_main_v19_apply, val_main_v16_apply, val_main_v18_apply, val_main_v17_apply]
  simp only [val_main_v15_apply]
  have e1 : ∀ k, lidx_main_v16 (ix2 i d) k = ix2 i k := fun k => by idx2
  have e2 : ∀ k, idx_main_v15 (ridx_main_v16 (ix2 i d) k) = ix2 d k := fun k => by idx2
  have e3 : idx_main_v17 (idx_main_v18 (ix2 i d)) = ix1 d := by idx1
  simp only [e1, e2, e3]
  rfl

/-- A linear layer of the program, read at one entry: the contraction over the input width plus the bias. -/
theorem proj_v9 (i : Fin 8192) (d : Fin 256) :
    val_main_v9 (F := Ideal) x0 x4 x5 (ix2 i d) = (Cert.Attn.proj (fun i k => x0 (ix2 i k)) (fun d k => x4 (ix2 d k)) (fun d => x5 (ix1 d))) i d := by
  rw [val_main_v9_apply, val_main_v6_apply, val_main_v8_apply, val_main_v7_apply]
  simp only [val_main_v5_apply]
  have e1 : ∀ k, lidx_main_v6 (ix2 i d) k = ix2 i k := fun k => by idx2
  have e2 : ∀ k, idx_main_v5 (ridx_main_v6 (ix2 i d) k) = ix2 d k := fun k => by idx2
  have e3 : idx_main_v7 (idx_main_v8 (ix2 i d)) = ix1 d := by idx1
  simp only [e1, e2, e3]
  rfl

/-- A linear layer of the program, read at one entry: the contraction over the input width plus the bias. -/
theorem proj_v29 (i : Fin 8192) (d : Fin 256) :
    val_main_v29 (F := Ideal) x1 x6 x7 (ix2 i d) = (Cert.Attn.proj (fun i k => x1 (ix2 i k)) (fun d k => x6 (ix2 d k)) (fun d => x7 (ix1 d))) i d := by
  rw [val_main_v29_apply, val_main_v26_apply, val_main_v28_apply, val_main_v27_apply]
  simp only [val_main_v25_apply]
  have e1 : ∀ k, lidx_main_v26 (ix2 i d) k = ix2 i k := fun k => by idx2
  have e2 : ∀ k, idx_main_v25 (ridx_main_v26 (ix2 i d) k) = ix2 d k := fun k => by idx2
  have e3 : idx_main_v27 (idx_main_v28 (ix2 i d)) = ix1 d := by idx1
  simp only [e1, e2, e3]
  rfl

/-- The scores: query row `i` against key row `j`, times the scale. -/
theorem score_v52 (i j : Fin 8192) :
    val_main_v52 (F := Ideal) x0 x1 x4 x5 x8 x9 x14 (ix2 i j) = Cert.Attn.score (Cert.Attn.proj (fun i k => x1 (ix2 i k)) (fun d k => x8 (ix2 d k)) (fun d => x9 (ix1 d))) (Cert.Attn.proj (fun i k => x0 (ix2 i k)) (fun d k => x4 (ix2 d k)) (fun d => x5 (ix1 d))) (Cert.Attn.invScale (x14 ix0)) i j := by
  rw [val_main_v52_apply, val_main_v50_apply, val_main_v51_apply, scale_v32]
  simp only [val_main_v49_apply]
  have e1 : ∀ k, lidx_main_v50 (ix2 i j) k = ix2 i k := fun k => by idx2
  have e2 : ∀ k, idx_main_v49 (ridx_main_v50 (ix2 i j) k) = ix2 j k := fun k => by idx2
  simp only [e1, e2, proj_v19, proj_v9]
  rfl

/-- The row maximum: the reduction from −∞ over the key axis, then once more against −∞. -/
theorem rowMax_v55 (i : Fin 8192) :
    val_main_v55 (F := Ideal) x0 x1 x4 x5 x8 x9 x14 (ix1 i) = Cert.Attn.rowMax (Cert.Attn.proj (fun i k => x1 (ix2 i k)) (fun d k => x8 (ix2 d k)) (fun d => x9 (ix1 d))) (Cert.Attn.proj (fun i k => x0 (ix2 i k)) (fun d k => x4 (ix2 d k)) (fun d => x5 (ix1 d))) (Cert.Attn.invScale (x14 ix0)) i := by
  rw [val_main_v55_apply, val_main_v54_apply, val_main_cst_6_apply]
  unfold val_main_v53
  rw [Host.reduce_eq_fold_single FloatOps.maximumf _ _ reducesTo_S8192x8192_S8192_d1 red1 h_S_, val_main_cst_5_apply]
  have hf : (val_main_v52 (F := Ideal) x0 x1 x4 x5 x8 x9 x14) ∘ red1.lift (ix1 i) = Cert.Attn.score (Cert.Attn.proj (fun i k => x1 (ix2 i k)) (fun d k => x8 (ix2 d k)) (fun d => x9 (ix1 d))) (Cert.Attn.proj (fun i k => x0 (ix2 i k)) (fun d k => x4 (ix2 d k)) (fun d => x5 (ix1 d))) (Cert.Attn.invScale (x14 ix0)) i :=
    funext fun k => (congrArg (val_main_v52 (F := Ideal) x0 x1 x4 x5 x8 x9 x14) (lift_red1 i k)).trans (score_v52 x0 x1 x4 x5 x8 x9 x14 i _)
  rw [hf, negInf_f32]
  rfl

/-- The shifted exponential of one score. -/
theorem expShift_v59 (i j : Fin 8192) :
    val_main_v59 (F := Ideal) x0 x1 x4 x5 x8 x9 x14 (ix2 i j) = Ideal.exp (Cert.Attn.score (Cert.Attn.proj (fun i k => x1 (ix2 i k)) (fun d k => x8 (ix2 d k)) (fun d => x9 (ix1 d))) (Cert.Attn.proj (fun i k => x0 (ix2 i k)) (fun d k => x4 (ix2 d k)) (fun d => x5 (ix1 d))) (Cert.Attn.invScale (x14 ix0)) i j - Cert.Attn.rowMax (Cert.Attn.proj (fun i k => x1 (ix2 i k)) (fun d k => x8 (ix2 d k)) (fun d => x9 (ix1 d))) (Cert.Attn.proj (fun i k => x0 (ix2 i k)) (fun d k => x4 (ix2 d k)) (fun d => x5 (ix1 d))) (Cert.Attn.invScale (x14 ix0)) i) := by
  rw [val_main_v59_apply, val_main_v58_apply, val_main_v57_apply, val_main_v56_apply, score_v52]
  have e1 : idx_main_v56 (idx_main_v57 (ix2 i j)) = ix1 i := by idx1
  rw [e1, rowMax_v55]
  rfl

/-- The row sum of the shifted exponentials, from the initial value 0. -/
theorem rowSum_v60 (i : Fin 8192) :
    val_main_v60 (F := Ideal) x0 x1 x4 x5 x8 x9 x14 (ix1 i) = Cert.Attn.rowSum (Cert.Attn.proj (fun i k => x1 (ix2 i k)) (fun d k => x8 (ix2 d k)) (fun d => x9 (ix1 d))) (Cert.Attn.proj (fun i k => x0 (ix2 i k)) (fun d k => x4 (ix2 d k)) (fun d => x5 (ix1 d))) (Cert.Attn.invScale (x14 ix0)) i := by
  rw [val_main_v60_apply, val_main_cst_7_apply]
  have e1 : ∀ k, idx_main_v60 (ix1 i) k = ix2 i k := fun k => by idx2
  simp only [e1, expShift_v59]
  rw [show (FloatOps.ofBits .f32 0x00000000#32 : Ideal .f32) = 0 from Ideal.ofBits_zero_f32]
  rfl

/-- Attention: the weights times the value rows, summed over the key axis. -/
theorem attend_v64 (i : Fin 8192) (d : Fin 256) :
    val_main_v64 (F := Ideal) x0 x1 x4 x5 x6 x7 x8 x9 x14 (ix2 i d) = Cert.Attn.attend (Cert.Attn.proj (fun i k => x1 (ix2 i k)) (fun d k => x8 (ix2 d k)) (fun d => x9 (ix1 d))) (Cert.Attn.proj (fun i k => x0 (ix2 i k)) (fun d k => x4 (ix2 d k)) (fun d => x5 (ix1 d))) (Cert.Attn.proj (fun i k => x1 (ix2 i k)) (fun d k => x6 (ix2 d k)) (fun d => x7 (ix1 d))) (Cert.Attn.invScale (x14 ix0)) i d := by
  rw [val_main_v64_apply]
  simp only [val_main_v63_apply, val_main_v62_apply, val_main_v61_apply]
  have e1 : ∀ k, lidx_main_v64 (ix2 i d) k = ix2 i k := fun k => by idx2
  have e2 : ∀ k, ridx_main_v64 (ix2 i d) k = ix2 k d := fun k => by idx2
  have e3 : ∀ k : Fin 8192, idx_main_v61 (idx_main_v62 (ix2 i k)) = ix1 i := fun k => by idx1
  simp only [e1, e2, e3, expShift_v59, rowSum_v60, proj_v29]
  rfl

/-- The result: the output projection of the attention rows plus its bias. -/
theorem out_v74 (i : Fin 8192) (e : Fin 512) :
    val_main_v74 (F := Ideal) x0 x1 x4 x5 x6 x7 x8 x9 x12 x13 x14 (ix2 i e)
      = Cert.Attn.branch (fun i k => x1 (ix2 i k)) (fun i k => x0 (ix2 i k)) (fun d k => x8 (ix2 d k)) (fun d => x9 (ix1 d)) (fun d k => x4 (ix2 d k)) (fun d => x5 (ix1 d)) (fun d k => x6 (ix2 d k)) (fun d => x7 (ix1 d)) (fun e d => x12 (ix2 e d)) (fun e => x13 (ix1 e)) (x14 ix0) i e := by
  rw [val_main_v74_apply, val_main_v71_apply, val_main_v73_apply, val_main_v72_apply]
  simp only [val_main_v70_apply]
  have e1 : ∀ k, lidx_main_v71 (ix2 i e) k = ix2 i k := fun k => by idx2
  have e2 : ∀ k, idx_main_v70 (ridx_main_v71 (ix2 i e) k) = ix2 e k := fun k => by idx2
  have e3 : idx_main_v72 (idx_main_v73 (ix2 i e)) = ix1 e := by idx1
  simp only [e1, e2, e3, attend_v64]
  rfl

end Stages

variable (m : (ℓ : Loc nD τ sig) → Buf (Elt Ideal) ℓ) (c : Dev nD)

/-! The argument arrays as plain index functions. -/
abbrev x1 : Fin 8192 → Fin 512 → EReal := fun i k => (m ((c.tc : Thread nD τ).loc main_arg0) : S8192x512.Idx → EReal) (ix2 i k)
abbrev x2 : Fin 8192 → Fin 512 → EReal := fun i k => (m ((c.tc : Thread nD τ).loc main_arg1) : S8192x512.Idx → EReal) (ix2 i k)
abbrev Wq1 : Fin 256 → Fin 512 → EReal := fun d k => (m ((c.tc : Thread nD τ).loc main_arg2) : S256x512.Idx → EReal) (ix2 d k)
abbrev bq1 : Fin 256 → EReal := fun d => (m ((c.tc : Thread nD τ).loc main_arg3) : S256.Idx → EReal) (ix1 d)
abbrev Wk1 : Fin 256 → Fin 512 → EReal := fun d k => (m ((c.tc : Thread nD τ).loc main_arg4) : S256x512.Idx → EReal) (ix2 d k)
abbrev bk1 : Fin 256 → EReal := fun d => (m ((c.tc : Thread nD τ).loc main_arg5) : S256.Idx → EReal) (ix1 d)
abbrev Wv : Fin 256 → Fin 512 → EReal := fun d k => (m ((c.tc : Thread nD τ).loc main_arg6) : S256x512.Idx → EReal) (ix2 d k)
abbrev bv : Fin 256 → EReal := fun d => (m ((c.tc : Thread nD τ).loc main_arg7) : S256.Idx → EReal) (ix1 d)
abbrev Wq2 : Fin 256 → Fin 512 → EReal := fun d k => (m ((c.tc : Thread nD τ).loc main_arg8) : S256x512.Idx → EReal) (ix2 d k)
abbrev bq2 : Fin 256 → EReal := fun d => (m ((c.tc : Thread nD τ).loc main_arg9) : S256.Idx → EReal) (ix1 d)
abbrev Wk2 : Fin 256 → Fin 512 → EReal := fun d k => (m ((c.tc : Thread nD τ).loc main_arg10) : S256x512.Idx → EReal) (ix2 d k)
abbrev bk2 : Fin 256 → EReal := fun d => (m ((c.tc : Thread nD τ).loc main_arg11) : S256.Idx → EReal) (ix1 d)
abbrev We : Fin 512 → Fin 256 → EReal := fun e d => (m ((c.tc : Thread nD τ).loc main_arg12) : S512x256.Idx → EReal) (ix2 e d)
abbrev be : Fin 512 → EReal := fun e => (m ((c.tc : Thread nD τ).loc main_arg13) : S512.Idx → EReal) (ix1 e)
abbrev scale : EReal := (m ((c.tc : Thread nD τ).loc main_arg14) : S_.Idx → EReal) ix0

/-- The first result: queries and values from the first input, keys from the second. -/
theorem out0_apply (i : Fin 8192) (e : Fin 512) :
    (Cert.ReferenceIdeal.Value.res_out0 (F := Ideal) m c : S8192x512.Idx → EReal) (ix2 i e)
      = Cert.Attn.branch (x1 m c) (x2 m c) (Wq1 m c) (bq1 m c) (Wk2 m c) (bk2 m c) (Wv m c) (bv m c) (We m c) (be m c) (scale m c) i e := by
  refine (congrFun (Read.val_main_v69_eq (F := Ideal) m c) (ix2 i e)).trans ?_
  exact out_v69 _ _ _ _ _ _ _ _ _ _ _ i e

/-- The second result: queries and values from the second input, keys from the first. -/
theorem out1_apply (i : Fin 8192) (e : Fin 512) :
    (Cert.ReferenceIdeal.Value.res_out1 (F := Ideal) m c : S8192x512.Idx → EReal) (ix2 i e)
      = Cert.Attn.branch (x2 m c) (x1 m c) (Wq2 m c) (bq2 m c) (Wk1 m c) (bk1 m c) (Wv m c) (bv m c) (We m c) (be m c) (scale m c) i e := by
  refine (congrFun (Read.val_main_v74_eq (F := Ideal) m c) (ix2 i e)).trans ?_
  exact out_v74 _ _ _ _ _ _ _ _ _ _ _ i e

end Cert.ReferenceIdeal.Attn

end
-- ==== Proof.lean ====
/-
  The certificate. Both printed kernels run to the end leaving their arguments unchanged (the launch over @main's five
  segments, at the word level and at the extended reals alike); the reference is host operations only; the idealization
  rewrote nothing; and at the extended reals, from memories agreeing on the arguments and under the precondition that
  every input number is finite, the kernel's two results and the reference's are the same function of the arguments:
  each branch's softmax attention, projected.
-/
import proofs.«412178_j26319559590733_3_alg».proof.Defs
import proofs.«412178_j26319559590733_3_alg».proof.Proof.Gen.Kernel
import proofs.«412178_j26319559590733_3_alg».proof.Proof.Gen.KernelIdeal
import proofs.«412178_j26319559590733_3_alg».proof.Proof.Gen.ReferenceIdeal
import proofs.«412178_j26319559590733_3_alg».proof.Proof.Gen.Pre_finite_inputs
import proofs.«412178_j26319559590733_3_alg».proof.Proof.KWhole
import proofs.«412178_j26319559590733_3_alg».proof.Proof.Bridge
import proofs.«412178_j26319559590733_3_alg».proof.Proof.RefSide
import Idealize.ShloMosaic.Adequacy
import Idealize.ShloMosaic.Init

noncomputable section

namespace Cert.Proof

open Idealize.ShloMosaic Idealize.SL.Sem Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ =>
  (θ_run Cert.Kernel.defs _ _).mono (fun _ h c => (h c).2.2) (Cert.Kernel.Attn.run_results (F := Bits) m ρ)

theorem frame_ki : Cert.frame_KernelIdeal := fun m ρ _ =>
  (θ_run Cert.KernelIdeal.defs _ _).mono (fun _ h c => (h c).2.2) (Cert.KernelIdeal.Attn.run_results (F := Ideal) m ρ)

theorem frame_ri : Cert.frame_ReferenceIdeal := fun m ρ _ =>
  (θ_run Cert.ReferenceIdeal.defs _ _).mono (fun _ h c => (h c).2.2) (Cert.ReferenceIdeal.Value.run (F := Ideal) m ρ)

/-- Both programs' results are the branch formulas of the (agreeing) arguments. -/
theorem algebraic : Cert.algebraic_KernelIdeal_ReferenceIdeal := by
  intro m ρ m' ρ' hpre hagree
  refine ⟨fun c => (Cert.KernelIdeal.Attn.dat0 (Cert.KernelIdeal.Attn.R3 m) c).arrAt 5 Cert.KernelIdeal.cfg0.N,
    fun c => (Cert.KernelIdeal.Attn.dat1 (Cert.KernelIdeal.Attn.R4 m) c).arrAt 5 Cert.KernelIdeal.cfg1.N,
    Cert.KernelIdeal.Attn.run_results (F := Ideal) m ρ, ?_⟩
  refine (θ_run Cert.ReferenceIdeal.defs _ _).mono (fun _ h c => ?_) (Cert.ReferenceIdeal.Value.run (F := Ideal) m' ρ')
  -- the reference reads its arguments where the kernel reads its own: the two memories agree there
  have h_x1 : Cert.ReferenceIdeal.Attn.x1 m' c = Cert.KernelIdeal.Attn.x1 m c :=
    funext fun a => funext fun b => congrFun (hagree c).1 (ix2 a b)
  have h_x2 : Cert.ReferenceIdeal.Attn.x2 m' c = Cert.KernelIdeal.Attn.x2 m c :=
    funext fun a => funext fun b => congrFun (hagree c).2.1 (ix2 a b)
  have h_Wq1 : Cert.ReferenceIdeal.Attn.Wq1 m' c = Cert.KernelIdeal.Attn.Wq1 m c :=
    funext fun a => funext fun b => congrFun (hagree c).2.2.1 (ix2 a b)
  have h_bq1 : Cert.ReferenceIdeal.Attn.bq1 m' c = Cert.KernelIdeal.Attn.bq1 m c :=
    funext fun a => congrFun (hagree c).2.2.2.1 (ix1 a)
  have h_Wk1 : Cert.ReferenceIdeal.Attn.Wk1 m' c = Cert.KernelIdeal.Attn.Wk1 m c :=
    funext fun a => funext fun b => congrFun (hagree c).2.2.2.2.1 (ix2 a b)
  have h_bk1 : Cert.ReferenceIdeal.Attn.bk1 m' c = Cert.KernelIdeal.Attn.bk1 m c :=
    funext fun a => congrFun (hagree c).2.2.2.2.2.1 (ix1 a)
  have h_Wv : Cert.ReferenceIdeal.Attn.Wv m' c = Cert.KernelIdeal.Attn.Wv m c :=
    funext fun a => funext fun b => congrFun (hagree c).2.2.2.2.2.2.1 (ix2 a b)
  have h_bv : Cert.ReferenceIdeal.Attn.bv m' c = Cert.KernelIdeal.Attn.bv m c :=
    funext fun a => congrFun (hagree c).2.2.2.2.2.2.2.1 (ix1 a)
  have h_Wq2 : Cert.ReferenceIdeal.Attn.Wq2 m' c = Cert.KernelIdeal.Attn.Wq2 m c :=
    funext fun a => funext fun b => congrFun (hagree c).2.2.2.2.2.2.2.2.1 (ix2 a b)
  have h_bq2 : Cert.ReferenceIdeal.Attn.bq2 m' c = Cert.KernelIdeal.Attn.bq2 m c :=
    funext fun a => congrFun (hagree c).2.2.2.2.2.2.2.2.2.1 (ix1 a)
  have h_Wk2 : Cert.ReferenceIdeal.Attn.Wk2 m' c = Cert.KernelIdeal.Attn.Wk2 m c :=
    funext fun a => funext fun b => congrFun (hagree c).2.2.2.2.2.2.2.2.2.2.1 (ix2 a b)
  have h_bk2 : Cert.ReferenceIdeal.Attn.bk2 m' c = Cert.KernelIdeal.Attn.bk2 m c :=
    funext fun a => congrFun (hagree c).2.2.2.2.2.2.2.2.2.2.2.1 (ix1 a)
  have h_We : Cert.ReferenceIdeal.Attn.We m' c = Cert.KernelIdeal.Attn.We m c :=
    funext fun a => funext fun b => congrFun (hagree c).2.2.2.2.2.2.2.2.2.2.2.2.1 (ix2 a b)
  have h_be : Cert.ReferenceIdeal.Attn.be m' c = Cert.KernelIdeal.Attn.be m c :=
    funext fun a => congrFun (hagree c).2.2.2.2.2.2.2.2.2.2.2.2.2.1 (ix1 a)
  have h_scale : Cert.ReferenceIdeal.Attn.scale m' c = Cert.KernelIdeal.Attn.scale m c :=
    congrFun (hagree c).2.2.2.2.2.2.2.2.2.2.2.2.2.2 ix0
  refine ⟨(h c).1.trans ?_, (h c).2.1.trans ?_, (h c).2.2⟩
  · funext j
    obtain ⟨a, b, rfl⟩ : ∃ (a : Fin 8192) (b : Fin 512), j = ix2 a b := ⟨j 0, j 1, eq_ix2 j⟩
    refine (Cert.ReferenceIdeal.Attn.out0_apply m' c a b).trans (Eq.trans ?_ (Cert.KernelIdeal.Attn.out0_eq m c hpre a b).symm)
    rw [h_x1, h_x2, h_Wq1, h_bq1, h_Wk2, h_bk2, h_Wv, h_bv, h_We, h_be, h_scale]
  · funext j
    obtain ⟨a, b, rfl⟩ : ∃ (a : Fin 8192) (b : Fin 512), j = ix2 a b := ⟨j 0, j 1, eq_ix2 j⟩
    refine (Cert.ReferenceIdeal.Attn.out1_apply m' c a b).trans (Eq.trans ?_ (Cert.KernelIdeal.Attn.out1_eq m c hpre a b).symm)
    rw [h_x2, h_x1, h_Wq2, h_bq2, h_Wk1, h_bk1, h_Wv, h_bv, h_We, h_be, h_scale]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
